-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S800000x1 : Shape := ⟨2, ![800000, 1]⟩
abbrev S258x128 : Shape := ⟨2, ![258, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x1 : S_.BroadcastsInDim S800000x1 (![] : Fin 0 → Fin S800000x1.rank)
  reducesTo_S800000x1_S_d0_1 : S800000x1.ReducesTo [0, 1] S_
  bcast_S_S258x128 : S_.BroadcastsInDim S258x128 (![] : Fin 0 → Fin S258x128.rank)
  reducesTo_S258x128_S_d0_1 : S258x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg2 : IVec S2x800000 32) (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 4294917296#32
  let main_v79 : IVec S2x800000 32 := broadcastInDim S2x800000 ![] bcast_S_S2x800000 main_c_30
  let main_v80 : IVec S2x800000 1 := cmpi .sge main_arg2 main_v79
  let main_c_31 : IVec S_ 32 := constantI S_ 32 50000#32
  let main_v81 : IVec S2x800000 32 := broadcastInDim S2x800000 ![] bcast_S_S2x800000 main_c_31
  let main_v82 : IVec S2x800000 1 := cmpi .slt main_arg2 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_v78 main_v84

def fn_part3 {F : FTy → Type} [FloatOps F] (main_arg2 : IVec S2x800000 32) (main_arg12 : FVec F S128x128 .f32) (main_arg13 : FVec F S128 .f32) (main_arg14 : FVec F S128x1 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg2 main_arg15 main_arg16 main_v63 main_v67

def fn_part2 {F : FTy → Type} [FloatOps F] (main_arg2 : IVec S2x800000 32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S128x1 .f32) (main_arg16 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_arg15 main_arg16 main_v48 main_v49 main_v50

def fn_part1 {F : FTy → Type} [FloatOps F] (main_arg2 : IVec S2x800000 32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S128x1 .f32) (main_arg16 : FVec F S1 .f32) (main_v13 : IVec S_ 1) (main_v16 : IVec S258x128 1) : IVec S_ 1 :=
  let main_c_5 : IVec S_ 1 := constantI S_ 1 1#1
  let main_v17 : IVec S_ 1 := (fun x v => Host.reduce IntOp.andi x v reducesTo_S258x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S50000x128 .f32) (main_arg1 : FVec F S50000x3 .f32) (main_arg2 : IVec S2x800000 32) (main_arg3 : FVec F S800000x1 .f32) (main_arg4 : FVec F S258x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S128x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x1 .f32 := Host.absf main_arg3
  let main_cst_2 : FVec F S_ .f32 := constant S_ .f32 0x7F800000#32
  let main_v10 : FVec F S800000x1 .f32 := broadcastInDim S800000x1 ![] bcast_S_S800000x1 main_cst_2
  let main_v11 : IVec S800000x1 1 := cmpf .olt main_v9 main_v10
  let main_c_3 : IVec S_ 1 := constantI S_ 1 1#1
  let main_v12 : IVec S_ 1 := (fun x v => Host.reduce IntOp.andi x v reducesTo_S800000x1_S_d0_1 h_S_) main_v11 main_c_3
  let main_v13 : IVec S_ 1 := andi main_v8 main_v12
  let main_v14 : FVec F S258x128 .f32 := Host.absf main_arg4
  let main_cst_4 : FVec F S_ .f32 := constant S_ .f32 0x7F800000#32
  let main_v15 : FVec F S258x128 .f32 := broadcastInDim S258x128 ![] bcast_S_S258x128 main_cst_4
  let main_v16 : IVec S258x128 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S800000x1 : Shape := ⟨2, ![800000, 1]⟩
abbrev S258x128 : Shape := ⟨2, ![258, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S1x1 : Shape := ⟨2, ![1, 1]⟩
abbrev S800000x128 : Shape := ⟨2, ![800000, 128]⟩
abbrev S800000x3 : Shape := ⟨2, ![800000, 3]⟩
abbrev S800000x7 : Shape := ⟨2, ![800000, 7]⟩
abbrev S1x128 : Shape := ⟨2, ![1, 128]⟩
abbrev S1600x128 : Shape := ⟨2, ![1600, 128]⟩
abbrev S1600x7 : Shape := ⟨2, ![1600, 7]⟩
abbrev S1600x3 : Shape := ⟨2, ![1600, 3]⟩
abbrev S1600x1 : Shape := ⟨2, ![1600, 1]⟩
abbrev S1600 : Shape := ⟨1, ![1600]⟩
abbrev S50000 : Shape := ⟨1, ![50000]⟩
abbrev S50000x1 : Shape := ⟨2, ![50000, 1]⟩
abbrev S2000x128 : Shape := ⟨2, ![2000, 128]⟩

abbrev nBuf : Space → Nat
  | .hbm => 151
  | .vmem => 33
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S800000x1, .f32⟩
  | 4 => ⟨S258x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x128, .f32⟩
  | 40 => ⟨S800000x128, .i1⟩
  | 41 => ⟨S_, .f32⟩
  | 42 => ⟨S800000x128, .f32⟩
  | 43 => ⟨S800000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x128, .f32⟩
  | 63 => ⟨S800000x128, .i1⟩
  | 64 => ⟨S_, .f32⟩
  | 65 => ⟨S800000x128, .f32⟩
  | 66 => ⟨S800000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S1, .i32⟩
  | 76 => ⟨S_, .i32⟩
  | 77 => ⟨S800000x1, .i32⟩
  | 78 => ⟨S800000x1, .i1⟩
  | 79 => ⟨S1x1, .i32⟩
  | 80 => ⟨S800000x1, .i32⟩
  | 81 => ⟨S800000x1, .i1⟩
  | 82 => ⟨S800000x1, .i1⟩
  | 83 => ⟨S_, .i1⟩
  | 84 => ⟨S800000, .i1⟩
  | 85 => ⟨S800000x3, .f32⟩
  | 86 => ⟨S800000x3, .i1⟩
  | 87 => ⟨S_, .f32⟩
  | 88 => ⟨S800000x3, .f32⟩
  | 89 => ⟨S800000x3, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x3, .f32⟩
  | 109 => ⟨S800000x3, .i1⟩
  | 110 => ⟨S_, .f32⟩
  | 111 => ⟨S800000x3, .f32⟩
  | 112 => ⟨S800000x3, .f32⟩
  | 113 => ⟨S800000x7, .f32⟩
  | 114 => ⟨S128x128, .f32⟩
  | 115 => ⟨S128x128, .f32⟩
  | 116 => ⟨S1x128, .f32⟩
  | 117 => ⟨S1x128, .f32⟩
  | 118 => ⟨S1x128, .f32⟩
  | 119 => ⟨S1x128, .f32⟩
  | 120 => ⟨S1x1, .f32⟩
  | 121 => ⟨S1x128, .f32⟩
  | 122 => ⟨S800000x128, .f32⟩
  | 123 => ⟨S800000x3, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S_, .f32⟩
  | 1 => ⟨S50000x3, .f32⟩
  | 2 => ⟨S800000x1, .i32⟩
  | 3 => ⟨S50000x3, .f32⟩
  | 4 => ⟨S_, .f32⟩
  | 5 => ⟨S800000, .f32⟩
  | 6 => ⟨S_, .f32⟩
  | 7 => ⟨S50000, .f32⟩
  | 8 => ⟨S800000x1, .i32⟩
  | 9 => ⟨S50000, .f32⟩
  | 10 => ⟨S_, .f32⟩
  | 11 => ⟨S_, .f32⟩
  | 12 => ⟨S50000, .f32⟩
  | 13 => ⟨S50000, .f32⟩
  | 14 => ⟨S50000x1, .f32⟩
  | 15 => ⟨S50000x3, .f32⟩
  | 16 => ⟨S50000x3, .f32⟩
  | 17 => ⟨S50000x3, .f32⟩
  | 18 => ⟨S128x128, .f32⟩
  | 19 => ⟨S128x128, .f32⟩
  | 20 => ⟨S1x128, .f32⟩
  | 21 => ⟨S1x128, .f32⟩
  | 22 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1600x128, .f32⟩
  | .local _ .vmem, ⟨1, _⟩ => ⟨S1600x128, .f32⟩
  | .local _ .vmem, ⟨2, _⟩ => ⟨S1600x128, .f32⟩
  | .local _ .vmem, ⟨3, _⟩ => ⟨S1600x128, .f32⟩
  | .local _ .vmem, ⟨4, _⟩ => ⟨S1600x7, .f32⟩
  | .local _ .vmem, ⟨5, _⟩ => ⟨S1600x7, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x1, .f32⟩
  | .local _ .vmem, ⟨14, _⟩ => ⟨S1x1, .f32⟩
  | .local _ .vmem, ⟨15, _⟩ => ⟨S128x128, .f32⟩
  | .local _ .vmem, ⟨16, _⟩ => ⟨S1x128, .f32⟩
  | .local _ .vmem, ⟨17, _⟩ => ⟨S128x1, .f32⟩
  | .local _ .vmem, ⟨18, _⟩ => ⟨S1600x128, .f32⟩
  | .local _ .vmem, ⟨19, _⟩ => ⟨S1600x128, .f32⟩
  | .local _ .vmem, ⟨20, _⟩ => ⟨S1600x3, .f32⟩
  | .local _ .vmem, ⟨21, _⟩ => ⟨S1600x3, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v6 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v7 : Ref sig .tc := ⟨.hbm, 112, rfl⟩
abbrev main_v8 : Ref sig .tc := ⟨.hbm, 113, rfl⟩
abbrev main_v9 : Ref sig .tc := ⟨.hbm, 114, rfl⟩
abbrev main_v10 : Ref sig .tc := ⟨.hbm, 115, rfl⟩
abbrev main_v11 : Ref sig .tc := ⟨.hbm, 116, rfl⟩
abbrev main_v12 : Ref sig .tc := ⟨.hbm, 117, rfl⟩
abbrev main_v13 : Ref sig .tc := ⟨.hbm, 118, rfl⟩
abbrev main_v14 : Ref sig .tc := ⟨.hbm, 119, rfl⟩
abbrev main_v15 : Ref sig .tc := ⟨.hbm, 120, rfl⟩
abbrev main_v16 : Ref sig .tc := ⟨.hbm, 121, rfl⟩
abbrev main_v17_0 : Ref sig .tc := ⟨.hbm, 122, rfl⟩
abbrev main_v17_1 : Ref sig .tc := ⟨.hbm, 123, rfl⟩
abbrev main_cst : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_cst_0 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_cst_1 : Ref sig .tc := ⟨.hbm, 132, rfl⟩
abbrev main_v24 : Ref sig .tc := ⟨.hbm, 133, rfl⟩
abbrev main_cst_2 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_cst_3 : Ref sig .tc := ⟨.hbm, 138, rfl⟩
abbrev main_call4_v0 : Ref sig .tc := ⟨.hbm, 139, rfl⟩
abbrev main_call4_v1 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem7_1 : DmaSem sig := 32

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1600x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1600x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x3_0 : S800000.BroadcastsInDim S800000x3 (![0] : Fin 1 → Fin S800000x3.rank)
  bcast_S_S800000x3 : S_.BroadcastsInDim S800000x3 (![] : Fin 0 → Fin S800000x3.rank)
  concatenates_S800000x3_S800000x3_S800000x1_S800000x7_d1 : Shape.Concatenates [S800000x3, S800000x3, S800000x1] S800000x7 1
  slices_S258x128_S128x128_0_0 : S258x128.Slices ![0, 0] S128x128
  slices_S258x128_S128x128_128_0 : S258x128.Slices ![128, 0] S128x128
  slices_S258x128_S1x128_256_0 : S258x128.Slices ![256, 0] S1x128
  slices_S258x128_S1x128_257_0 : S258x128.Slices ![257, 0] S1x128
  shapeCasts_S128_S1x128 : S128.ShapeCasts S1x128
  shapeCasts_S1_S1x1 : S1.ShapeCasts S1x1
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  inb_S1600x7_S1600x7_0_0 : ∀ a, (![0, 0] : Fin 2 → Nat) a + S1600x7.size a ≤ S1600x7.size a
  h_S1600x7 : 0 < S1600x7.numel
  shapeCasts_S1600x7_S1600x7 : S1600x7.ShapeCasts S1600x7
  slices_S1600x7_o0_0_S1600x3 : S1600x7.Slices ![0, 0] S1600x3
  slices_S1600x7_o0_3_S1600x3 : S1600x7.Slices ![0, 3] S1600x3
  slices_S1600x7_o0_6_S1600x1 : S1600x7.Slices ![0, 6] S1600x1
  reduces_S1600x3_S1600 : S1600x3.Reduces [1] S1600
  shapeCasts_S1600_S1600x1 : S1600.ShapeCasts S1600x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1600x1_S1600x128 : S1600x1.Broadcasts S1600x128
  broadcasts_S1x128_S1600x128 : S1x128.Broadcasts S1600x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1600x1 : S1x1.Broadcasts S1600x1
  broadcasts_S1600x1_S1600x3 : S1600x1.Broadcasts S1600x3
  inb_S1600x3_S1600x3_0_0 : ∀ a, (![0, 0] : Fin 2 → Nat) a + S1600x3.size a ≤ S1600x3.size a
  h_S1600x3 : 0 < S1600x3.numel
  bcast_S_S50000x128 : S_.BroadcastsInDim S50000x128 (![] : Fin 0 → Fin S50000x128.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S1600x128_S128x128_S1600x128_1_0_0_1_n_n_wf : DotDims.WF S1600x128 S128x128 S1600x128 [1] [0] [0] [1] [] []
  dot_S1600x128_S128x1_S1600x1_1_0_0_1_n_n_wf : DotDims.WF S1600x128 S128x1 S1600x1 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S800000x128.size a
  hwx0_0 : ∀ i : grid0.Coords, EltTy.bits .f32 = 32 ∨ (Rect.block (s := S800000x128) S1600x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S800000x128.size a
  hwx0_1 : ∀ i : grid0.Coords, EltTy.bits .f32 = 32 ∨ (Rect.block (s := S800000x128) S1600x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x7.size a ≤ S800000x7.size a
  hwx0_2 : ∀ i : grid0.Coords, EltTy.bits .f32 = 32 ∨ (Rect.block (s := S800000x7) S1600x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1600x128.size a ≤ S800000x128.size a
  hwx0_15 : ∀ i : grid0.Coords, EltTy.bits .f32 = 32 ∨ (Rect.block (s := S800000x128) S1600x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1600x3.size a ≤ S800000x3.size a
  hwx0_16 : ∀ i : grid0.Coords, EltTy.bits .f32 = 32 ∨ (Rect.block (s := S800000x3) S1600x3.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf
def dot_S1600x128_S128x1_S1600x1_1_0_0_1_n_n : DotDims S1600x128 S128x1 S1600x1 where
  lhsContracting := [1]
  rhsContracting := [0]
  lhsNonContracting := [0]
  rhsNonContracting := [1]
  lhsBatch := []
  rhsBatch := []
  wf := dot_S1600x128_S128x1_S1600x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1600x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v17_0) S1600x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v17_1) S1600x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S800000x1 : Shape := ⟨2, ![800000, 1]⟩
abbrev S258x128 : Shape := ⟨2, ![258, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x3 : Shape := ⟨2, ![800000, 3]⟩
abbrev S800000x128 : Shape := ⟨2, ![800000, 128]⟩
abbrev S800000x258 : Shape := ⟨2, ![800000, 258]⟩
abbrev S1x128 : Shape := ⟨2, ![1, 128]⟩
abbrev S1x1 : Shape := ⟨2, ![1, 1]⟩
abbrev S50000x256 : Shape := ⟨2, ![50000, 256]⟩
abbrev S50000 : Shape := ⟨1, ![50000]⟩
abbrev S50000x1 : Shape := ⟨2, ![50000, 1]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S50000x3, .f32⟩
  | 2 => ⟨S2x800000, .i32⟩
  | 3 => ⟨S800000x1, .f32⟩
  | 4 => ⟨S258x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x3, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x3, .f32⟩
  | 39 => ⟨S800000x3, .f32⟩
  | 40 => ⟨S800000x3, .f32⟩
  | 41 => ⟨S_, .f32⟩
  | 42 => ⟨S800000, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x258, .f32⟩
  | 63 => ⟨S800000x128, .f32⟩
  | 64 => ⟨S1x128, .f32⟩
  | 65 => ⟨S800000x128, .f32⟩
  | 66 => ⟨S800000x128, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S_, .f32⟩
  | 73 => ⟨S800000x128, .f32⟩
  | 74 => ⟨S800000x128, .f32⟩
  | 75 => ⟨S800000x128, .f32⟩
  | 76 => ⟨S800000x128, .f32⟩
  | 77 => ⟨S1x128, .f32⟩
  | 78 => ⟨S800000x128, .f32⟩
  | 79 => ⟨S800000x128, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S_, .f32⟩
  | 86 => ⟨S800000x128, .f32⟩
  | 87 => ⟨S800000x128, .f32⟩
  | 88 => ⟨S800000x128, .f32⟩
  | 89 => ⟨S800000x1, .f32⟩
  | 90 => ⟨S1x1, .f32⟩
  | 91 => ⟨S800000x1, .f32⟩
  | 92 => ⟨S800000x1, .f32⟩
  | 93 => ⟨S800000x1, .f32⟩
  | 94 => ⟨S800000x1, .f32⟩
  | 95 => ⟨S_, .f32⟩
  | 96 => ⟨S800000x1, .f32⟩
  | 97 => ⟨S800000x1, .f32⟩
  | 98 => ⟨S_, .f32⟩
  | 99 => ⟨S800000x1, .f32⟩
  | 100 => ⟨S800000x1, .f32⟩
  | 101 => ⟨S800000x128, .f32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S50000x256, .f32⟩
  | 108 => ⟨S50000x128, .f32⟩
  | 109 => ⟨S1x128, .f32⟩
  | 110 => ⟨S50000x128, .f32⟩
  | 111 => ⟨S50000x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S50000x128, .f32⟩
  | 126 => ⟨S800000x128, .f32⟩
  | 127 => ⟨S1x128, .f32⟩
  | _ => ⟨S50000x128, .f32⟩

abbrev hbmTy0_1 (i : Nat) : BufTy := match i % 128 with
  | 0 => ⟨S800000x128, .f32⟩
  | 1 => ⟨S800000x128, .f32⟩
  | 2 => ⟨S800000x128, .f32⟩
  | 3 => ⟨S800000x128, .f32⟩
  | 4 => ⟨S_, .f32⟩
  | 5 => ⟨S800000x128, .f32⟩
  | 6 => ⟨S800000x128, .f32⟩
  | 7 => ⟨S_, .f32⟩
  | 8 => ⟨S800000x128, .f32⟩
  | 9 => ⟨S800000x128, .f32⟩
  | 10 => ⟨S800000x128, .f32⟩
  | 11 => ⟨S800000x1, .f32⟩
  | 12 => ⟨S800000x3, .f32⟩
  | 13 => ⟨S800000x3, .f32⟩
  | 14 => ⟨S_, .f32⟩
  | 15 => ⟨S50000x3, .f32⟩
  | 16 => ⟨S800000x1, .i32⟩
  | 17 => ⟨S50000x3, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S_, .f32⟩
  | 26 => ⟨S50000, .f32⟩
  | 27 => ⟨S50000, .f32⟩
  | 28 => ⟨S50000x1, .f32⟩
  | 29 => ⟨S50000x3, .f32⟩
  | 30 => ⟨S50000x3, .f32⟩
  | 31 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_7 : Ref sig .tc := ⟨.hbm, 95, rfl⟩
abbrev main_v53 : Ref sig .tc := ⟨.hbm, 96, rfl⟩
abbrev main_v54 : Ref sig .tc := ⟨.hbm, 97, rfl⟩
abbrev main_cst_8 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_9 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call2_v0 : Ref sig .tc := ⟨.hbm, 112, rfl⟩
abbrev main_call2_v1 : Ref sig .tc := ⟨.hbm, 113, rfl⟩
abbrev main_call2_cst : Ref sig .tc := ⟨.hbm, 114, rfl⟩
abbrev main_call2_v2 : Ref sig .tc := ⟨.hbm, 115, rfl⟩
abbrev main_call2_v3 : Ref sig .tc := ⟨.hbm, 116, rfl⟩
abbrev main_call2_cst_0 : Ref sig .tc := ⟨.hbm, 117, rfl⟩
abbrev main_call2_v4 : Ref sig .tc := ⟨.hbm, 118, rfl⟩
abbrev main_call2_v5 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_call3_v0 : Ref sig .tc := ⟨.hbm, 130, rfl⟩
abbrev main_call3_v1 : Ref sig .tc := ⟨.hbm, 131, rfl⟩
abbrev main_call3_cst : Ref sig .tc := ⟨.hbm, 132, rfl⟩
abbrev main_call3_v2 : Ref sig .tc := ⟨.hbm, 133, rfl⟩
abbrev main_call3_v3 : Ref sig .tc := ⟨.hbm, 134, rfl⟩
abbrev main_call3_cst_0 : Ref sig .tc := ⟨.hbm, 135, rfl⟩
abbrev main_call3_v4 : Ref sig .tc := ⟨.hbm, 136, rfl⟩
abbrev main_call3_v5 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_10 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_11 : Ref sig .tc := ⟨.hbm, 146, rfl⟩
abbrev main_v84 : Ref sig .tc := ⟨.hbm, 147, rfl⟩
abbrev main_cst_12 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_cst_13 : Ref sig .tc := ⟨.hbm, 152, rfl⟩
abbrev main_call4_v0 : Ref sig .tc := ⟨.hbm, 153, rfl⟩
abbrev main_call4_v1 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x1_S800000x258_d1 : Shape.Concatenates [S800000x128, S800000x128, S800000x1, S800000x1] S800000x258 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x258_S258x128_S800000x128_1_0_0_1_n_n_wf : DotDims.WF S800000x258 S258x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x258_S258x128_S800000x128_1_0_0_1_n_n : DotDims S800000x258 S258x128 S800000x128 where
  lhsContracting := [1]
  rhsContracting := [0]
  lhsNonContracting := [0]
  rhsNonContracting := [1]
  lhsBatch := []
  rhsBatch := []
  wf := dot_S800000x258_S258x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Kernel.FrameEdge.lean ====
import proofs.«430614_j61916248539245_1_alg».proof.Proof.Gen.Kernel.Launch
import proofs.«430614_j61916248539245_1_alg».proof.Proof.Gen.Kernel.Skeleton
import proofs.«430614_j61916248539245_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The edge kernel's half of the frame, at any float instance

The first pallas_call runs the edge kernel over a grid of 500 points. At each point the pipeline hands the body
seventeen staging buffers: fifteen inputs (two gathered node-feature blocks, the block of coordinate differences and
edge attributes, and twelve weight and bias arrays that do not move with the point) and two outputs (the block of
messages and the block of weighted coordinate differences).

The body reads every input buffer whole, computes, and writes each output buffer whole, once. So what it leaves in
an output buffer is a function of the fifteen input blocks alone, whatever the buffer held before: the single whole
write covers every index. This module states that function for each output, proves the body's triple by running it,
and packages the result as the pipeline's proof data and body obligation, parametrised by the buffer contents `V`
the region finds on entry.
-/

-- membership in a rectangle with an axis of 1600 coordinates recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def edgeBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds the window's block at every point, whether the pipeline fetched
it there or not: where it did not, the block index has not moved since the last fetch and the body left the buffer as
it found it. This holds for any proof data whose array is the entry contents and whose body leaves the block in place;
no input window is cut and none is ever idle. One lemma per input window. -/

theorem edgeBefore_0_of {c : Dev nD} (dat : Dat τ (Elt F) Unit ℕ (UR sig nD τ) ℕ cfg0 c) (hA : dat.A 0 = V c (Pipeline.arrRef spec0 0))
    (hafter : ∀ t, dat.after 0 t = edgeBlk V c 0 t) (t : Fin cfg0.N) (d) : dat.before 0 t d = edgeBlk V c 0 t :=
  (dat.before_in_eq_fetched 0 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_1_of {c : Dev nD} (dat : Dat τ (Elt F) Unit ℕ (UR sig nD τ) ℕ cfg0 c) (hA : dat.A 1 = V c (Pipeline.arrRef spec0 1))
    (hafter : ∀ t, dat.after 1 t = edgeBlk V c 1 t) (t : Fin cfg0.N) (d) : dat.before 1 t d = edgeBlk V c 1 t :=
  (dat.before_in_eq_fetched 1 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_2_of {c : Dev nD} (dat : Dat τ (Elt F) Unit ℕ (UR sig nD τ) ℕ cfg0 c) (hA : dat.A 2 = V c (Pipeline.arrRef spec0 2))
    (hafter : ∀ t, dat.after 2 t = edgeBlk V c 2 t) (t : Fin cfg0.N) (d) : dat.before 2 t d = edgeBlk V c 2 t :=
  (dat.before_in_eq_fetched 2 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_3_of {c : Dev nD} (dat : Dat τ (Elt F) Unit ℕ (UR sig nD τ) ℕ cfg0 c) (hA : dat.A 3 = V c (Pipeline.arrRef spec0 3))
    (hafter : ∀ t, dat.after 3 t = edgeBlk V c 3 t) (t : Fin cfg0.N) (d) : dat.before 3 t d = edgeBlk V c 3 t :=
  (dat.before_in_eq_fetched 3 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_4_of {c : Dev nD} (dat : Dat τ (Elt F) Unit ℕ (UR sig nD τ) ℕ cfg0 c) (hA : dat.A 4 = V c (Pipeline.arrRef spec0 4))
    (hafter : ∀ t, dat.after 4 t = edgeBlk V c 4 t) (t : Fin cfg0.N) (d) : dat.before 4 t d = edgeBlk V c 4 t :=
  (dat.before_in_eq_fetched 4 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_5_of {c : Dev nD} (dat : Dat τ (Elt F) Unit ℕ (UR sig nD τ) ℕ cfg0 c) (hA : dat.A 5 = V c (Pipeline.arrRef spec0 5))
    (hafter : ∀ t, dat.after 5 t = edgeBlk V c 5 t) (t : Fin cfg0.N) (d) : dat.before 5 t d = edgeBlk V c 5 t :=
  (dat.before_in_eq_fetched 5 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_6_of {c : Dev nD} (dat : Dat τ (Elt F) Unit ℕ (UR sig nD τ) ℕ cfg0 c) (hA : dat.A 6 = V c (Pipeline.arrRef spec0 6))
    (hafter : ∀ t, dat.after 6 t = edgeBlk V c 6 t) (t : Fin cfg0.N) (d) : dat.before 6 t d = edgeBlk V c 6 t :=
  (dat.before_in_eq_fetched 6 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_7_of {c : Dev nD} (dat : Dat τ (Elt F) Unit ℕ (UR sig nD τ) ℕ cfg0 c) (hA : dat.A 7 = V c (Pipeline.arrRef spec0 7))
    (hafter : ∀ t, dat.after 7 t = edgeBlk V c 7 t) (t : Fin cfg0.N) (d) : dat.before 7 t d = edgeBlk V c 7 t :=
  (dat.before_in_eq_fetched 7 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_8_of {c : Dev nD} (dat : Dat τ (Elt F) Unit ℕ (UR sig nD τ) ℕ cfg0 c) (hA : dat.A 8 = V c (Pipeline.arrRef spec0 8))
    (hafter : ∀ t, dat.after 8 t = edgeBlk V c 8 t) (t : Fin cfg0.N) (d) : dat.before 8 t d = edgeBlk V c 8 t :=
  (dat.before_in_eq_fetched 8 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_9_of {c : Dev nD} (dat : Dat τ (Elt F) Unit ℕ (UR sig nD τ) ℕ cfg0 c) (hA : dat.A 9 = V c (Pipeline.arrRef spec0 9))
    (hafter : ∀ t, dat.after 9 t = edgeBlk V c 9 t) (t : Fin cfg0.N) (d) : dat.before 9 t d = edgeBlk V c 9 t :=
  (dat.before_in_eq_fetched 9 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_10_of {c : Dev nD} (dat : Dat τ (Elt F) Unit ℕ (UR sig nD τ) ℕ cfg0 c) (hA : dat.A 10 = V c (Pipeline.arrRef spec0 10))
    (hafter : ∀ t, dat.after 10 t = edgeBlk V c 10 t) (t : Fin cfg0.N) (d) : dat.before 10 t d = edgeBlk V c 10 t :=
  (dat.before_in_eq_fetched 10 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_11_of {c : Dev nD} (dat : Dat τ (Elt F) Unit ℕ (UR sig nD τ) ℕ cfg0 c) (hA : dat.A 11 = V c (Pipeline.arrRef spec0 11))
    (hafter : ∀ t, dat.after 11 t = edgeBlk V c 11 t) (t : Fin cfg0.N) (d) : dat.before 11 t d = edgeBlk V c 11 t :=
  (dat.before_in_eq_fetched 11 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_12_of {c : Dev nD} (dat : Dat τ (Elt F) Unit ℕ (UR sig nD τ) ℕ cfg0 c) (hA : dat.A 12 = V c (Pipeline.arrRef spec0 12))
    (hafter : ∀ t, dat.after 12 t = edgeBlk V c 12 t) (t : Fin cfg0.N) (d) : dat.before 12 t d = edgeBlk V c 12 t :=
  (dat.before_in_eq_fetched 12 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_13_of {c : Dev nD} (dat : Dat τ (Elt F) Unit ℕ (UR sig nD τ) ℕ cfg0 c) (hA : dat.A 13 = V c (Pipeline.arrRef spec0 13))
    (hafter : ∀ t, dat.after 13 t = edgeBlk V c 13 t) (t : Fin cfg0.N) (d) : dat.before 13 t d = edgeBlk V c 13 t :=
  (dat.before_in_eq_fetched 13 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_14_of {c : Dev nD} (dat : Dat τ (Elt F) Unit ℕ (UR sig nD τ) ℕ cfg0 c) (hA : dat.A 14 = V c (Pipeline.arrRef spec0 14))
    (hafter : ∀ t, dat.after 14 t = edgeBlk V c 14 t) (t : Fin cfg0.N) (d) : dat.before 14 t d = edgeBlk V c 14 t :=
  (dat.before_in_eq_fetched 14 rfl (fun _ => rfl) (fun _ _ _ => rfl) (fun t => by rw [hafter]; unfold Dat.blockOf edgeBlk; rw [hA]; try rfl) t d).trans
    (by unfold Dat.fetched Dat.blockOf edgeBlk; rw [hA]; try rfl)

/-! ## The body's accesses

Every load and every store of the body is through the rectangle that is its whole buffer: one per buffer shape. -/

abbrev rFeat : Rect S1600x128 := Rect.unit (s := S1600x128) ![0, 0] S1600x128.size inb_S1600x128_S1600x128_0_0
abbrev rAttr : Rect S1600x7 := Rect.unit (s := S1600x7) ![0, 0] S1600x7.size inb_S1600x7_S1600x7_0_0
abbrev rSquare : Rect S128x128 := Rect.unit (s := S128x128) ![0, 0] S128x128.size inb_S128x128_S128x128_0_0
abbrev rRow : Rect S1x128 := Rect.unit (s := S1x128) ![0, 0] S1x128.size inb_S1x128_S1x128_0_0
abbrev rCol : Rect S128x1 := Rect.unit (s := S128x1) ![0, 0] S128x1.size inb_S128x1_S128x1_0_0
abbrev rOne : Rect S1x1 := Rect.unit (s := S1x1) ![0, 0] S1x1.size inb_S1x1_S1x1_0_0
abbrev rCoord : Rect S1600x3 := Rect.unit (s := S1600x3) ![0, 0] S1600x3.size inb_S1600x3_S1600x3_0_0

/-! ## What the body leaves in each output window's buffer -/

/-- The message window's staging buffer after the body, from the input windows' blocks: its one store, of the gated
    hidden activation — the first layer's pre-activation over the two feature blocks, the squared distance and the
    edge attribute, then two SiLU layers and the sigmoid gate. -/
def edgeMsgOut (x0 : Vec F S1600x128 .f32) (x1 : Vec F S1600x128 .f32) (x2 : Vec F S1600x7 .f32) (x3 : Vec F S128x128 .f32) (x4 : Vec F S128x128 .f32) (x5 : Vec F S1x128 .f32) (x6 : Vec F S1x128 .f32) (x7 : Vec F S1x128 .f32) (x8 : Vec F S128x128 .f32) (x9 : Vec F S1x128 .f32) (x10 : Vec F S128x1 .f32) (x11 : Vec F S1x1 .f32) (x12 : Vec F S128x128 .f32) (x13 : Vec F S1x128 .f32) (x14 : Vec F S128x1 .f32) : Vec F S1600x128 .f32 :=
  View.canon [⟨rFeat, k0_pay4 (k0_pay3 (View.ld x0 rFeat) (View.ld x1 rFeat) (View.ld x2 rAttr) (View.ld x3 rSquare) (View.ld x4 rSquare) (View.ld x5 rRow) (View.ld x6 rRow) (View.ld x7 rRow)) (View.ld x8 rSquare) (View.ld x9 rRow) (View.ld x10 rCol) (View.ld x11 rOne)⟩]

/-- The coordinate window's staging buffer after the body, from the input windows' blocks: its one store, of the
    coordinate difference scaled row by row by the coordinate network's scalar output on the message. -/
def edgeWdOut (x0 : Vec F S1600x128 .f32) (x1 : Vec F S1600x128 .f32) (x2 : Vec F S1600x7 .f32) (x3 : Vec F S128x128 .f32) (x4 : Vec F S128x128 .f32) (x5 : Vec F S1x128 .f32) (x6 : Vec F S1x128 .f32) (x7 : Vec F S1x128 .f32) (x8 : Vec F S128x128 .f32) (x9 : Vec F S1x128 .f32) (x10 : Vec F S128x1 .f32) (x11 : Vec F S1x1 .f32) (x12 : Vec F S128x128 .f32) (x13 : Vec F S1x128 .f32) (x14 : Vec F S128x1 .f32) : Vec F S1600x3 .f32 :=
  View.canon [⟨rCoord, k0_pay5 (k0_pay2 (View.ld x2 rAttr)) (k0_pay3 (View.ld x0 rFeat) (View.ld x1 rFeat) (View.ld x2 rAttr) (View.ld x3 rSquare) (View.ld x4 rSquare) (View.ld x5 rRow) (View.ld x6 rRow) (View.ld x7 rRow)) (View.ld x8 rSquare) (View.ld x9 rRow) (View.ld x10 rCol) (View.ld x11 rOne) (View.ld x12 rSquare) (View.ld x13 rRow) (View.ld x14 rCol)⟩]

/-- The one store to the message buffer is through the whole-buffer rectangle, so it covers every index. -/
theorem edgeMsg_cover (p0 : Vec F S1600x128 .f32) (y : S1600x128.Idx) :
    ∃ pc ∈ ([⟨rFeat, p0⟩] : List (View.Piece (Elt F) S1600x128 .f32)), y ∈ pc.1.set :=
  View.cover_of_tiled [⟨rFeat, p0⟩] S1600x128.size (by rfl) y

/-- The one store to the coordinate buffer is through the whole-buffer rectangle, so it covers every index. -/
theorem edgeWd_cover (p0 : Vec F S1600x3 .f32) (y : S1600x3.Idx) :
    ∃ pc ∈ ([⟨rCoord, p0⟩] : List (View.Piece (Elt F) S1600x3 .f32)), y ∈ pc.1.set :=
  View.cover_of_tiled [⟨rCoord, p0⟩] S1600x3.size (by rfl) y

/-! ## The body's triple -/

set_option maxHeartbeats 4000000 in
/-- The kernel body on whole staging memrefs — the inputs' at read contents `x0 … x14`, the outputs' at anything — runs
    to the continuation holding the inputs' as they were and each output's at its function of the inputs'. The body and
    its two parts are sequences of whole-buffer loads, pure computation and whole-buffer stores; the run steps through
    them, and what the one store leaves in an output buffer reads back as the canonical contents because the store
    covers the buffer. -/
theorem edgeKernel_sound (c : Dev nD) (E : Set ℕ) (i : grid0.Coords) (arg1 : Memref sig .tc .vmem S1600x128 .f32) (harg1 : arg1.IsWhole) (arg2 : Memref sig .tc .vmem S1600x128 .f32) (harg2 : arg2.IsWhole) (arg3 : Memref sig .tc .vmem S1600x7 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S1600x128 .f32) (harg16 : arg16.IsWhole) (arg17 : Memref sig .tc .vmem S1600x3 .f32) (harg17 : arg17.IsWhole)
    (x0 : Vec F S1600x128 .f32) (x1 : Vec F S1600x128 .f32) (x2 : Vec F S1600x7 .f32) (x3 : Vec F S128x128 .f32) (x4 : Vec F S128x128 .f32) (x5 : Vec F S1x128 .f32) (x6 : Vec F S1x128 .f32) (x7 : Vec F S1x128 .f32) (x8 : Vec F S128x128 .f32) (x9 : Vec F S1x128 .f32) (x10 : Vec F S128x1 .f32) (x11 : Vec F S1x1 .f32) (x12 : Vec F S128x128 .f32) (x13 : Vec F S1x128 .f32) (x14 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (edgeMsgOut x0 x1 x2 x3 x4 x5 x6 x7 x8 x9 x10 x11 x12 x13 x14) ∗ owns (c : Thread nD τ) arg17 fullShare (edgeWdOut x0 x1 x2 x3 x4 x5 x6 x7 x8 x9 x10 x11 x12 x13 x14)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__edge_kernel_eq_skeleton]; unfold cc0__edge_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (edgeMsg_cover _)
  iexists _; isplitr
  swap; · iexact H16
  ipureintro
  try dsimp only
  exact View.read_writes_eq_canon _ _ _ (edgeWd_cover _)

/-! ## The pipeline's proof data -/

/-- The proof data of the edge pipeline on core `c`: the arrays as the region finds them; after the body at point `t`
    each input's buffer at its block and each output's at its function of the fifteen input blocks; the invariant is
    the scoped rest and the generator register, untouched; nothing is owed; the shares are full. -/
def edgeDat (c : Dev nD) : Dat τ (Elt F) Unit ℕ (UR sig nD τ) ℕ cfg0 c where
  A w := V c (Pipeline.arrRef spec0 w)
  after w t := match w with
    | ⟨0, _⟩ => edgeBlk V c 0 t
    | ⟨1, _⟩ => edgeBlk V c 1 t
    | ⟨2, _⟩ => edgeBlk V c 2 t
    | ⟨3, _⟩ => edgeBlk V c 3 t
    | ⟨4, _⟩ => edgeBlk V c 4 t
    | ⟨5, _⟩ => edgeBlk V c 5 t
    | ⟨6, _⟩ => edgeBlk V c 6 t
    | ⟨7, _⟩ => edgeBlk V c 7 t
    | ⟨8, _⟩ => edgeBlk V c 8 t
    | ⟨9, _⟩ => edgeBlk V c 9 t
    | ⟨10, _⟩ => edgeBlk V c 10 t
    | ⟨11, _⟩ => edgeBlk V c 11 t
    | ⟨12, _⟩ => edgeBlk V c 12 t
    | ⟨13, _⟩ => edgeBlk V c 13 t
    | ⟨14, _⟩ => edgeBlk V c 14 t
    | ⟨15, _⟩ => edgeMsgOut (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t)
    | ⟨16, _⟩ => edgeWdOut (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t)
    | ⟨_ + 17, h⟩ => absurd h (Nat.not_lt.2 (Nat.le_add_left _ _))
  Φ _ := Pipeline.ΦA spec0 c
  q _ := fullShare
  owed _ := 0

/-- The proof data's arrays are the region-entry contents: the definition projected. -/
theorem edgeDat_A (c : Dev nD) (w : Fin cfg0.W) : (edgeDat V c).A w = V c (Pipeline.arrRef spec0 w) := by
  dsimp only [edgeDat]

/-! What the body leaves, window by window: the proof data's case distinction reduced at each window. -/

theorem edgeDat_after_0 (c : Dev nD) (t : Fin cfg0.N) : (edgeDat V c).after 0 t = edgeBlk V c 0 t := by dsimp only [edgeDat]
theorem edgeDat_after_1 (c : Dev nD) (t : Fin cfg0.N) : (edgeDat V c).after 1 t = edgeBlk V c 1 t := by dsimp only [edgeDat]
theorem edgeDat_after_2 (c : Dev nD) (t : Fin cfg0.N) : (edgeDat V c).after 2 t = edgeBlk V c 2 t := by dsimp only [edgeDat]
theorem edgeDat_after_3 (c : Dev nD) (t : Fin cfg0.N) : (edgeDat V c).after 3 t = edgeBlk V c 3 t := by dsimp only [edgeDat]
theorem edgeDat_after_4 (c : Dev nD) (t : Fin cfg0.N) : (edgeDat V c).after 4 t = edgeBlk V c 4 t := by dsimp only [edgeDat]
theorem edgeDat_after_5 (c : Dev nD) (t : Fin cfg0.N) : (edgeDat V c).after 5 t = edgeBlk V c 5 t := by dsimp only [edgeDat]
theorem edgeDat_after_6 (c : Dev nD) (t : Fin cfg0.N) : (edgeDat V c).after 6 t = edgeBlk V c 6 t := by dsimp only [edgeDat]
theorem edgeDat_after_7 (c : Dev nD) (t : Fin cfg0.N) : (edgeDat V c).after 7 t = edgeBlk V c 7 t := by dsimp only [edgeDat]
theorem edgeDat_after_8 (c : Dev nD) (t : Fin cfg0.N) : (edgeDat V c).after 8 t = edgeBlk V c 8 t := by dsimp only [edgeDat]
theorem edgeDat_after_9 (c : Dev nD) (t : Fin cfg0.N) : (edgeDat V c).after 9 t = edgeBlk V c 9 t := by dsimp only [edgeDat]
theorem edgeDat_after_10 (c : Dev nD) (t : Fin cfg0.N) : (edgeDat V c).after 10 t = edgeBlk V c 10 t := by dsimp only [edgeDat]
theorem edgeDat_after_11 (c : Dev nD) (t : Fin cfg0.N) : (edgeDat V c).after 11 t = edgeBlk V c 11 t := by dsimp only [edgeDat]
theorem edgeDat_after_12 (c : Dev nD) (t : Fin cfg0.N) : (edgeDat V c).after 12 t = edgeBlk V c 12 t := by dsimp only [edgeDat]
theorem edgeDat_after_13 (c : Dev nD) (t : Fin cfg0.N) : (edgeDat V c).after 13 t = edgeBlk V c 13 t := by dsimp only [edgeDat]
theorem edgeDat_after_14 (c : Dev nD) (t : Fin cfg0.N) : (edgeDat V c).after 14 t = edgeBlk V c 14 t := by dsimp only [edgeDat]
theorem edgeDat_after_15 (c : Dev nD) (t : Fin cfg0.N) : (edgeDat V c).after 15 t = edgeMsgOut (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t) := by dsimp only [edgeDat]
theorem edgeDat_after_16 (c : Dev nD) (t : Fin cfg0.N) : (edgeDat V c).after 16 t = edgeWdOut (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t) := by dsimp only [edgeDat]

/-! Each input's current staging buffer holds its block at every point, fetched there or not. -/

theorem edgeBefore_0 (c : Dev nD) (t : Fin cfg0.N) (d) : (edgeDat V c).before 0 t d = edgeBlk V c 0 t :=
  edgeBefore_0_of V (edgeDat V c) (edgeDat_A V c 0) (edgeDat_after_0 V c) t d
theorem edgeBefore_1 (c : Dev nD) (t : Fin cfg0.N) (d) : (edgeDat V c).before 1 t d = edgeBlk V c 1 t :=
  edgeBefore_1_of V (edgeDat V c) (edgeDat_A V c 1) (edgeDat_after_1 V c) t d
theorem edgeBefore_2 (c : Dev nD) (t : Fin cfg0.N) (d) : (edgeDat V c).before 2 t d = edgeBlk V c 2 t :=
  edgeBefore_2_of V (edgeDat V c) (edgeDat_A V c 2) (edgeDat_after_2 V c) t d
theorem edgeBefore_3 (c : Dev nD) (t : Fin cfg0.N) (d) : (edgeDat V c).before 3 t d = edgeBlk V c 3 t :=
  edgeBefore_3_of V (edgeDat V c) (edgeDat_A V c 3) (edgeDat_after_3 V c) t d
theorem edgeBefore_4 (c : Dev nD) (t : Fin cfg0.N) (d) : (edgeDat V c).before 4 t d = edgeBlk V c 4 t :=
  edgeBefore_4_of V (edgeDat V c) (edgeDat_A V c 4) (edgeDat_after_4 V c) t d
theorem edgeBefore_5 (c : Dev nD) (t : Fin cfg0.N) (d) : (edgeDat V c).before 5 t d = edgeBlk V c 5 t :=
  edgeBefore_5_of V (edgeDat V c) (edgeDat_A V c 5) (edgeDat_after_5 V c) t d
theorem edgeBefore_6 (c : Dev nD) (t : Fin cfg0.N) (d) : (edgeDat V c).before 6 t d = edgeBlk V c 6 t :=
  edgeBefore_6_of V (edgeDat V c) (edgeDat_A V c 6) (edgeDat_after_6 V c) t d
theorem edgeBefore_7 (c : Dev nD) (t : Fin cfg0.N) (d) : (edgeDat V c).before 7 t d = edgeBlk V c 7 t :=
  edgeBefore_7_of V (edgeDat V c) (edgeDat_A V c 7) (edgeDat_after_7 V c) t d
theorem edgeBefore_8 (c : Dev nD) (t : Fin cfg0.N) (d) : (edgeDat V c).before 8 t d = edgeBlk V c 8 t :=
  edgeBefore_8_of V (edgeDat V c) (edgeDat_A V c 8) (edgeDat_after_8 V c) t d
theorem edgeBefore_9 (c : Dev nD) (t : Fin cfg0.N) (d) : (edgeDat V c).before 9 t d = edgeBlk V c 9 t :=
  edgeBefore_9_of V (edgeDat V c) (edgeDat_A V c 9) (edgeDat_after_9 V c) t d
theorem edgeBefore_10 (c : Dev nD) (t : Fin cfg0.N) (d) : (edgeDat V c).before 10 t d = edgeBlk V c 10 t :=
  edgeBefore_10_of V (edgeDat V c) (edgeDat_A V c 10) (edgeDat_after_10 V c) t d
theorem edgeBefore_11 (c : Dev nD) (t : Fin cfg0.N) (d) : (edgeDat V c).before 11 t d = edgeBlk V c 11 t :=
  edgeBefore_11_of V (edgeDat V c) (edgeDat_A V c 11) (edgeDat_after_11 V c) t d
theorem edgeBefore_12 (c : Dev nD) (t : Fin cfg0.N) (d) : (edgeDat V c).before 12 t d = edgeBlk V c 12 t :=
  edgeBefore_12_of V (edgeDat V c) (edgeDat_A V c 12) (edgeDat_after_12 V c) t d
theorem edgeBefore_13 (c : Dev nD) (t : Fin cfg0.N) (d) : (edgeDat V c).before 13 t d = edgeBlk V c 13 t :=
  edgeBefore_13_of V (edgeDat V c) (edgeDat_A V c 13) (edgeDat_after_13 V c) t d
theorem edgeBefore_14 (c : Dev nD) (t : Fin cfg0.N) (d) : (edgeDat V c).before 14 t d = edgeBlk V c 14 t :=
  edgeBefore_14_of V (edgeDat V c) (edgeDat_A V c 14) (edgeDat_after_14 V c) t d

/-! ## The body obligation, at a generic point -/

/-- What the body is called with at point `t`: the invariant, what is owed, and each window's current staging buffer held
    whole at what the pipeline left in it, -/
def edgeBodyPre (c : Dev nD) (t : Fin cfg0.N) : sProp 𝕄 :=
  iprop((edgeDat V c).Φ t.castSucc ∗ (edgeDat V c).owesAt () t.castSucc
    ∗ (∃ d, owns (c : Thread nD τ) (st0_0 t) fullShare ((edgeDat V c).before 0 t d))
    ∗ (∃ d, owns (c : Thread nD τ) (st0_1 t) fullShare ((edgeDat V c).before 1 t d))
    ∗ (∃ d, owns (c : Thread nD τ) (st0_2 t) fullShare ((edgeDat V c).before 2 t d))
    ∗ (∃ d, owns (c : Thread nD τ) (st0_3 t) fullShare ((edgeDat V c).before 3 t d))
    ∗ (∃ d, owns (c : Thread nD τ) (st0_4 t) fullShare ((edgeDat V c).before 4 t d))
    ∗ (∃ d, owns (c : Thread nD τ) (st0_5 t) fullShare ((edgeDat V c).before 5 t d))
    ∗ (∃ d, owns (c : Thread nD τ) (st0_6 t) fullShare ((edgeDat V c).before 6 t d))
    ∗ (∃ d, owns (c : Thread nD τ) (st0_7 t) fullShare ((edgeDat V c).before 7 t d))
    ∗ (∃ d, owns (c : Thread nD τ) (st0_8 t) fullShare ((edgeDat V c).before 8 t d))
    ∗ (∃ d, owns (c : Thread nD τ) (st0_9 t) fullShare ((edgeDat V c).before 9 t d))
    ∗ (∃ d, owns (c : Thread nD τ) (st0_10 t) fullShare ((edgeDat V c).before 10 t d))
    ∗ (∃ d, owns (c : Thread nD τ) (st0_11 t) fullShare ((edgeDat V c).before 11 t d))
    ∗ (∃ d, owns (c : Thread nD τ) (st0_12 t) fullShare ((edgeDat V c).before 12 t d))
    ∗ (∃ d, owns (c : Thread nD τ) (st0_13 t) fullShare ((edgeDat V c).before 13 t d))
    ∗ (∃ d, owns (c : Thread nD τ) (st0_14 t) fullShare ((edgeDat V c).before 14 t d))
    ∗ (∃ d, owns (c : Thread nD τ) (st0_15 t) fullShare ((edgeDat V c).before 15 t d))
    ∗ (∃ d, owns (c : Thread nD τ) (st0_16 t) fullShare ((edgeDat V c).before 16 t d)))

/-- and what it returns: the same, each buffer at what the body leaves in it. -/
def edgeBodyPost (c : Dev nD) (t : Fin cfg0.N) : sProp 𝕄 :=
  iprop((edgeDat V c).Φ t.succ ∗ (edgeDat V c).owesAt () t.succ
    ∗ owns (c : Thread nD τ) (st0_0 t) fullShare ((edgeDat V c).after 0 t)
    ∗ owns (c : Thread nD τ) (st0_1 t) fullShare ((edgeDat V c).after 1 t)
    ∗ owns (c : Thread nD τ) (st0_2 t) fullShare ((edgeDat V c).after 2 t)
    ∗ owns (c : Thread nD τ) (st0_3 t) fullShare ((edgeDat V c).after 3 t)
    ∗ owns (c : Thread nD τ) (st0_4 t) fullShare ((edgeDat V c).after 4 t)
    ∗ owns (c : Thread nD τ) (st0_5 t) fullShare ((edgeDat V c).after 5 t)
    ∗ owns (c : Thread nD τ) (st0_6 t) fullShare ((edgeDat V c).after 6 t)
    ∗ owns (c : Thread nD τ) (st0_7 t) fullShare ((edgeDat V c).after 7 t)
    ∗ owns (c : Thread nD τ) (st0_8 t) fullShare ((edgeDat V c).after 8 t)
    ∗ owns (c : Thread nD τ) (st0_9 t) fullShare ((edgeDat V c).after 9 t)
    ∗ owns (c : Thread nD τ) (st0_10 t) fullShare ((edgeDat V c).after 10 t)
    ∗ owns (c : Thread nD τ) (st0_11 t) fullShare ((edgeDat V c).after 11 t)
    ∗ owns (c : Thread nD τ) (st0_12 t) fullShare ((edgeDat V c).after 12 t)
    ∗ owns (c : Thread nD τ) (st0_13 t) fullShare ((edgeDat V c).after 13 t)
    ∗ owns (c : Thread nD τ) (st0_14 t) fullShare ((edgeDat V c).after 14 t)
    ∗ owns (c : Thread nD τ) (st0_15 t) fullShare ((edgeDat V c).after 15 t)
    ∗ owns (c : Thread nD τ) (st0_16 t) fullShare ((edgeDat V c).after 16 t))

set_option maxHeartbeats 2000000 in
/-- The body at any point: the inputs' memrefs hold their blocks, so the body's triple applies at those blocks; the
    invariant and what is owed pass through unread, and they are the same before and after a point. -/
theorem edge_sound_body (c : Dev nD) (t : Fin cfg0.N) :
    edgeBodyPre V c t ⊢ wp frame (wpE (defs₀ (F := F)) Variants.none c none) Set.univ (bodyAt0 t) (fun _ => edgeBodyPost V c t) := by
  unfold edgeBodyPre edgeBodyPost bodyAt0
  simp only [edgeBefore_0, edgeBefore_1, edgeBefore_2, edgeBefore_3, edgeBefore_4, edgeBefore_5, edgeBefore_6, edgeBefore_7, edgeBefore_8, edgeBefore_9, edgeBefore_10, edgeBefore_11, edgeBefore_12, edgeBefore_13, edgeBefore_14]
  rw [show (edgeDat V c).Φ t.succ = (edgeDat V c).Φ t.castSucc from rfl,
    show (edgeDat V c).owesAt () t.succ = (edgeDat V c).owesAt () t.castSucc from rfl,
    edgeDat_after_0, edgeDat_after_1, edgeDat_after_2, edgeDat_after_3, edgeDat_after_4, edgeDat_after_5, edgeDat_after_6, edgeDat_after_7, edgeDat_after_8, edgeDat_after_9, edgeDat_after_10, edgeDat_after_11, edgeDat_after_12, edgeDat_after_13, edgeDat_after_14, edgeDat_after_15, edgeDat_after_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (edgeKernel_sound c Set.univ (grid0.coords t) _ _ _ _ _ _ _ _ _ _ _ _ _ _ _ _ _ _ _ _ _ _ _ _ _ _ _ _ _ _ _ _ _ _ (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline's body obligation, at every point: its pre- and postcondition are the windows conjoined one by one. -/
theorem edge_body_obligation (c : Dev nD) : BodyObligation (edgeDat (F := F) V c) (defs₀ (F := F)) Variants.none () Set.univ := fun t => by
  rw [bigSep_W0, bigSep_W0]
  exact edge_sound_body V c t

end Cert.Kernel.Hand

end
-- ==== Proof.Kernel.FrameNode.lean ====
import proofs.«430614_j61916248539245_1_alg».proof.Proof.Gen.Kernel.Launch
import proofs.«430614_j61916248539245_1_alg».proof.Proof.Gen.Kernel.Skeleton
import proofs.«430614_j61916248539245_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update region, per point

The second pipelined call of the program (the node update: eight windows over a grid of 25 points) at a PARAMETER
`V`, the TensorCore's buffer contents when the region is entered. Stated here: each window's block at a point,
what the body leaves in the output window's buffer as a function of the input blocks, the body's triple, the
pipeline's proof data, and the body obligation at every point. Everything is generic in the float instance. -/

-- membership in a rectangle of 2000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def nodeBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved,
    so the previous point's block is this point's. The window is uncut and never idle. -/
theorem nodeBefore_0_of {c : Dev nD} (dat : Dat τ (Elt F) Unit ℕ (UR sig nD τ) ℕ cfg1 c) (hA : dat.A 0 = V c (Pipeline.arrRef spec1 0))
    (hafter : ∀ t, dat.after 0 t = nodeBlk V c 0 t) (t : Fin cfg1.N) (d) : dat.before 0 t d = nodeBlk V c 0 t :=
  (dat.before_in_eq_fetched 0 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 1's current staging buffer holds its block at every point, fetched there or not, for any proof
    data whose array is `V`'s and whose body leaves the block in place: unfetched, the block index has not moved,
    so the previous point's block is this point's. The window is uncut and never idle. -/
theorem nodeBefore_1_of {c : Dev nD} (dat : Dat τ (Elt F) Unit ℕ (UR sig nD τ) ℕ cfg1 c) (hA : dat.A 1 = V c (Pipeline.arrRef spec1 1))
    (hafter : ∀ t, dat.after 1 t = nodeBlk V c 1 t) (t : Fin cfg1.N) (d) : dat.before 1 t d = nodeBlk V c 1 t :=
  (dat.before_in_eq_fetched 1 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 2's current staging buffer holds its block at every point, fetched there or not, for any proof
    data whose array is `V`'s and whose body leaves the block in place: unfetched, the block index has not moved,
    so the previous point's block is this point's. The window is uncut and never idle. -/
theorem nodeBefore_2_of {c : Dev nD} (dat : Dat τ (Elt F) Unit ℕ (UR sig nD τ) ℕ cfg1 c) (hA : dat.A 2 = V c (Pipeline.arrRef spec1 2))
    (hafter : ∀ t, dat.after 2 t = nodeBlk V c 2 t) (t : Fin cfg1.N) (d) : dat.before 2 t d = nodeBlk V c 2 t :=
  (dat.before_in_eq_fetched 2 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 3's current staging buffer holds its block at every point, fetched there or not, for any proof
    data whose array is `V`'s and whose body leaves the block in place: unfetched, the block index has not moved,
    so the previous point's block is this point's. The window is uncut and never idle. -/
theorem nodeBefore_3_of {c : Dev nD} (dat : Dat τ (Elt F) Unit ℕ (UR sig nD τ) ℕ cfg1 c) (hA : dat.A 3 = V c (Pipeline.arrRef spec1 3))
    (hafter : ∀ t, dat.after 3 t = nodeBlk V c 3 t) (t : Fin cfg1.N) (d) : dat.before 3 t d = nodeBlk V c 3 t :=
  (dat.before_in_eq_fetched 3 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 4's current staging buffer holds its block at every point, fetched there or not, for any proof
    data whose array is `V`'s and whose body leaves the block in place: unfetched, the block index has not moved,
    so the previous point's block is this point's. The window is uncut and never idle. -/
theorem nodeBefore_4_of {c : Dev nD} (dat : Dat τ (Elt F) Unit ℕ (UR sig nD τ) ℕ cfg1 c) (hA : dat.A 4 = V c (Pipeline.arrRef spec1 4))
    (hafter : ∀ t, dat.after 4 t = nodeBlk V c 4 t) (t : Fin cfg1.N) (d) : dat.before 4 t d = nodeBlk V c 4 t :=
  (dat.before_in_eq_fetched 4 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 5's current staging buffer holds its block at every point, fetched there or not, for any proof
    data whose array is `V`'s and whose body leaves the block in place: unfetched, the block index has not moved,
    so the previous point's block is this point's. The window is uncut and never idle. -/
theorem nodeBefore_5_of {c : Dev nD} (dat : Dat τ (Elt F) Unit ℕ (UR sig nD τ) ℕ cfg1 c) (hA : dat.A 5 = V c (Pipeline.arrRef spec1 5))
    (hafter : ∀ t, dat.after 5 t = nodeBlk V c 5 t) (t : Fin cfg1.N) (d) : dat.before 5 t d = nodeBlk V c 5 t :=
  (dat.before_in_eq_fetched 5 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 6's current staging buffer holds its block at every point, fetched there or not, for any proof
    data whose array is `V`'s and whose body leaves the block in place: unfetched, the block index has not moved,
    so the previous point's block is this point's. The window is uncut and never idle. -/
theorem nodeBefore_6_of {c : Dev nD} (dat : Dat τ (Elt F) Unit ℕ (UR sig nD τ) ℕ cfg1 c) (hA : dat.A 6 = V c (Pipeline.arrRef spec1 6))
    (hafter : ∀ t, dat.after 6 t = nodeBlk V c 6 t) (t : Fin cfg1.N) (d) : dat.before 6 t d = nodeBlk V c 6 t :=
  (dat.before_in_eq_fetched 6 rfl (fun _ => rfl) (fun _ _ _ => rfl) (fun t => by rw [hafter]; unfold Dat.blockOf nodeBlk; rw [hA]; try rfl) t d).trans
    (by unfold Dat.fetched Dat.blockOf nodeBlk; rw [hA]; try rfl)

/-! ## The body's accesses -/

/-- The whole 2000×128 block (the two row-blocked inputs and the output). -/
abbrev rA : Rect S2000x128 := Rect.unit (s := S2000x128) ![0, 0] S2000x128.size inb_S2000x128_S2000x128_0_0
/-- The whole 128×128 block (the three weight matrices). -/
abbrev rB : Rect S128x128 := Rect.unit (s := S128x128) ![0, 0] S128x128.size inb_S128x128_S128x128_0_0
/-- The whole 1×128 block (the two bias rows). -/
abbrev rC : Rect S1x128 := Rect.unit (s := S1x128) ![0, 0] S1x128.size inb_S1x128_S1x128_0_0

/-! ## What the body leaves in the output window's buffer -/

/-- Window 7's staging buffer after the body, from the input windows' blocks: its one store, of the whole block,
    of the residual update `x0 + (silu (bf16 x0 · bf16 x2 + bf16 x1 · bf16 x3 + x4) as bf16 · bf16 x5 + x6)`
    (the skeleton's payload). -/
def nodeOut (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) : Vec F S2000x128 .f32 :=
  View.canon [⟨rA, k1_pay1 (View.ld x0 rA) (View.ld x1 rA) (View.ld x2 rB) (View.ld x3 rB) (View.ld x4 rC) (View.ld x5 rB) (View.ld x6 rC)⟩]

/-- The one store is of the whole block (checked by evaluation), so it covers the buffer. -/
theorem nodeCover (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-! ## The body's triple -/

set_option maxHeartbeats 1000000 in
/-- The kernel body on whole staging memrefs, the inputs' at read contents `xW` and the output's at anything, runs to
    the continuation holding the inputs' as they were and the output's at `nodeOut` of the inputs': the body loads
    each block whole, computes, and stores the output block whole. -/
theorem nodeKernel_sound (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (nodeOut x0 x1 x2 x3 x4 x5 x6)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (nodeCover _)

/-! ## The pipeline's proof data -/

/-- The proof data of the pipeline on core `c`: the arrays as the region finds them (`V`); after the body at
    point `t` each input's buffer at its block and the output's at `nodeOut` of the input blocks; the invariant is
    the scoped rest and the generator register, untouched; nothing owed; full shares. -/
def nodeDat (c : Dev nD) : Dat τ (Elt F) Unit ℕ (UR sig nD τ) ℕ cfg1 c where
  A w := V c (Pipeline.arrRef spec1 w)
  after w t := match w with
    | ⟨0, _⟩ => nodeBlk V c 0 t
    | ⟨1, _⟩ => nodeBlk V c 1 t
    | ⟨2, _⟩ => nodeBlk V c 2 t
    | ⟨3, _⟩ => nodeBlk V c 3 t
    | ⟨4, _⟩ => nodeBlk V c 4 t
    | ⟨5, _⟩ => nodeBlk V c 5 t
    | ⟨6, _⟩ => nodeBlk V c 6 t
    | ⟨7, _⟩ => nodeOut (nodeBlk V c 0 t) (nodeBlk V c 1 t) (nodeBlk V c 2 t) (nodeBlk V c 3 t) (nodeBlk V c 4 t) (nodeBlk V c 5 t) (nodeBlk V c 6 t)
  Φ _ := Pipeline.ΦA spec1 c
  q _ := fullShare
  owed _ := 0

/-- The proof data's arrays are the region-entry contents. -/
theorem nodeDat_A (c : Dev nD) (w : Fin cfg1.W) : (nodeDat V c).A w = V c (Pipeline.arrRef spec1 w) := by
  dsimp only [nodeDat]

/-- What the body leaves, window by window. -/
theorem nodeDat_after_0 (c : Dev nD) (t : Fin cfg1.N) : (nodeDat V c).after 0 t = nodeBlk V c 0 t := by dsimp only [nodeDat]
theorem nodeDat_after_1 (c : Dev nD) (t : Fin cfg1.N) : (nodeDat V c).after 1 t = nodeBlk V c 1 t := by dsimp only [nodeDat]
theorem nodeDat_after_2 (c : Dev nD) (t : Fin cfg1.N) : (nodeDat V c).after 2 t = nodeBlk V c 2 t := by dsimp only [nodeDat]
theorem nodeDat_after_3 (c : Dev nD) (t : Fin cfg1.N) : (nodeDat V c).after 3 t = nodeBlk V c 3 t := by dsimp only [nodeDat]
theorem nodeDat_after_4 (c : Dev nD) (t : Fin cfg1.N) : (nodeDat V c).after 4 t = nodeBlk V c 4 t := by dsimp only [nodeDat]
theorem nodeDat_after_5 (c : Dev nD) (t : Fin cfg1.N) : (nodeDat V c).after 5 t = nodeBlk V c 5 t := by dsimp only [nodeDat]
theorem nodeDat_after_6 (c : Dev nD) (t : Fin cfg1.N) : (nodeDat V c).after 6 t = nodeBlk V c 6 t := by dsimp only [nodeDat]
theorem nodeDat_after_7 (c : Dev nD) (t : Fin cfg1.N) : (nodeDat V c).after 7 t = nodeOut (nodeBlk V c 0 t) (nodeBlk V c 1 t) (nodeBlk V c 2 t) (nodeBlk V c 3 t) (nodeBlk V c 4 t) (nodeBlk V c 5 t) (nodeBlk V c 6 t) := by dsimp only [nodeDat]

/-- Each input's current staging buffer holds its block at every point, fetched there or not. -/
theorem nodeBefore_0 (c : Dev nD) (t : Fin cfg1.N) (d) : (nodeDat V c).before 0 t d = nodeBlk V c 0 t :=
  nodeBefore_0_of V (nodeDat V c) (nodeDat_A V c 0) (nodeDat_after_0 V c) t d
theorem nodeBefore_1 (c : Dev nD) (t : Fin cfg1.N) (d) : (nodeDat V c).before 1 t d = nodeBlk V c 1 t :=
  nodeBefore_1_of V (nodeDat V c) (nodeDat_A V c 1) (nodeDat_after_1 V c) t d
theorem nodeBefore_2 (c : Dev nD) (t : Fin cfg1.N) (d) : (nodeDat V c).before 2 t d = nodeBlk V c 2 t :=
  nodeBefore_2_of V (nodeDat V c) (nodeDat_A V c 2) (nodeDat_after_2 V c) t d
theorem nodeBefore_3 (c : Dev nD) (t : Fin cfg1.N) (d) : (nodeDat V c).before 3 t d = nodeBlk V c 3 t :=
  nodeBefore_3_of V (nodeDat V c) (nodeDat_A V c 3) (nodeDat_after_3 V c) t d
theorem nodeBefore_4 (c : Dev nD) (t : Fin cfg1.N) (d) : (nodeDat V c).before 4 t d = nodeBlk V c 4 t :=
  nodeBefore_4_of V (nodeDat V c) (nodeDat_A V c 4) (nodeDat_after_4 V c) t d
theorem nodeBefore_5 (c : Dev nD) (t : Fin cfg1.N) (d) : (nodeDat V c).before 5 t d = nodeBlk V c 5 t :=
  nodeBefore_5_of V (nodeDat V c) (nodeDat_A V c 5) (nodeDat_after_5 V c) t d
theorem nodeBefore_6 (c : Dev nD) (t : Fin cfg1.N) (d) : (nodeDat V c).before 6 t d = nodeBlk V c 6 t :=
  nodeBefore_6_of V (nodeDat V c) (nodeDat_A V c 6) (nodeDat_after_6 V c) t d

/-! ## The body obligation, at a generic point -/

/-- What the body is called with at point `t` (the windows one by one), -/
def nodeBodyPre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d))
    ∗ (∃ d, owns (c : Thread nD τ) (st1_3 t) fullShare ((nodeDat V c).before 3 t d))
    ∗ (∃ d, owns (c : Thread nD τ) (st1_4 t) fullShare ((nodeDat V c).before 4 t d))
    ∗ (∃ d, owns (c : Thread nD τ) (st1_5 t) fullShare ((nodeDat V c).before 5 t d))
    ∗ (∃ d, owns (c : Thread nD τ) (st1_6 t) fullShare ((nodeDat V c).before 6 t d))
    ∗ (∃ d, owns (c : Thread nD τ) (st1_7 t) fullShare ((nodeDat V c).before 7 t d)))

/-- and what it returns. -/
def nodeBodyPost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t)
    ∗ owns (c : Thread nD τ) (st1_3 t) fullShare ((nodeDat V c).after 3 t)
    ∗ owns (c : Thread nD τ) (st1_4 t) fullShare ((nodeDat V c).after 4 t)
    ∗ owns (c : Thread nD τ) (st1_5 t) fullShare ((nodeDat V c).after 5 t)
    ∗ owns (c : Thread nD τ) (st1_6 t) fullShare ((nodeDat V c).after 6 t)
    ∗ owns (c : Thread nD τ) (st1_7 t) fullShare ((nodeDat V c).after 7 t))

/-- The body at any point: the inputs' memrefs hold their blocks, so the body's triple applies; the invariant and
    the core's obligations pass through unread. -/
theorem nodeBody_sound (c : Dev nD) (t : Fin cfg1.N) :
    nodeBodyPre V c t ⊢ wp frame (wpE (defs₀ (F := F)) Variants.none c none) Set.univ (bodyAt1 t) (fun _ => nodeBodyPost V c t) := by
  unfold nodeBodyPre nodeBodyPost bodyAt1
  simp only [nodeBefore_0, nodeBefore_1, nodeBefore_2, nodeBefore_3, nodeBefore_4, nodeBefore_5, nodeBefore_6]
  rw [show (nodeDat V c).Φ t.succ = (nodeDat V c).Φ t.castSucc from rfl,
    show (nodeDat V c).owesAt () t.succ = (nodeDat V c).owesAt () t.castSucc from rfl,
    nodeDat_after_0, nodeDat_after_1, nodeDat_after_2, nodeDat_after_3, nodeDat_after_4, nodeDat_after_5, nodeDat_after_6, nodeDat_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (nodeKernel_sound c Set.univ (grid1.coords t) _ _ _ _ _ _ _ _ _ _ _ _ _ _ _ _ (nodeBlk V c 0 t) (nodeBlk V c 1 t) (nodeBlk V c 2 t) (nodeBlk V c 3 t) (nodeBlk V c 4 t) (nodeBlk V c 5 t) (nodeBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem node_body_obligation (c : Dev nD) : BodyObligation (nodeDat (F := F) V c) (defs₀ (F := F)) Variants.none () Set.univ := fun t => by
  rw [bigSep_W1, bigSep_W1]
  exact nodeBody_sound V c t

end Cert.Kernel.Hand

end
-- ==== Proof.Kernel.RunCond.lean ====
/-
  The program's run to its end from one record per kernel region: the same launch over @main's items that yields the
  frame, read back at EVERY unscoped buffer rather than at the arguments alone, so that the results' contents come
  with it.
-/
import proofs.«430614_j61916248539245_1_alg».proof.Proof.Gen.Kernel.Regions

set_option maxRecDepth 3424

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- The run, given the regions' records: for any rest states the launch makes on every core and that end owing
    nothing, any contents the regions leave and any proof data, GIVEN per region a segment record entered from the
    thread state before it and left at the one after it, every weakly fair execution of @main from memory `m` with
    zero counters terminates, and in every final memory every unscoped buffer of every core holds the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V6 m c) ∗ E 0 c) ⊢ R0.pre c)
    (hpost0 : ∀ c : Dev nD, R0.post c ⊢ iprop(StableHlo.held (c : Thread nD τ) (Pipeline.ucRefs τ sig) (V7 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V11 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, .rfl, .rfl, .rfl, hpre0 c, hpost0 c, .rfl, .rfl, hpre1 c, (hpost1 c).trans (sep_mono .rfl (hE2 c))⟩)
    (hinit := ?_) (QY := fun c s => ∀ b ∈ Pipeline.ucRefs τ sig, s.mem ((c : Thread nD τ).1, b) = V11 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact h
    · iexact HSI

end Cert.Kernel.Hand

end
-- ==== Proof.Kernel.Run.lean ====
/-
  The program's run, at any float instance: @main is six stretches of host operations, the edge region, three more
  stretches, and the node region. Between two items every unscoped buffer of a core is held whole at a known
  valuation: the launch memory, then each stretch's operations applied, then, after a region, the region's arrays
  at what its pipeline's write-backs leave (an input array as it was; an output array with every grid point's
  block written back) and every other buffer untouched. Every weakly fair execution therefore ends with every
  unscoped buffer at the last valuation, which gives both the frame (no item writes an argument) and the results.
-/
import proofs.«430614_j61916248539245_1_alg».proof.Proof.Gen.Kernel.Regions
import proofs.«430614_j61916248539245_1_alg».proof.Proof.Kernel.FrameEdge
import proofs.«430614_j61916248539245_1_alg».proof.Proof.Kernel.FrameNode
import proofs.«430614_j61916248539245_1_alg».proof.Proof.Kernel.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations at the two regions' ends -/

/-- The buffers' contents when the edge region is entered, read at the TensorCore's references. -/
abbrev edgeEntry : (c : Dev nD) → (b : Ref sig .tc) → Buf (Elt F) ((c : Thread nD τ).loc b) := fun c b => V6 m c b

/-- At the edge region's exit: its arrays at what the pipeline leaves, every other buffer as entered. -/
def edgeExit (c : Dev nD) : Valuation τ sig (Elt F) :=
  Pipeline.withArrays spec0 c (V6 m c) fun w => (edgeDat (edgeEntry m) c).arrAt w cfg0.N

/-- What the edge region leaves, as the unknowns of the valuations between the two regions. -/
def outsEdge : Outs (F := F) := fun _ r c => edgeExit m c r

/-- The buffers' contents when the node region is entered. -/
abbrev nodeEntry : (c : Dev nD) → (b : Ref sig .tc) → Buf (Elt F) ((c : Thread nD τ).loc b) := fun c b => V10 m (outsEdge m) c b

/-- At the node region's exit. -/
def nodeExit (c : Dev nD) : Valuation τ sig (Elt F) :=
  Pipeline.withArrays spec1 c (V10 m (outsEdge m) c) fun w => (nodeDat (nodeEntry m) c).arrAt w cfg1.N

/-- What each region leaves in the buffers it may change: after item 10 (the node region) its exit contents,
    before that the edge region's. -/
def outs : Outs (F := F) := fun J r c => if J = 11 then nodeExit m c r else edgeExit m c r

theorem outs_7 (r : Ref sig .tc) (c : Dev nD) : outs m 7 r c = edgeExit m c r := if_neg (by decide)
theorem outs_11 (r : Ref sig .tc) (c : Dev nD) : outs m 11 r c = nodeExit m c r := if_pos rfl

/-- The valuations between the regions do not depend on what the node region leaves. -/
theorem V7_outs (c : Dev nD) : V7 m (outs m) c = V7 m (outsEdge m) c := rfl
theorem V10_outs (c : Dev nD) : V10 m (outs m) c = V10 m (outsEdge m) c := rfl

/-- The edge region's output arrays after it: what its pipeline leaves. -/
theorem V7_msg (c : Dev nD) : V7 m (outs m) c main_v17_0 = (edgeDat (edgeEntry m) c).arrAt 15 cfg0.N := by
  show Function.update (Function.update (V6 m c) main_v17_0 (outs m 7 main_v17_0 c)) main_v17_1 (outs m 7 main_v17_1 c) main_v17_0 = _
  rw [Function.update_of_ne (by decide), Function.update_self, outs_7]
  exact Pipeline.withArrays_arr spec0 launch0.win.arr_inj c _ _ 15
theorem V7_wd (c : Dev nD) : V7 m (outs m) c main_v17_1 = (edgeDat (edgeEntry m) c).arrAt 16 cfg0.N := by
  show Function.update (Function.update (V6 m c) main_v17_0 (outs m 7 main_v17_0 c)) main_v17_1 (outs m 7 main_v17_1 c) main_v17_1 = _
  rw [Function.update_self, outs_7]
  exact Pipeline.withArrays_arr spec0 launch0.win.arr_inj c _ _ 16
/-- The node region's output array after it. -/
theorem V11_out (c : Dev nD) : V11 m (outs m) c main_v37 = (nodeDat (nodeEntry m) c).arrAt 7 cfg1.N := by
  show Function.update (V10 m (outs m) c) main_v37 (outs m 11 main_v37 c) main_v37 = _
  rw [Function.update_self, outs_11]
  exact Pipeline.withArrays_arr spec1 launch1.win.arr_inj c _ _ 7

/-! ## What each region leaves, against the valuation after it -/

/-- After the edge region each of its arrays holds what the pipeline leaves: an input array is not written (it is as
    entered, and the valuation after the region keeps it), an output array is the valuation's new entry. -/
theorem edge_arr_in (c : Dev nD) (w : Fin cfg0.W) (hin : (cfg0.win w).isOut = false)
    (hne : Pipeline.arrRef spec0 w ∉ ([main_v17_0, main_v17_1] : List (Ref sig .tc))) :
    (edgeDat (edgeEntry m) c).arrAt w cfg0.N = V7 m (outs m) c (Pipeline.arrRef spec0 w) :=
  ((edgeDat (edgeEntry m) c).arrAt_in w hin _).trans ((edgeDat_A (edgeEntry m) c w).trans (V7_of m (outs m) c _ hne).symm)

/-- A window of the edge region whose array is neither output array is an input window. -/
theorem edge_in_of : ∀ w : Fin cfg0.W, Pipeline.arrRef spec0 w ≠ main_v17_0 → Pipeline.arrRef spec0 w ≠ main_v17_1 →
    (cfg0.win w).isOut = false := by decide

theorem edge_arrs (c : Dev nD) (w : Fin cfg0.W) :
    (edgeDat (edgeEntry m) c).arrAt w cfg0.N = V7 m (outs m) c (Pipeline.arrRef spec0 w) := by
  by_cases h1 : Pipeline.arrRef spec0 w = main_v17_1
  · have hw : w = 16 := launch0.win.arr_inj (h1.trans (show main_v17_1 = Pipeline.arrRef spec0 16 from rfl))
    subst hw; exact (V7_wd m c).symm
  by_cases h0 : Pipeline.arrRef spec0 w = main_v17_0
  · have hw : w = 15 := launch0.win.arr_inj (h0.trans (show main_v17_0 = Pipeline.arrRef spec0 15 from rfl))
    subst hw; exact (V7_msg m c).symm
  · refine edge_arr_in m c w (edge_in_of w h0 h1) fun h => ?_
    rcases List.mem_cons.1 h with h | h
    · exact h0 h
    · exact h1 (List.mem_singleton.1 h)

/-- Every buffer that is no array of the edge region is after it as before it. -/
theorem edge_rest (c : Dev nD) : ∀ b : Ref sig .tc, b ∉ Finset.univ.image (Pipeline.arrRef spec0) →
    V7 m (outs m) c b = V6 m c b := fun b hb =>
  V7_of m (outs m) c b fun h => by
    simp only [List.mem_cons, List.mem_singleton, List.not_mem_nil, or_false] at h
    rcases h with rfl | rfl
    · exact hb (Finset.mem_image.mpr ⟨15, Finset.mem_univ _, rfl⟩)
    · exact hb (Finset.mem_image.mpr ⟨16, Finset.mem_univ _, rfl⟩)

/-- The same for the node region, whose one output array is the program's first result. -/
theorem node_arr_in (c : Dev nD) (w : Fin cfg1.W) (hin : (cfg1.win w).isOut = false)
    (hne : Pipeline.arrRef spec1 w ∉ ([main_v37] : List (Ref sig .tc))) :
    (nodeDat (nodeEntry m) c).arrAt w cfg1.N = V11 m (outs m) c (Pipeline.arrRef spec1 w) :=
  ((nodeDat (nodeEntry m) c).arrAt_in w hin _).trans ((nodeDat_A (nodeEntry m) c w).trans (V11_of m (outs m) c _ hne).symm)

/-- A window of the node region whose array is not the result's is an input window. -/
theorem node_in_of : ∀ w : Fin cfg1.W, Pipeline.arrRef spec1 w ≠ main_v37 → (cfg1.win w).isOut = false := by decide

theorem node_arrs (c : Dev nD) (w : Fin cfg1.W) :
    (nodeDat (nodeEntry m) c).arrAt w cfg1.N = V11 m (outs m) c (Pipeline.arrRef spec1 w) := by
  by_cases h0 : Pipeline.arrRef spec1 w = main_v37
  · have hw : w = 7 := launch1.win.arr_inj (h0.trans (show main_v37 = Pipeline.arrRef spec1 7 from rfl))
    subst hw; exact (V11_out m c).symm
  · exact node_arr_in m c w (node_in_of w h0) fun h => h0 (List.mem_singleton.1 h)

theorem node_rest (c : Dev nD) : ∀ b : Ref sig .tc, b ∉ Finset.univ.image (Pipeline.arrRef spec1) →
    V11 m (outs m) c b = V10 m (outs m) c b := fun b hb =>
  V11_of m (outs m) c b fun h => by
    simp only [List.mem_singleton] at h
    subst h
    exact hb (Finset.mem_image.mpr ⟨7, Finset.mem_univ _, rfl⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => edgeDat (edgeEntry m) c
  | ⟨1, _⟩ => fun c => nodeDat (nodeEntry m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- At the launch a core's generator register and its dues, at nothing, are the rest state; its semaphores and launch
    credit are not needed again. -/
theorem launch_rest (ρ : Dev nD → PrngReg) (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ emp) : sProp 𝕄) ⊢ R c := by
  iintro ⟨-, HO, -, Hp, -⟩
  isplitl [Hp]; · iexists _; iexact Hp
  iexists ∅; iexact HO

/-! ## The regions as segments -/

set_option backward.isDefEq.respectTransparency.types false in
/-- The edge region over the thread state: entered from every unscoped buffer at the contents after the sixth host
    stretch, left at those contents with its two output arrays replaced. Its arrays are split out of the unscoped
    buffers and put back at the exit contents; the generator register goes into the region's invariant and comes
    out; nothing is owed; the kernel has no semaphore of its own. -/
def edgeSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (edge_body_obligation (edgeEntry m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (edgeEntry m c)
  hentry c := by
    rw [Pipeline.ownSems0_none]
    have hsplit := Pipeline.arrays_of_unscopedBufs (p := 0) (pcfgs (F := F)) adm (pdats m) launch0.win launch0.arr_whole c
      ((pdats m 0 c).share_full fun _ => rfl) (edgeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (edgeEntry m c) (fun b => V7 m (outs m) c b) ((pdats m 0 c).arrAt · cfg0.N) (edge_arrs m c) (edge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: entered from the contents after the ninth host stretch, left at those
    contents with the first result's array replaced. -/
def nodeSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (node_body_obligation (nodeEntry m) c).loose
  hwaits := Pipeline.hwaits_of_owed_zero _ _ _ _ L lv 1 fun _ _ => rfl
  pre c := iprop(StableHlo.held (c : Thread nD τ) (Pipeline.ucRefs τ sig) (V10 m (outsEdge m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (nodeEntry m c)
  hentry c := by
    rw [Pipeline.ownSems0_none]
    have hsplit := Pipeline.arrays_of_unscopedBufs (p := 1) (pcfgs (F := F)) adm (pdats m) launch1.win launch1.arr_whole c
      ((pdats m 1 c).share_full fun _ => rfl) (nodeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (nodeEntry m c) (fun b => V11 m (outs m) c b) ((pdats m 1 c).arrAt · cfg1.N) (node_arrs m c) (node_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Every weakly fair execution of @main from memory `m` with zero counters terminates, nothing faulting, and every
    final memory holds every unscoped buffer of every core at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V11 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp))
          ⊢ (bigSep Finset.univ (fun c : Dev nD => R c) : sProp 𝕄) := bigSep_mono fun c _ => launch_rest ρ c
      iintro ⟨H, -⟩
      imodintro
      iapply hmono
      iexact H)
    (fun c => by iintro ⟨-, HO⟩; iexact HO)
    (edgeSeg m) (fun _ => .rfl) (fun _ => .rfl)
    (nodeSeg m) (fun c => by rw [V10_outs m c]; exact .rfl) (fun _ => .rfl)

/-- The frame: no item of @main writes an argument, so each of the seventeen ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    have hm : ∀ a : Ref sig .tc, ¬ (Proc.devRef .tc a : DevRef τ sig).isScoped →
        (Proc.devRef .tc a : DevRef τ sig) ∈ Pipeline.ucRefs τ sig :=
      fun a ha => Finset.mem_filter.mpr ⟨StableHlo.devRef_mem_tcRefs a, ha⟩
    ⟨(h c _ (hm main_arg0 (by decide))).trans (V11_main_arg0 m (outs m) c),
     (h c _ (hm main_arg1 (by decide))).trans (V11_main_arg1 m (outs m) c),
     (h c _ (hm main_arg2 (by decide))).trans (V11_main_arg2 m (outs m) c),
     (h c _ (hm main_arg3 (by decide))).trans (V11_main_arg3 m (outs m) c),
     (h c _ (hm main_arg4 (by decide))).trans (V11_main_arg4 m (outs m) c),
     (h c _ (hm main_arg5 (by decide))).trans (V11_main_arg5 m (outs m) c),
     (h c _ (hm main_arg6 (by decide))).trans (V11_main_arg6 m (outs m) c),
     (h c _ (hm main_arg7 (by decide))).trans (V11_main_arg7 m (outs m) c),
     (h c _ (hm main_arg8 (by decide))).trans (V11_main_arg8 m (outs m) c),
     (h c _ (hm main_arg9 (by decide))).trans (V11_main_arg9 m (outs m) c),
     (h c _ (hm main_arg10 (by decide))).trans (V11_main_arg10 m (outs m) c),
     (h c _ (hm main_arg11 (by decide))).trans (V11_main_arg11 m (outs m) c),
     (h c _ (hm main_arg12 (by decide))).trans (V11_main_arg12 m (outs m) c),
     (h c _ (hm main_arg13 (by decide))).trans (V11_main_arg13 m (outs m) c),
     (h c _ (hm main_arg14 (by decide))).trans (V11_main_arg14 m (outs m) c),
     (h c _ (hm main_arg15 (by decide))).trans (V11_main_arg15 m (outs m) c),
     (h c _ (hm main_arg16 (by decide))).trans (V11_main_arg16 m (outs m) c)⟩)
    (run_all m ρ)

/-- The run with its results: the two result arrays end at the last valuation, the arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v37) = V11 m (outs m) c main_v37
      ∧ r.2.mem ((c.tc : Thread nD τ).loc main_v32) = V11 m (outs m) c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    have hm : ∀ a : Ref sig .tc, ¬ (Proc.devRef .tc a : DevRef τ sig).isScoped →
        (Proc.devRef .tc a : DevRef τ sig) ∈ Pipeline.ucRefs τ sig :=
      fun a ha => Finset.mem_filter.mpr ⟨StableHlo.devRef_mem_tcRefs a, ha⟩
    ⟨h c _ (hm main_v37 (by decide)), h c _ (hm main_v32 (by decide)),
     (h c _ (hm main_arg0 (by decide))).trans (V11_main_arg0 m (outs m) c),
     (h c _ (hm main_arg1 (by decide))).trans (V11_main_arg1 m (outs m) c),
     (h c _ (hm main_arg2 (by decide))).trans (V11_main_arg2 m (outs m) c),
     (h c _ (hm main_arg3 (by decide))).trans (V11_main_arg3 m (outs m) c),
     (h c _ (hm main_arg4 (by decide))).trans (V11_main_arg4 m (outs m) c),
     (h c _ (hm main_arg5 (by decide))).trans (V11_main_arg5 m (outs m) c),
     (h c _ (hm main_arg6 (by decide))).trans (V11_main_arg6 m (outs m) c),
     (h c _ (hm main_arg7 (by decide))).trans (V11_main_arg7 m (outs m) c),
     (h c _ (hm main_arg8 (by decide))).trans (V11_main_arg8 m (outs m) c),
     (h c _ (hm main_arg9 (by decide))).trans (V11_main_arg9 m (outs m) c),
     (h c _ (hm main_arg10 (by decide))).trans (V11_main_arg10 m (outs m) c),
     (h c _ (hm main_arg11 (by decide))).trans (V11_main_arg11 m (outs m) c),
     (h c _ (hm main_arg12 (by decide))).trans (V11_main_arg12 m (outs m) c),
     (h c _ (hm main_arg13 (by decide))).trans (V11_main_arg13 m (outs m) c),
     (h c _ (hm main_arg14 (by decide))).trans (V11_main_arg14 m (outs m) c),
     (h c _ (hm main_arg15 (by decide))).trans (V11_main_arg15 m (outs m) c),
     (h c _ (hm main_arg16 (by decide))).trans (V11_main_arg16 m (outs m) c)⟩)
    (run_all m ρ)

end Cert.Kernel.Hand

end
-- ==== Proof.KernelIdeal.FrameEdge.lean ====
import proofs.«430614_j61916248539245_1_alg».proof.Proof.Gen.KernelIdeal.Launch
import proofs.«430614_j61916248539245_1_alg».proof.Proof.Gen.KernelIdeal.Skeleton
import proofs.«430614_j61916248539245_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The edge kernel's half of the frame, at any float instance

The first pallas_call runs the edge kernel over a grid of 500 points. At each point the pipeline hands the body
seventeen staging buffers: fifteen inputs (two gathered node-feature blocks, the block of coordinate differences and
edge attributes, and twelve weight and bias arrays that do not move with the point) and two outputs (the block of
messages and the block of weighted coordinate differences).

The body reads every input buffer whole, computes, and writes each output buffer whole, once. So what it leaves in
an output buffer is a function of the fifteen input blocks alone, whatever the buffer held before: the single whole
write covers every index. This module states that function for each output, proves the body's triple by running it,
and packages the result as the pipeline's proof data and body obligation, parametrised by the buffer contents `V`
the region finds on entry.
-/

-- membership in a rectangle with an axis of 1600 coordinates recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def edgeBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds the window's block at every point, whether the pipeline fetched
it there or not: where it did not, the block index has not moved since the last fetch and the body left the buffer as
it found it. This holds for any proof data whose array is the entry contents and whose body leaves the block in place;
no input window is cut and none is ever idle. One lemma per input window. -/

theorem edgeBefore_0_of {c : Dev nD} (dat : Dat τ (Elt F) Unit ℕ (UR sig nD τ) ℕ cfg0 c) (hA : dat.A 0 = V c (Pipeline.arrRef spec0 0))
    (hafter : ∀ t, dat.after 0 t = edgeBlk V c 0 t) (t : Fin cfg0.N) (d) : dat.before 0 t d = edgeBlk V c 0 t :=
  (dat.before_in_eq_fetched 0 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_1_of {c : Dev nD} (dat : Dat τ (Elt F) Unit ℕ (UR sig nD τ) ℕ cfg0 c) (hA : dat.A 1 = V c (Pipeline.arrRef spec0 1))
    (hafter : ∀ t, dat.after 1 t = edgeBlk V c 1 t) (t : Fin cfg0.N) (d) : dat.before 1 t d = edgeBlk V c 1 t :=
  (dat.before_in_eq_fetched 1 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_2_of {c : Dev nD} (dat : Dat τ (Elt F) Unit ℕ (UR sig nD τ) ℕ cfg0 c) (hA : dat.A 2 = V c (Pipeline.arrRef spec0 2))
    (hafter : ∀ t, dat.after 2 t = edgeBlk V c 2 t) (t : Fin cfg0.N) (d) : dat.before 2 t d = edgeBlk V c 2 t :=
  (dat.before_in_eq_fetched 2 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_3_of {c : Dev nD} (dat : Dat τ (Elt F) Unit ℕ (UR sig nD τ) ℕ cfg0 c) (hA : dat.A 3 = V c (Pipeline.arrRef spec0 3))
    (hafter : ∀ t, dat.after 3 t = edgeBlk V c 3 t) (t : Fin cfg0.N) (d) : dat.before 3 t d = edgeBlk V c 3 t :=
  (dat.before_in_eq_fetched 3 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_4_of {c : Dev nD} (dat : Dat τ (Elt F) Unit ℕ (UR sig nD τ) ℕ cfg0 c) (hA : dat.A 4 = V c (Pipeline.arrRef spec0 4))
    (hafter : ∀ t, dat.after 4 t = edgeBlk V c 4 t) (t : Fin cfg0.N) (d) : dat.before 4 t d = edgeBlk V c 4 t :=
  (dat.before_in_eq_fetched 4 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_5_of {c : Dev nD} (dat : Dat τ (Elt F) Unit ℕ (UR sig nD τ) ℕ cfg0 c) (hA : dat.A 5 = V c (Pipeline.arrRef spec0 5))
    (hafter : ∀ t, dat.after 5 t = edgeBlk V c 5 t) (t : Fin cfg0.N) (d) : dat.before 5 t d = edgeBlk V c 5 t :=
  (dat.before_in_eq_fetched 5 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_6_of {c : Dev nD} (dat : Dat τ (Elt F) Unit ℕ (UR sig nD τ) ℕ cfg0 c) (hA : dat.A 6 = V c (Pipeline.arrRef spec0 6))
    (hafter : ∀ t, dat.after 6 t = edgeBlk V c 6 t) (t : Fin cfg0.N) (d) : dat.before 6 t d = edgeBlk V c 6 t :=
  (dat.before_in_eq_fetched 6 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_7_of {c : Dev nD} (dat : Dat τ (Elt F) Unit ℕ (UR sig nD τ) ℕ cfg0 c) (hA : dat.A 7 = V c (Pipeline.arrRef spec0 7))
    (hafter : ∀ t, dat.after 7 t = edgeBlk V c 7 t) (t : Fin cfg0.N) (d) : dat.before 7 t d = edgeBlk V c 7 t :=
  (dat.before_in_eq_fetched 7 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_8_of {c : Dev nD} (dat : Dat τ (Elt F) Unit ℕ (UR sig nD τ) ℕ cfg0 c) (hA : dat.A 8 = V c (Pipeline.arrRef spec0 8))
    (hafter : ∀ t, dat.after 8 t = edgeBlk V c 8 t) (t : Fin cfg0.N) (d) : dat.before 8 t d = edgeBlk V c 8 t :=
  (dat.before_in_eq_fetched 8 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_9_of {c : Dev nD} (dat : Dat τ (Elt F) Unit ℕ (UR sig nD τ) ℕ cfg0 c) (hA : dat.A 9 = V c (Pipeline.arrRef spec0 9))
    (hafter : ∀ t, dat.after 9 t = edgeBlk V c 9 t) (t : Fin cfg0.N) (d) : dat.before 9 t d = edgeBlk V c 9 t :=
  (dat.before_in_eq_fetched 9 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_10_of {c : Dev nD} (dat : Dat τ (Elt F) Unit ℕ (UR sig nD τ) ℕ cfg0 c) (hA : dat.A 10 = V c (Pipeline.arrRef spec0 10))
    (hafter : ∀ t, dat.after 10 t = edgeBlk V c 10 t) (t : Fin cfg0.N) (d) : dat.before 10 t d = edgeBlk V c 10 t :=
  (dat.before_in_eq_fetched 10 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_11_of {c : Dev nD} (dat : Dat τ (Elt F) Unit ℕ (UR sig nD τ) ℕ cfg0 c) (hA : dat.A 11 = V c (Pipeline.arrRef spec0 11))
    (hafter : ∀ t, dat.after 11 t = edgeBlk V c 11 t) (t : Fin cfg0.N) (d) : dat.before 11 t d = edgeBlk V c 11 t :=
  (dat.before_in_eq_fetched 11 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_12_of {c : Dev nD} (dat : Dat τ (Elt F) Unit ℕ (UR sig nD τ) ℕ cfg0 c) (hA : dat.A 12 = V c (Pipeline.arrRef spec0 12))
    (hafter : ∀ t, dat.after 12 t = edgeBlk V c 12 t) (t : Fin cfg0.N) (d) : dat.before 12 t d = edgeBlk V c 12 t :=
  (dat.before_in_eq_fetched 12 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_13_of {c : Dev nD} (dat : Dat τ (Elt F) Unit ℕ (UR sig nD τ) ℕ cfg0 c) (hA : dat.A 13 = V c (Pipeline.arrRef spec0 13))
    (hafter : ∀ t, dat.after 13 t = edgeBlk V c 13 t) (t : Fin cfg0.N) (d) : dat.before 13 t d = edgeBlk V c 13 t :=
  (dat.before_in_eq_fetched 13 rfl (fun _ => rfl) (fun _ _ _ => rfl) (fun t => by rw [hafter]; unfold Dat.blockOf edgeBlk; rw [hA]; try rfl) t d).trans
    (by unfold Dat.fetched Dat.blockOf edgeBlk; rw [hA]; try rfl)
theorem edgeBefore_14_of {c : Dev nD} (dat : Dat τ (Elt F) Unit ℕ (UR sig nD τ) ℕ cfg0 c) (hA : dat.A 14 = V c (Pipeline.arrRef spec0 14))
    (hafter : ∀ t, dat.after 14 t = edgeBlk V c 14 t) (t : Fin cfg0.N) (d) : dat.before 14 t d = edgeBlk V c 14 t :=
  (dat.before_in_eq_fetched 14 rfl (fun _ => rfl) (fun _ _ _ => rfl) (fun t => by rw [hafter]; unfold Dat.blockOf edgeBlk; rw [hA]; try rfl) t d).trans
    (by unfold Dat.fetched Dat.blockOf edgeBlk; rw [hA]; try rfl)

/-! ## The body's accesses

Every load and every store of the body is through the rectangle that is its whole buffer: one per buffer shape. -/

abbrev rFeat : Rect S1600x128 := Rect.unit (s := S1600x128) ![0, 0] S1600x128.size inb_S1600x128_S1600x128_0_0
abbrev rAttr : Rect S1600x7 := Rect.unit (s := S1600x7) ![0, 0] S1600x7.size inb_S1600x7_S1600x7_0_0
abbrev rSquare : Rect S128x128 := Rect.unit (s := S128x128) ![0, 0] S128x128.size inb_S128x128_S128x128_0_0
abbrev rRow : Rect S1x128 := Rect.unit (s := S1x128) ![0, 0] S1x128.size inb_S1x128_S1x128_0_0
abbrev rCol : Rect S128x1 := Rect.unit (s := S128x1) ![0, 0] S128x1.size inb_S128x1_S128x1_0_0
abbrev rOne : Rect S1x1 := Rect.unit (s := S1x1) ![0, 0] S1x1.size inb_S1x1_S1x1_0_0
abbrev rCoord : Rect S1600x3 := Rect.unit (s := S1600x3) ![0, 0] S1600x3.size inb_S1600x3_S1600x3_0_0

/-! ## What the body leaves in each output window's buffer -/

/-- The message window's staging buffer after the body, from the input windows' blocks: its one store, of the gated
    hidden activation — the first layer's pre-activation over the two feature blocks, the squared distance and the
    edge attribute, then two SiLU layers and the sigmoid gate. -/
def edgeMsgOut (x0 : Vec F S1600x128 .f32) (x1 : Vec F S1600x128 .f32) (x2 : Vec F S1600x7 .f32) (x3 : Vec F S128x128 .f32) (x4 : Vec F S128x128 .f32) (x5 : Vec F S1x128 .f32) (x6 : Vec F S1x128 .f32) (x7 : Vec F S1x128 .f32) (x8 : Vec F S128x128 .f32) (x9 : Vec F S1x128 .f32) (x10 : Vec F S128x1 .f32) (x11 : Vec F S1x1 .f32) (x12 : Vec F S128x128 .f32) (x13 : Vec F S1x128 .f32) (x14 : Vec F S128x1 .f32) : Vec F S1600x128 .f32 :=
  View.canon [⟨rFeat, k0_pay4 (k0_pay3 (View.ld x0 rFeat) (View.ld x1 rFeat) (View.ld x2 rAttr) (View.ld x3 rSquare) (View.ld x4 rSquare) (View.ld x5 rRow) (View.ld x6 rRow) (View.ld x7 rRow)) (View.ld x8 rSquare) (View.ld x9 rRow) (View.ld x10 rCol) (View.ld x11 rOne)⟩]

/-- The coordinate window's staging buffer after the body, from the input windows' blocks: its one store, of the
    coordinate difference scaled row by row by the coordinate network's scalar output on the message. -/
def edgeWdOut (x0 : Vec F S1600x128 .f32) (x1 : Vec F S1600x128 .f32) (x2 : Vec F S1600x7 .f32) (x3 : Vec F S128x128 .f32) (x4 : Vec F S128x128 .f32) (x5 : Vec F S1x128 .f32) (x6 : Vec F S1x128 .f32) (x7 : Vec F S1x128 .f32) (x8 : Vec F S128x128 .f32) (x9 : Vec F S1x128 .f32) (x10 : Vec F S128x1 .f32) (x11 : Vec F S1x1 .f32) (x12 : Vec F S128x128 .f32) (x13 : Vec F S1x128 .f32) (x14 : Vec F S128x1 .f32) : Vec F S1600x3 .f32 :=
  View.canon [⟨rCoord, k0_pay5 (k0_pay2 (View.ld x2 rAttr)) (k0_pay3 (View.ld x0 rFeat) (View.ld x1 rFeat) (View.ld x2 rAttr) (View.ld x3 rSquare) (View.ld x4 rSquare) (View.ld x5 rRow) (View.ld x6 rRow) (View.ld x7 rRow)) (View.ld x8 rSquare) (View.ld x9 rRow) (View.ld x10 rCol) (View.ld x11 rOne) (View.ld x12 rSquare) (View.ld x13 rRow) (View.ld x14 rCol)⟩]

/-- The one store to the message buffer is through the whole-buffer rectangle, so it covers every index. -/
theorem edgeMsg_cover (p0 : Vec F S1600x128 .f32) (y : S1600x128.Idx) :
    ∃ pc ∈ ([⟨rFeat, p0⟩] : List (View.Piece (Elt F) S1600x128 .f32)), y ∈ pc.1.set :=
  View.cover_of_tiled [⟨rFeat, p0⟩] S1600x128.size (by rfl) y

/-- The one store to the coordinate buffer is through the whole-buffer rectangle, so it covers every index. -/
theorem edgeWd_cover (p0 : Vec F S1600x3 .f32) (y : S1600x3.Idx) :
    ∃ pc ∈ ([⟨rCoord, p0⟩] : List (View.Piece (Elt F) S1600x3 .f32)), y ∈ pc.1.set :=
  View.cover_of_tiled [⟨rCoord, p0⟩] S1600x3.size (by rfl) y

/-! ## The body's triple -/

set_option maxHeartbeats 4000000 in
/-- The kernel body on whole staging memrefs — the inputs' at read contents `x0 … x14`, the outputs' at anything — runs
    to the continuation holding the inputs' as they were and each output's at its function of the inputs'. The body and
    its two parts are sequences of whole-buffer loads, pure computation and whole-buffer stores; the run steps through
    them, and what the one store leaves in an output buffer reads back as the canonical contents because the store
    covers the buffer. -/
theorem edgeKernel_sound (c : Dev nD) (E : Set ℕ) (i : grid0.Coords) (arg1 : Memref sig .tc .vmem S1600x128 .f32) (harg1 : arg1.IsWhole) (arg2 : Memref sig .tc .vmem S1600x128 .f32) (harg2 : arg2.IsWhole) (arg3 : Memref sig .tc .vmem S1600x7 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S1600x128 .f32) (harg16 : arg16.IsWhole) (arg17 : Memref sig .tc .vmem S1600x3 .f32) (harg17 : arg17.IsWhole)
    (x0 : Vec F S1600x128 .f32) (x1 : Vec F S1600x128 .f32) (x2 : Vec F S1600x7 .f32) (x3 : Vec F S128x128 .f32) (x4 : Vec F S128x128 .f32) (x5 : Vec F S1x128 .f32) (x6 : Vec F S1x128 .f32) (x7 : Vec F S1x128 .f32) (x8 : Vec F S128x128 .f32) (x9 : Vec F S1x128 .f32) (x10 : Vec F S128x1 .f32) (x11 : Vec F S1x1 .f32) (x12 : Vec F S128x128 .f32) (x13 : Vec F S1x128 .f32) (x14 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (edgeMsgOut x0 x1 x2 x3 x4 x5 x6 x7 x8 x9 x10 x11 x12 x13 x14) ∗ owns (c : Thread nD τ) arg17 fullShare (edgeWdOut x0 x1 x2 x3 x4 x5 x6 x7 x8 x9 x10 x11 x12 x13 x14)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__edge_kernel_eq_skeleton]; unfold cc0__edge_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (edgeMsg_cover _)
  iexists _; isplitr
  swap; · iexact H16
  ipureintro
  try dsimp only
  exact View.read_writes_eq_canon _ _ _ (edgeWd_cover _)

/-! ## The pipeline's proof data -/

/-- The proof data of the edge pipeline on core `c`: the arrays as the region finds them; after the body at point `t`
    each input's buffer at its block and each output's at its function of the fifteen input blocks; the invariant is
    the scoped rest and the generator register, untouched; nothing is owed; the shares are full. -/
def edgeDat (c : Dev nD) : Dat τ (Elt F) Unit ℕ (UR sig nD τ) ℕ cfg0 c where
  A w := V c (Pipeline.arrRef spec0 w)
  after w t := match w with
    | ⟨0, _⟩ => edgeBlk V c 0 t
    | ⟨1, _⟩ => edgeBlk V c 1 t
    | ⟨2, _⟩ => edgeBlk V c 2 t
    | ⟨3, _⟩ => edgeBlk V c 3 t
    | ⟨4, _⟩ => edgeBlk V c 4 t
    | ⟨5, _⟩ => edgeBlk V c 5 t
    | ⟨6, _⟩ => edgeBlk V c 6 t
    | ⟨7, _⟩ => edgeBlk V c 7 t
    | ⟨8, _⟩ => edgeBlk V c 8 t
    | ⟨9, _⟩ => edgeBlk V c 9 t
    | ⟨10, _⟩ => edgeBlk V c 10 t
    | ⟨11, _⟩ => edgeBlk V c 11 t
    | ⟨12, _⟩ => edgeBlk V c 12 t
    | ⟨13, _⟩ => edgeBlk V c 13 t
    | ⟨14, _⟩ => edgeBlk V c 14 t
    | ⟨15, _⟩ => edgeMsgOut (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t)
    | ⟨16, _⟩ => edgeWdOut (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t)
    | ⟨_ + 17, h⟩ => absurd h (Nat.not_lt.2 (Nat.le_add_left _ _))
  Φ _ := Pipeline.ΦA spec0 c
  q _ := fullShare
  owed _ := 0

/-- The proof data's arrays are the region-entry contents: the definition projected. -/
theorem edgeDat_A (c : Dev nD) (w : Fin cfg0.W) : (edgeDat V c).A w = V c (Pipeline.arrRef spec0 w) := by
  dsimp only [edgeDat]

/-! What the body leaves, window by window: the proof data's case distinction reduced at each window. -/

theorem edgeDat_after_0 (c : Dev nD) (t : Fin cfg0.N) : (edgeDat V c).after 0 t = edgeBlk V c 0 t := by dsimp only [edgeDat]
theorem edgeDat_after_1 (c : Dev nD) (t : Fin cfg0.N) : (edgeDat V c).after 1 t = edgeBlk V c 1 t := by dsimp only [edgeDat]
theorem edgeDat_after_2 (c : Dev nD) (t : Fin cfg0.N) : (edgeDat V c).after 2 t = edgeBlk V c 2 t := by dsimp only [edgeDat]
theorem edgeDat_after_3 (c : Dev nD) (t : Fin cfg0.N) : (edgeDat V c).after 3 t = edgeBlk V c 3 t := by dsimp only [edgeDat]
theorem edgeDat_after_4 (c : Dev nD) (t : Fin cfg0.N) : (edgeDat V c).after 4 t = edgeBlk V c 4 t := by dsimp only [edgeDat]
theorem edgeDat_after_5 (c : Dev nD) (t : Fin cfg0.N) : (edgeDat V c).after 5 t = edgeBlk V c 5 t := by dsimp only [edgeDat]
theorem edgeDat_after_6 (c : Dev nD) (t : Fin cfg0.N) : (edgeDat V c).after 6 t = edgeBlk V c 6 t := by dsimp only [edgeDat]
theorem edgeDat_after_7 (c : Dev nD) (t : Fin cfg0.N) : (edgeDat V c).after 7 t = edgeBlk V c 7 t := by dsimp only [edgeDat]
theorem edgeDat_after_8 (c : Dev nD) (t : Fin cfg0.N) : (edgeDat V c).after 8 t = edgeBlk V c 8 t := by dsimp only [edgeDat]
theorem edgeDat_after_9 (c : Dev nD) (t : Fin cfg0.N) : (edgeDat V c).after 9 t = edgeBlk V c 9 t := by dsimp only [edgeDat]
theorem edgeDat_after_10 (c : Dev nD) (t : Fin cfg0.N) : (edgeDat V c).after 10 t = edgeBlk V c 10 t := by dsimp only [edgeDat]
theorem edgeDat_after_11 (c : Dev nD) (t : Fin cfg0.N) : (edgeDat V c).after 11 t = edgeBlk V c 11 t := by dsimp only [edgeDat]
theorem edgeDat_after_12 (c : Dev nD) (t : Fin cfg0.N) : (edgeDat V c).after 12 t = edgeBlk V c 12 t := by dsimp only [edgeDat]
theorem edgeDat_after_13 (c : Dev nD) (t : Fin cfg0.N) : (edgeDat V c).after 13 t = edgeBlk V c 13 t := by dsimp only [edgeDat]
theorem edgeDat_after_14 (c : Dev nD) (t : Fin cfg0.N) : (edgeDat V c).after 14 t = edgeBlk V c 14 t := by dsimp only [edgeDat]
theorem edgeDat_after_15 (c : Dev nD) (t : Fin cfg0.N) : (edgeDat V c).after 15 t = edgeMsgOut (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t) := by dsimp only [edgeDat]
theorem edgeDat_after_16 (c : Dev nD) (t : Fin cfg0.N) : (edgeDat V c).after 16 t = edgeWdOut (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t) := by dsimp only [edgeDat]

/-! Each input's current staging buffer holds its block at every point, fetched there or not. -/

theorem edgeBefore_0 (c : Dev nD) (t : Fin cfg0.N) (d) : (edgeDat V c).before 0 t d = edgeBlk V c 0 t :=
  edgeBefore_0_of V (edgeDat V c) (edgeDat_A V c 0) (edgeDat_after_0 V c) t d
theorem edgeBefore_1 (c : Dev nD) (t : Fin cfg0.N) (d) : (edgeDat V c).before 1 t d = edgeBlk V c 1 t :=
  edgeBefore_1_of V (edgeDat V c) (edgeDat_A V c 1) (edgeDat_after_1 V c) t d
theorem edgeBefore_2 (c : Dev nD) (t : Fin cfg0.N) (d) : (edgeDat V c).before 2 t d = edgeBlk V c 2 t :=
  edgeBefore_2_of V (edgeDat V c) (edgeDat_A V c 2) (edgeDat_after_2 V c) t d
theorem edgeBefore_3 (c : Dev nD) (t : Fin cfg0.N) (d) : (edgeDat V c).before 3 t d = edgeBlk V c 3 t :=
  edgeBefore_3_of V (edgeDat V c) (edgeDat_A V c 3) (edgeDat_after_3 V c) t d
theorem edgeBefore_4 (c : Dev nD) (t : Fin cfg0.N) (d) : (edgeDat V c).before 4 t d = edgeBlk V c 4 t :=
  edgeBefore_4_of V (edgeDat V c) (edgeDat_A V c 4) (edgeDat_after_4 V c) t d
theorem edgeBefore_5 (c : Dev nD) (t : Fin cfg0.N) (d) : (edgeDat V c).before 5 t d = edgeBlk V c 5 t :=
  edgeBefore_5_of V (edgeDat V c) (edgeDat_A V c 5) (edgeDat_after_5 V c) t d
theorem edgeBefore_6 (c : Dev nD) (t : Fin cfg0.N) (d) : (edgeDat V c).before 6 t d = edgeBlk V c 6 t :=
  edgeBefore_6_of V (edgeDat V c) (edgeDat_A V c 6) (edgeDat_after_6 V c) t d
theorem edgeBefore_7 (c : Dev nD) (t : Fin cfg0.N) (d) : (edgeDat V c).before 7 t d = edgeBlk V c 7 t :=
  edgeBefore_7_of V (edgeDat V c) (edgeDat_A V c 7) (edgeDat_after_7 V c) t d
theorem edgeBefore_8 (c : Dev nD) (t : Fin cfg0.N) (d) : (edgeDat V c).before 8 t d = edgeBlk V c 8 t :=
  edgeBefore_8_of V (edgeDat V c) (edgeDat_A V c 8) (edgeDat_after_8 V c) t d
theorem edgeBefore_9 (c : Dev nD) (t : Fin cfg0.N) (d) : (edgeDat V c).before 9 t d = edgeBlk V c 9 t :=
  edgeBefore_9_of V (edgeDat V c) (edgeDat_A V c 9) (edgeDat_after_9 V c) t d
theorem edgeBefore_10 (c : Dev nD) (t : Fin cfg0.N) (d) : (edgeDat V c).before 10 t d = edgeBlk V c 10 t :=
  edgeBefore_10_of V (edgeDat V c) (edgeDat_A V c 10) (edgeDat_after_10 V c) t d
theorem edgeBefore_11 (c : Dev nD) (t : Fin cfg0.N) (d) : (edgeDat V c).before 11 t d = edgeBlk V c 11 t :=
  edgeBefore_11_of V (edgeDat V c) (edgeDat_A V c 11) (edgeDat_after_11 V c) t d
theorem edgeBefore_12 (c : Dev nD) (t : Fin cfg0.N) (d) : (edgeDat V c).before 12 t d = edgeBlk V c 12 t :=
  edgeBefore_12_of V (edgeDat V c) (edgeDat_A V c 12) (edgeDat_after_12 V c) t d
theorem edgeBefore_13 (c : Dev nD) (t : Fin cfg0.N) (d) : (edgeDat V c).before 13 t d = edgeBlk V c 13 t :=
  edgeBefore_13_of V (edgeDat V c) (edgeDat_A V c 13) (edgeDat_after_13 V c) t d
theorem edgeBefore_14 (c : Dev nD) (t : Fin cfg0.N) (d) : (edgeDat V c).before 14 t d = edgeBlk V c 14 t :=
  edgeBefore_14_of V (edgeDat V c) (edgeDat_A V c 14) (edgeDat_after_14 V c) t d

/-! ## The body obligation, at a generic point -/

/-- What the body is called with at point `t`: the invariant, what is owed, and each window's current staging buffer held
    whole at what the pipeline left in it, -/
def edgeBodyPre (c : Dev nD) (t : Fin cfg0.N) : sProp 𝕄 :=
  iprop((edgeDat V c).Φ t.castSucc ∗ (edgeDat V c).owesAt () t.castSucc
    ∗ (∃ d, owns (c : Thread nD τ) (st0_0 t) fullShare ((edgeDat V c).before 0 t d))
    ∗ (∃ d, owns (c : Thread nD τ) (st0_1 t) fullShare ((edgeDat V c).before 1 t d))
    ∗ (∃ d, owns (c : Thread nD τ) (st0_2 t) fullShare ((edgeDat V c).before 2 t d))
    ∗ (∃ d, owns (c : Thread nD τ) (st0_3 t) fullShare ((edgeDat V c).before 3 t d))
    ∗ (∃ d, owns (c : Thread nD τ) (st0_4 t) fullShare ((edgeDat V c).before 4 t d))
    ∗ (∃ d, owns (c : Thread nD τ) (st0_5 t) fullShare ((edgeDat V c).before 5 t d))
    ∗ (∃ d, owns (c : Thread nD τ) (st0_6 t) fullShare ((edgeDat V c).before 6 t d))
    ∗ (∃ d, owns (c : Thread nD τ) (st0_7 t) fullShare ((edgeDat V c).before 7 t d))
    ∗ (∃ d, owns (c : Thread nD τ) (st0_8 t) fullShare ((edgeDat V c).before 8 t d))
    ∗ (∃ d, owns (c : Thread nD τ) (st0_9 t) fullShare ((edgeDat V c).before 9 t d))
    ∗ (∃ d, owns (c : Thread nD τ) (st0_10 t) fullShare ((edgeDat V c).before 10 t d))
    ∗ (∃ d, owns (c : Thread nD τ) (st0_11 t) fullShare ((edgeDat V c).before 11 t d))
    ∗ (∃ d, owns (c : Thread nD τ) (st0_12 t) fullShare ((edgeDat V c).before 12 t d))
    ∗ (∃ d, owns (c : Thread nD τ) (st0_13 t) fullShare ((edgeDat V c).before 13 t d))
    ∗ (∃ d, owns (c : Thread nD τ) (st0_14 t) fullShare ((edgeDat V c).before 14 t d))
    ∗ (∃ d, owns (c : Thread nD τ) (st0_15 t) fullShare ((edgeDat V c).before 15 t d))
    ∗ (∃ d, owns (c : Thread nD τ) (st0_16 t) fullShare ((edgeDat V c).before 16 t d)))

/-- and what it returns: the same, each buffer at what the body leaves in it. -/
def edgeBodyPost (c : Dev nD) (t : Fin cfg0.N) : sProp 𝕄 :=
  iprop((edgeDat V c).Φ t.succ ∗ (edgeDat V c).owesAt () t.succ
    ∗ owns (c : Thread nD τ) (st0_0 t) fullShare ((edgeDat V c).after 0 t)
    ∗ owns (c : Thread nD τ) (st0_1 t) fullShare ((edgeDat V c).after 1 t)
    ∗ owns (c : Thread nD τ) (st0_2 t) fullShare ((edgeDat V c).after 2 t)
    ∗ owns (c : Thread nD τ) (st0_3 t) fullShare ((edgeDat V c).after 3 t)
    ∗ owns (c : Thread nD τ) (st0_4 t) fullShare ((edgeDat V c).after 4 t)
    ∗ owns (c : Thread nD τ) (st0_5 t) fullShare ((edgeDat V c).after 5 t)
    ∗ owns (c : Thread nD τ) (st0_6 t) fullShare ((edgeDat V c).after 6 t)
    ∗ owns (c : Thread nD τ) (st0_7 t) fullShare ((edgeDat V c).after 7 t)
    ∗ owns (c : Thread nD τ) (st0_8 t) fullShare ((edgeDat V c).after 8 t)
    ∗ owns (c : Thread nD τ) (st0_9 t) fullShare ((edgeDat V c).after 9 t)
    ∗ owns (c : Thread nD τ) (st0_10 t) fullShare ((edgeDat V c).after 10 t)
    ∗ owns (c : Thread nD τ) (st0_11 t) fullShare ((edgeDat V c).after 11 t)
    ∗ owns (c : Thread nD τ) (st0_12 t) fullShare ((edgeDat V c).after 12 t)
    ∗ owns (c : Thread nD τ) (st0_13 t) fullShare ((edgeDat V c).after 13 t)
    ∗ owns (c : Thread nD τ) (st0_14 t) fullShare ((edgeDat V c).after 14 t)
    ∗ owns (c : Thread nD τ) (st0_15 t) fullShare ((edgeDat V c).after 15 t)
    ∗ owns (c : Thread nD τ) (st0_16 t) fullShare ((edgeDat V c).after 16 t))

set_option maxHeartbeats 2000000 in
/-- The body at any point: the inputs' memrefs hold their blocks, so the body's triple applies at those blocks; the
    invariant and what is owed pass through unread, and they are the same before and after a point. -/
theorem edge_sound_body (c : Dev nD) (t : Fin cfg0.N) :
    edgeBodyPre V c t ⊢ wp frame (wpE (defs₀ (F := F)) Variants.none c none) Set.univ (bodyAt0 t) (fun _ => edgeBodyPost V c t) := by
  unfold edgeBodyPre edgeBodyPost bodyAt0
  simp only [edgeBefore_0, edgeBefore_1, edgeBefore_2, edgeBefore_3, edgeBefore_4, edgeBefore_5, edgeBefore_6, edgeBefore_7, edgeBefore_8, edgeBefore_9, edgeBefore_10, edgeBefore_11, edgeBefore_12, edgeBefore_13, edgeBefore_14]
  rw [show (edgeDat V c).Φ t.succ = (edgeDat V c).Φ t.castSucc from rfl,
    show (edgeDat V c).owesAt () t.succ = (edgeDat V c).owesAt () t.castSucc from rfl,
    edgeDat_after_0, edgeDat_after_1, edgeDat_after_2, edgeDat_after_3, edgeDat_after_4, edgeDat_after_5, edgeDat_after_6, edgeDat_after_7, edgeDat_after_8, edgeDat_after_9, edgeDat_after_10, edgeDat_after_11, edgeDat_after_12, edgeDat_after_13, edgeDat_after_14, edgeDat_after_15, edgeDat_after_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (edgeKernel_sound c Set.univ (grid0.coords t) _ _ _ _ _ _ _ _ _ _ _ _ _ _ _ _ _ _ _ _ _ _ _ _ _ _ _ _ _ _ _ _ _ _ (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline's body obligation, at every point: its pre- and postcondition are the windows conjoined one by one. -/
theorem edge_body_obligation (c : Dev nD) : BodyObligation (edgeDat (F := F) V c) (defs₀ (F := F)) Variants.none () Set.univ := fun t => by
  rw [bigSep_W0, bigSep_W0]
  exact edge_sound_body V c t

end Cert.KernelIdeal.Hand

end
-- ==== Proof.KernelIdeal.FrameNode.lean ====
import proofs.«430614_j61916248539245_1_alg».proof.Proof.Gen.KernelIdeal.Launch
import proofs.«430614_j61916248539245_1_alg».proof.Proof.Gen.KernelIdeal.Skeleton
import proofs.«430614_j61916248539245_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The node-update region, per point

The second pipelined call of the program (the node update: eight windows over a grid of 25 points) at a PARAMETER
`V`, the TensorCore's buffer contents when the region is entered. Stated here: each window's block at a point,
what the body leaves in the output window's buffer as a function of the input blocks, the body's triple, the
pipeline's proof data, and the body obligation at every point. Everything is generic in the float instance. -/

-- membership in a rectangle of 2000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def nodeBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved,
    so the previous point's block is this point's. The window is uncut and never idle. -/
theorem nodeBefore_0_of {c : Dev nD} (dat : Dat τ (Elt F) Unit ℕ (UR sig nD τ) ℕ cfg1 c) (hA : dat.A 0 = V c (Pipeline.arrRef spec1 0))
    (hafter : ∀ t, dat.after 0 t = nodeBlk V c 0 t) (t : Fin cfg1.N) (d) : dat.before 0 t d = nodeBlk V c 0 t :=
  (dat.before_in_eq_fetched 0 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 1's current staging buffer holds its block at every point, fetched there or not, for any proof
    data whose array is `V`'s and whose body leaves the block in place: unfetched, the block index has not moved,
    so the previous point's block is this point's. The window is uncut and never idle. -/
theorem nodeBefore_1_of {c : Dev nD} (dat : Dat τ (Elt F) Unit ℕ (UR sig nD τ) ℕ cfg1 c) (hA : dat.A 1 = V c (Pipeline.arrRef spec1 1))
    (hafter : ∀ t, dat.after 1 t = nodeBlk V c 1 t) (t : Fin cfg1.N) (d) : dat.before 1 t d = nodeBlk V c 1 t :=
  (dat.before_in_eq_fetched 1 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 2's current staging buffer holds its block at every point, fetched there or not, for any proof
    data whose array is `V`'s and whose body leaves the block in place: unfetched, the block index has not moved,
    so the previous point's block is this point's. The window is uncut and never idle. -/
theorem nodeBefore_2_of {c : Dev nD} (dat : Dat τ (Elt F) Unit ℕ (UR sig nD τ) ℕ cfg1 c) (hA : dat.A 2 = V c (Pipeline.arrRef spec1 2))
    (hafter : ∀ t, dat.after 2 t = nodeBlk V c 2 t) (t : Fin cfg1.N) (d) : dat.before 2 t d = nodeBlk V c 2 t :=
  (dat.before_in_eq_fetched 2 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 3's current staging buffer holds its block at every point, fetched there or not, for any proof
    data whose array is `V`'s and whose body leaves the block in place: unfetched, the block index has not moved,
    so the previous point's block is this point's. The window is uncut and never idle. -/
theorem nodeBefore_3_of {c : Dev nD} (dat : Dat τ (Elt F) Unit ℕ (UR sig nD τ) ℕ cfg1 c) (hA : dat.A 3 = V c (Pipeline.arrRef spec1 3))
    (hafter : ∀ t, dat.after 3 t = nodeBlk V c 3 t) (t : Fin cfg1.N) (d) : dat.before 3 t d = nodeBlk V c 3 t :=
  (dat.before_in_eq_fetched 3 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 4's current staging buffer holds its block at every point, fetched there or not, for any proof
    data whose array is `V`'s and whose body leaves the block in place: unfetched, the block index has not moved,
    so the previous point's block is this point's. The window is uncut and never idle. -/
theorem nodeBefore_4_of {c : Dev nD} (dat : Dat τ (Elt F) Unit ℕ (UR sig nD τ) ℕ cfg1 c) (hA : dat.A 4 = V c (Pipeline.arrRef spec1 4))
    (hafter : ∀ t, dat.after 4 t = nodeBlk V c 4 t) (t : Fin cfg1.N) (d) : dat.before 4 t d = nodeBlk V c 4 t :=
  (dat.before_in_eq_fetched 4 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 5's current staging buffer holds its block at every point, fetched there or not, for any proof
    data whose array is `V`'s and whose body leaves the block in place: unfetched, the block index has not moved,
    so the previous point's block is this point's. The window is uncut and never idle. -/
theorem nodeBefore_5_of {c : Dev nD} (dat : Dat τ (Elt F) Unit ℕ (UR sig nD τ) ℕ cfg1 c) (hA : dat.A 5 = V c (Pipeline.arrRef spec1 5))
    (hafter : ∀ t, dat.after 5 t = nodeBlk V c 5 t) (t : Fin cfg1.N) (d) : dat.before 5 t d = nodeBlk V c 5 t :=
  (dat.before_in_eq_fetched 5 rfl (fun _ => rfl) (fun _ _ _ => rfl) (fun t => by rw [hafter]; unfold Dat.blockOf nodeBlk; rw [hA]; try rfl) t d).trans
    (by unfold Dat.fetched Dat.blockOf nodeBlk; rw [hA]; try rfl)
/-- Input window 6's current staging buffer holds its block at every point, fetched there or not, for any proof
    data whose array is `V`'s and whose body leaves the block in place: unfetched, the block index has not moved,
    so the previous point's block is this point's. The window is uncut and never idle. -/
theorem nodeBefore_6_of {c : Dev nD} (dat : Dat τ (Elt F) Unit ℕ (UR sig nD τ) ℕ cfg1 c) (hA : dat.A 6 = V c (Pipeline.arrRef spec1 6))
    (hafter : ∀ t, dat.after 6 t = nodeBlk V c 6 t) (t : Fin cfg1.N) (d) : dat.before 6 t d = nodeBlk V c 6 t :=
  (dat.before_in_eq_fetched 6 rfl (fun _ => rfl) (fun _ _ _ => rfl) (fun t => by rw [hafter]; unfold Dat.blockOf nodeBlk; rw [hA]; try rfl) t d).trans
    (by unfold Dat.fetched Dat.blockOf nodeBlk; rw [hA]; try rfl)

/-! ## The body's accesses -/

/-- The whole 2000×128 block (the two row-blocked inputs and the output). -/
abbrev rA : Rect S2000x128 := Rect.unit (s := S2000x128) ![0, 0] S2000x128.size inb_S2000x128_S2000x128_0_0
/-- The whole 128×128 block (the three weight matrices). -/
abbrev rB : Rect S128x128 := Rect.unit (s := S128x128) ![0, 0] S128x128.size inb_S128x128_S128x128_0_0
/-- The whole 1×128 block (the two bias rows). -/
abbrev rC : Rect S1x128 := Rect.unit (s := S1x128) ![0, 0] S1x128.size inb_S1x128_S1x128_0_0

/-! ## What the body leaves in the output window's buffer -/

/-- Window 7's staging buffer after the body, from the input windows' blocks: its one store, of the whole block,
    of the residual update `x0 + (silu (bf16 x0 · bf16 x2 + bf16 x1 · bf16 x3 + x4) as bf16 · bf16 x5 + x6)`
    (the skeleton's payload). -/
def nodeOut (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) : Vec F S2000x128 .f32 :=
  View.canon [⟨rA, k1_pay1 (View.ld x0 rA) (View.ld x1 rA) (View.ld x2 rB) (View.ld x3 rB) (View.ld x4 rC) (View.ld x5 rB) (View.ld x6 rC)⟩]

/-- The one store is of the whole block (checked by evaluation), so it covers the buffer. -/
theorem nodeCover (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-! ## The body's triple -/

set_option maxHeartbeats 1000000 in
/-- The kernel body on whole staging memrefs, the inputs' at read contents `xW` and the output's at anything, runs to
    the continuation holding the inputs' as they were and the output's at `nodeOut` of the inputs': the body loads
    each block whole, computes, and stores the output block whole. -/
theorem nodeKernel_sound (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (nodeOut x0 x1 x2 x3 x4 x5 x6)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (nodeCover _)

/-! ## The pipeline's proof data -/

/-- The proof data of the pipeline on core `c`: the arrays as the region finds them (`V`); after the body at
    point `t` each input's buffer at its block and the output's at `nodeOut` of the input blocks; the invariant is
    the scoped rest and the generator register, untouched; nothing owed; full shares. -/
def nodeDat (c : Dev nD) : Dat τ (Elt F) Unit ℕ (UR sig nD τ) ℕ cfg1 c where
  A w := V c (Pipeline.arrRef spec1 w)
  after w t := match w with
    | ⟨0, _⟩ => nodeBlk V c 0 t
    | ⟨1, _⟩ => nodeBlk V c 1 t
    | ⟨2, _⟩ => nodeBlk V c 2 t
    | ⟨3, _⟩ => nodeBlk V c 3 t
    | ⟨4, _⟩ => nodeBlk V c 4 t
    | ⟨5, _⟩ => nodeBlk V c 5 t
    | ⟨6, _⟩ => nodeBlk V c 6 t
    | ⟨7, _⟩ => nodeOut (nodeBlk V c 0 t) (nodeBlk V c 1 t) (nodeBlk V c 2 t) (nodeBlk V c 3 t) (nodeBlk V c 4 t) (nodeBlk V c 5 t) (nodeBlk V c 6 t)
  Φ _ := Pipeline.ΦA spec1 c
  q _ := fullShare
  owed _ := 0

/-- The proof data's arrays are the region-entry contents. -/
theorem nodeDat_A (c : Dev nD) (w : Fin cfg1.W) : (nodeDat V c).A w = V c (Pipeline.arrRef spec1 w) := by
  dsimp only [nodeDat]

/-- What the body leaves, window by window. -/
theorem nodeDat_after_0 (c : Dev nD) (t : Fin cfg1.N) : (nodeDat V c).after 0 t = nodeBlk V c 0 t := by dsimp only [nodeDat]
theorem nodeDat_after_1 (c : Dev nD) (t : Fin cfg1.N) : (nodeDat V c).after 1 t = nodeBlk V c 1 t := by dsimp only [nodeDat]
theorem nodeDat_after_2 (c : Dev nD) (t : Fin cfg1.N) : (nodeDat V c).after 2 t = nodeBlk V c 2 t := by dsimp only [nodeDat]
theorem nodeDat_after_3 (c : Dev nD) (t : Fin cfg1.N) : (nodeDat V c).after 3 t = nodeBlk V c 3 t := by dsimp only [nodeDat]
theorem nodeDat_after_4 (c : Dev nD) (t : Fin cfg1.N) : (nodeDat V c).after 4 t = nodeBlk V c 4 t := by dsimp only [nodeDat]
theorem nodeDat_after_5 (c : Dev nD) (t : Fin cfg1.N) : (nodeDat V c).after 5 t = nodeBlk V c 5 t := by dsimp only [nodeDat]
theorem nodeDat_after_6 (c : Dev nD) (t : Fin cfg1.N) : (nodeDat V c).after 6 t = nodeBlk V c 6 t := by dsimp only [nodeDat]
theorem nodeDat_after_7 (c : Dev nD) (t : Fin cfg1.N) : (nodeDat V c).after 7 t = nodeOut (nodeBlk V c 0 t) (nodeBlk V c 1 t) (nodeBlk V c 2 t) (nodeBlk V c 3 t) (nodeBlk V c 4 t) (nodeBlk V c 5 t) (nodeBlk V c 6 t) := by dsimp only [nodeDat]

/-- Each input's current staging buffer holds its block at every point, fetched there or not. -/
theorem nodeBefore_0 (c : Dev nD) (t : Fin cfg1.N) (d) : (nodeDat V c).before 0 t d = nodeBlk V c 0 t :=
  nodeBefore_0_of V (nodeDat V c) (nodeDat_A V c 0) (nodeDat_after_0 V c) t d
theorem nodeBefore_1 (c : Dev nD) (t : Fin cfg1.N) (d) : (nodeDat V c).before 1 t d = nodeBlk V c 1 t :=
  nodeBefore_1_of V (nodeDat V c) (nodeDat_A V c 1) (nodeDat_after_1 V c) t d
theorem nodeBefore_2 (c : Dev nD) (t : Fin cfg1.N) (d) : (nodeDat V c).before 2 t d = nodeBlk V c 2 t :=
  nodeBefore_2_of V (nodeDat V c) (nodeDat_A V c 2) (nodeDat_after_2 V c) t d
theorem nodeBefore_3 (c : Dev nD) (t : Fin cfg1.N) (d) : (nodeDat V c).before 3 t d = nodeBlk V c 3 t :=
  nodeBefore_3_of V (nodeDat V c) (nodeDat_A V c 3) (nodeDat_after_3 V c) t d
theorem nodeBefore_4 (c : Dev nD) (t : Fin cfg1.N) (d) : (nodeDat V c).before 4 t d = nodeBlk V c 4 t :=
  nodeBefore_4_of V (nodeDat V c) (nodeDat_A V c 4) (nodeDat_after_4 V c) t d
theorem nodeBefore_5 (c : Dev nD) (t : Fin cfg1.N) (d) : (nodeDat V c).before 5 t d = nodeBlk V c 5 t :=
  nodeBefore_5_of V (nodeDat V c) (nodeDat_A V c 5) (nodeDat_after_5 V c) t d
theorem nodeBefore_6 (c : Dev nD) (t : Fin cfg1.N) (d) : (nodeDat V c).before 6 t d = nodeBlk V c 6 t :=
  nodeBefore_6_of V (nodeDat V c) (nodeDat_A V c 6) (nodeDat_after_6 V c) t d

/-! ## The body obligation, at a generic point -/

/-- What the body is called with at point `t` (the windows one by one), -/
def nodeBodyPre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d))
    ∗ (∃ d, owns (c : Thread nD τ) (st1_3 t) fullShare ((nodeDat V c).before 3 t d))
    ∗ (∃ d, owns (c : Thread nD τ) (st1_4 t) fullShare ((nodeDat V c).before 4 t d))
    ∗ (∃ d, owns (c : Thread nD τ) (st1_5 t) fullShare ((nodeDat V c).before 5 t d))
    ∗ (∃ d, owns (c : Thread nD τ) (st1_6 t) fullShare ((nodeDat V c).before 6 t d))
    ∗ (∃ d, owns (c : Thread nD τ) (st1_7 t) fullShare ((nodeDat V c).before 7 t d)))

/-- and what it returns. -/
def nodeBodyPost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t)
    ∗ owns (c : Thread nD τ) (st1_3 t) fullShare ((nodeDat V c).after 3 t)
    ∗ owns (c : Thread nD τ) (st1_4 t) fullShare ((nodeDat V c).after 4 t)
    ∗ owns (c : Thread nD τ) (st1_5 t) fullShare ((nodeDat V c).after 5 t)
    ∗ owns (c : Thread nD τ) (st1_6 t) fullShare ((nodeDat V c).after 6 t)
    ∗ owns (c : Thread nD τ) (st1_7 t) fullShare ((nodeDat V c).after 7 t))

/-- The body at any point: the inputs' memrefs hold their blocks, so the body's triple applies; the invariant and
    the core's obligations pass through unread. -/
theorem nodeBody_sound (c : Dev nD) (t : Fin cfg1.N) :
    nodeBodyPre V c t ⊢ wp frame (wpE (defs₀ (F := F)) Variants.none c none) Set.univ (bodyAt1 t) (fun _ => nodeBodyPost V c t) := by
  unfold nodeBodyPre nodeBodyPost bodyAt1
  simp only [nodeBefore_0, nodeBefore_1, nodeBefore_2, nodeBefore_3, nodeBefore_4, nodeBefore_5, nodeBefore_6]
  rw [show (nodeDat V c).Φ t.succ = (nodeDat V c).Φ t.castSucc from rfl,
    show (nodeDat V c).owesAt () t.succ = (nodeDat V c).owesAt () t.castSucc from rfl,
    nodeDat_after_0, nodeDat_after_1, nodeDat_after_2, nodeDat_after_3, nodeDat_after_4, nodeDat_after_5, nodeDat_after_6, nodeDat_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (nodeKernel_sound c Set.univ (grid1.coords t) _ _ _ _ _ _ _ _ _ _ _ _ _ _ _ _ (nodeBlk V c 0 t) (nodeBlk V c 1 t) (nodeBlk V c 2 t) (nodeBlk V c 3 t) (nodeBlk V c 4 t) (nodeBlk V c 5 t) (nodeBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem node_body_obligation (c : Dev nD) : BodyObligation (nodeDat (F := F) V c) (defs₀ (F := F)) Variants.none () Set.univ := fun t => by
  rw [bigSep_W1, bigSep_W1]
  exact nodeBody_sound V c t

end Cert.KernelIdeal.Hand

end
-- ==== Proof.KernelIdeal.RunCond.lean ====
/-
  The program's run to its end from one record per kernel region: the same launch over @main's items that yields the
  frame, read back at EVERY unscoped buffer rather than at the arguments alone, so that the results' contents come
  with it.
-/
import proofs.«430614_j61916248539245_1_alg».proof.Proof.Gen.KernelIdeal.Regions

set_option maxRecDepth 3424

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- The run, given the regions' records: for any rest states the launch makes on every core and that end owing
    nothing, any contents the regions leave and any proof data, GIVEN per region a segment record entered from the
    thread state before it and left at the one after it, every weakly fair execution of @main from memory `m` with
    zero counters terminates, and in every final memory every unscoped buffer of every core holds the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V6 m c) ∗ E 0 c) ⊢ R0.pre c)
    (hpost0 : ∀ c : Dev nD, R0.post c ⊢ iprop(StableHlo.held (c : Thread nD τ) (Pipeline.ucRefs τ sig) (V7 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V11 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, .rfl, .rfl, .rfl, hpre0 c, hpost0 c, .rfl, .rfl, hpre1 c, (hpost1 c).trans (sep_mono .rfl (hE2 c))⟩)
    (hinit := ?_) (QY := fun c s => ∀ b ∈ Pipeline.ucRefs τ sig, s.mem ((c : Thread nD τ).1, b) = V11 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact h
    · iexact HSI

end Cert.KernelIdeal.Hand

end
-- ==== Proof.KernelIdeal.Run.lean ====
/-
  The program's run, at any float instance: @main is six stretches of host operations, the edge region, three more
  stretches, and the node region. Between two items every unscoped buffer of a core is held whole at a known
  valuation: the launch memory, then each stretch's operations applied, then, after a region, the region's arrays
  at what its pipeline's write-backs leave (an input array as it was; an output array with every grid point's
  block written back) and every other buffer untouched. Every weakly fair execution therefore ends with every
  unscoped buffer at the last valuation, which gives both the frame (no item writes an argument) and the results.
-/
import proofs.«430614_j61916248539245_1_alg».proof.Proof.Gen.KernelIdeal.Regions
import proofs.«430614_j61916248539245_1_alg».proof.Proof.KernelIdeal.FrameEdge
import proofs.«430614_j61916248539245_1_alg».proof.Proof.KernelIdeal.FrameNode
import proofs.«430614_j61916248539245_1_alg».proof.Proof.KernelIdeal.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The valuations at the two regions' ends -/

/-- The buffers' contents when the edge region is entered, read at the TensorCore's references. -/
abbrev edgeEntry : (c : Dev nD) → (b : Ref sig .tc) → Buf (Elt F) ((c : Thread nD τ).loc b) := fun c b => V6 m c b

/-- At the edge region's exit: its arrays at what the pipeline leaves, every other buffer as entered. -/
def edgeExit (c : Dev nD) : Valuation τ sig (Elt F) :=
  Pipeline.withArrays spec0 c (V6 m c) fun w => (edgeDat (edgeEntry m) c).arrAt w cfg0.N

/-- What the edge region leaves, as the unknowns of the valuations between the two regions. -/
def outsEdge : Outs (F := F) := fun _ r c => edgeExit m c r

/-- The buffers' contents when the node region is entered. -/
abbrev nodeEntry : (c : Dev nD) → (b : Ref sig .tc) → Buf (Elt F) ((c : Thread nD τ).loc b) := fun c b => V10 m (outsEdge m) c b

/-- At the node region's exit. -/
def nodeExit (c : Dev nD) : Valuation τ sig (Elt F) :=
  Pipeline.withArrays spec1 c (V10 m (outsEdge m) c) fun w => (nodeDat (nodeEntry m) c).arrAt w cfg1.N

/-- What each region leaves in the buffers it may change: after item 10 (the node region) its exit contents,
    before that the edge region's. -/
def outs : Outs (F := F) := fun J r c => if J = 11 then nodeExit m c r else edgeExit m c r

theorem outs_7 (r : Ref sig .tc) (c : Dev nD) : outs m 7 r c = edgeExit m c r := if_neg (by decide)
theorem outs_11 (r : Ref sig .tc) (c : Dev nD) : outs m 11 r c = nodeExit m c r := if_pos rfl

/-- The valuations between the regions do not depend on what the node region leaves. -/
theorem V7_outs (c : Dev nD) : V7 m (outs m) c = V7 m (outsEdge m) c := rfl
theorem V10_outs (c : Dev nD) : V10 m (outs m) c = V10 m (outsEdge m) c := rfl

/-- The edge region's output arrays after it: what its pipeline leaves. -/
theorem V7_msg (c : Dev nD) : V7 m (outs m) c main_v17_0 = (edgeDat (edgeEntry m) c).arrAt 15 cfg0.N := by
  show Function.update (Function.update (V6 m c) main_v17_0 (outs m 7 main_v17_0 c)) main_v17_1 (outs m 7 main_v17_1 c) main_v17_0 = _
  rw [Function.update_of_ne (by decide), Function.update_self, outs_7]
  exact Pipeline.withArrays_arr spec0 launch0.win.arr_inj c _ _ 15
theorem V7_wd (c : Dev nD) : V7 m (outs m) c main_v17_1 = (edgeDat (edgeEntry m) c).arrAt 16 cfg0.N := by
  show Function.update (Function.update (V6 m c) main_v17_0 (outs m 7 main_v17_0 c)) main_v17_1 (outs m 7 main_v17_1 c) main_v17_1 = _
  rw [Function.update_self, outs_7]
  exact Pipeline.withArrays_arr spec0 launch0.win.arr_inj c _ _ 16
/-- The node region's output array after it. -/
theorem V11_out (c : Dev nD) : V11 m (outs m) c main_v37 = (nodeDat (nodeEntry m) c).arrAt 7 cfg1.N := by
  show Function.update (V10 m (outs m) c) main_v37 (outs m 11 main_v37 c) main_v37 = _
  rw [Function.update_self, outs_11]
  exact Pipeline.withArrays_arr spec1 launch1.win.arr_inj c _ _ 7

/-! ## What each region leaves, against the valuation after it -/

/-- After the edge region each of its arrays holds what the pipeline leaves: an input array is not written (it is as
    entered, and the valuation after the region keeps it), an output array is the valuation's new entry. -/
theorem edge_arr_in (c : Dev nD) (w : Fin cfg0.W) (hin : (cfg0.win w).isOut = false)
    (hne : Pipeline.arrRef spec0 w ∉ ([main_v17_0, main_v17_1] : List (Ref sig .tc))) :
    (edgeDat (edgeEntry m) c).arrAt w cfg0.N = V7 m (outs m) c (Pipeline.arrRef spec0 w) :=
  ((edgeDat (edgeEntry m) c).arrAt_in w hin _).trans ((edgeDat_A (edgeEntry m) c w).trans (V7_of m (outs m) c _ hne).symm)

/-- A window of the edge region whose array is neither output array is an input window. -/
theorem edge_in_of : ∀ w : Fin cfg0.W, Pipeline.arrRef spec0 w ≠ main_v17_0 → Pipeline.arrRef spec0 w ≠ main_v17_1 →
    (cfg0.win w).isOut = false := by decide

theorem edge_arrs (c : Dev nD) (w : Fin cfg0.W) :
    (edgeDat (edgeEntry m) c).arrAt w cfg0.N = V7 m (outs m) c (Pipeline.arrRef spec0 w) := by
  by_cases h1 : Pipeline.arrRef spec0 w = main_v17_1
  · have hw : w = 16 := launch0.win.arr_inj (h1.trans (show main_v17_1 = Pipeline.arrRef spec0 16 from rfl))
    subst hw; exact (V7_wd m c).symm
  by_cases h0 : Pipeline.arrRef spec0 w = main_v17_0
  · have hw : w = 15 := launch0.win.arr_inj (h0.trans (show main_v17_0 = Pipeline.arrRef spec0 15 from rfl))
    subst hw; exact (V7_msg m c).symm
  · refine edge_arr_in m c w (edge_in_of w h0 h1) fun h => ?_
    rcases List.mem_cons.1 h with h | h
    · exact h0 h
    · exact h1 (List.mem_singleton.1 h)

/-- Every buffer that is no array of the edge region is after it as before it. -/
theorem edge_rest (c : Dev nD) : ∀ b : Ref sig .tc, b ∉ Finset.univ.image (Pipeline.arrRef spec0) →
    V7 m (outs m) c b = V6 m c b := fun b hb =>
  V7_of m (outs m) c b fun h => by
    simp only [List.mem_cons, List.mem_singleton, List.not_mem_nil, or_false] at h
    rcases h with rfl | rfl
    · exact hb (Finset.mem_image.mpr ⟨15, Finset.mem_univ _, rfl⟩)
    · exact hb (Finset.mem_image.mpr ⟨16, Finset.mem_univ _, rfl⟩)

/-- The same for the node region, whose one output array is the program's first result. -/
theorem node_arr_in (c : Dev nD) (w : Fin cfg1.W) (hin : (cfg1.win w).isOut = false)
    (hne : Pipeline.arrRef spec1 w ∉ ([main_v37] : List (Ref sig .tc))) :
    (nodeDat (nodeEntry m) c).arrAt w cfg1.N = V11 m (outs m) c (Pipeline.arrRef spec1 w) :=
  ((nodeDat (nodeEntry m) c).arrAt_in w hin _).trans ((nodeDat_A (nodeEntry m) c w).trans (V11_of m (outs m) c _ hne).symm)

/-- A window of the node region whose array is not the result's is an input window. -/
theorem node_in_of : ∀ w : Fin cfg1.W, Pipeline.arrRef spec1 w ≠ main_v37 → (cfg1.win w).isOut = false := by decide

theorem node_arrs (c : Dev nD) (w : Fin cfg1.W) :
    (nodeDat (nodeEntry m) c).arrAt w cfg1.N = V11 m (outs m) c (Pipeline.arrRef spec1 w) := by
  by_cases h0 : Pipeline.arrRef spec1 w = main_v37
  · have hw : w = 7 := launch1.win.arr_inj (h0.trans (show main_v37 = Pipeline.arrRef spec1 7 from rfl))
    subst hw; exact (V11_out m c).symm
  · exact node_arr_in m c w (node_in_of w h0) fun h => h0 (List.mem_singleton.1 h)

theorem node_rest (c : Dev nD) : ∀ b : Ref sig .tc, b ∉ Finset.univ.image (Pipeline.arrRef spec1) →
    V11 m (outs m) c b = V10 m (outs m) c b := fun b hb =>
  V11_of m (outs m) c b fun h => by
    simp only [List.mem_singleton] at h
    subst h
    exact hb (Finset.mem_image.mpr ⟨7, Finset.mem_univ _, rfl⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => edgeDat (edgeEntry m) c
  | ⟨1, _⟩ => fun c => nodeDat (nodeEntry m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- At the launch a core's generator register and its dues, at nothing, are the rest state; its semaphores and launch
    credit are not needed again. -/
theorem launch_rest (ρ : Dev nD → PrngReg) (c : Dev nD) :
    (iprop(unscopedSems0 c ∗ owes (c : Thread nD τ) ((0 : Dev nD → CellTallies nD τ sig Unit) c) ∅
      ∗ Pipeline.launchCred (0 : Dev nD → CellTallies nD τ sig Unit) c ∗ prngReg c (ρ c) ∗ emp) : sProp 𝕄) ⊢ R c := by
  iintro ⟨-, HO, -, Hp, -⟩
  isplitl [Hp]; · iexists _; iexact Hp
  iexists ∅; iexact HO

/-! ## The regions as segments -/

set_option backward.isDefEq.respectTransparency.types false in
/-- The edge region over the thread state: entered from every unscoped buffer at the contents after the sixth host
    stretch, left at those contents with its two output arrays replaced. Its arrays are split out of the unscoped
    buffers and put back at the exit contents; the generator register goes into the region's invariant and comes
    out; nothing is owed; the kernel has no semaphore of its own. -/
def edgeSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (edge_body_obligation (edgeEntry m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (edgeEntry m c)
  hentry c := by
    rw [Pipeline.ownSems0_none]
    have hsplit := Pipeline.arrays_of_unscopedBufs (p := 0) (pcfgs (F := F)) adm (pdats m) launch0.win launch0.arr_whole c
      ((pdats m 0 c).share_full fun _ => rfl) (edgeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (edgeEntry m c) (fun b => V7 m (outs m) c b) ((pdats m 0 c).arrAt · cfg0.N) (edge_arrs m c) (edge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: entered from the contents after the ninth host stretch, left at those
    contents with the first result's array replaced. -/
def nodeSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (node_body_obligation (nodeEntry m) c).loose
  hwaits := Pipeline.hwaits_of_owed_zero _ _ _ _ L lv 1 fun _ _ => rfl
  pre c := iprop(StableHlo.held (c : Thread nD τ) (Pipeline.ucRefs τ sig) (V10 m (outsEdge m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec1 c (nodeEntry m c)
  hentry c := by
    rw [Pipeline.ownSems0_none]
    have hsplit := Pipeline.arrays_of_unscopedBufs (p := 1) (pcfgs (F := F)) adm (pdats m) launch1.win launch1.arr_whole c
      ((pdats m 1 c).share_full fun _ => rfl) (nodeEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (nodeEntry m c) (fun b => V11 m (outs m) c b) ((pdats m 1 c).arrAt · cfg1.N) (node_arrs m c) (node_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Every weakly fair execution of @main from memory `m` with zero counters terminates, nothing faulting, and every
    final memory holds every unscoped buffer of every core at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V11 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp))
          ⊢ (bigSep Finset.univ (fun c : Dev nD => R c) : sProp 𝕄) := bigSep_mono fun c _ => launch_rest ρ c
      iintro ⟨H, -⟩
      imodintro
      iapply hmono
      iexact H)
    (fun c => by iintro ⟨-, HO⟩; iexact HO)
    (edgeSeg m) (fun _ => .rfl) (fun _ => .rfl)
    (nodeSeg m) (fun c => by rw [V10_outs m c]; exact .rfl) (fun _ => .rfl)

/-- The frame: no item of @main writes an argument, so each of the seventeen ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    have hm : ∀ a : Ref sig .tc, ¬ (Proc.devRef .tc a : DevRef τ sig).isScoped →
        (Proc.devRef .tc a : DevRef τ sig) ∈ Pipeline.ucRefs τ sig :=
      fun a ha => Finset.mem_filter.mpr ⟨StableHlo.devRef_mem_tcRefs a, ha⟩
    ⟨(h c _ (hm main_arg0 (by decide))).trans (V11_main_arg0 m (outs m) c),
     (h c _ (hm main_arg1 (by decide))).trans (V11_main_arg1 m (outs m) c),
     (h c _ (hm main_arg2 (by decide))).trans (V11_main_arg2 m (outs m) c),
     (h c _ (hm main_arg3 (by decide))).trans (V11_main_arg3 m (outs m) c),
     (h c _ (hm main_arg4 (by decide))).trans (V11_main_arg4 m (outs m) c),
     (h c _ (hm main_arg5 (by decide))).trans (V11_main_arg5 m (outs m) c),
     (h c _ (hm main_arg6 (by decide))).trans (V11_main_arg6 m (outs m) c),
     (h c _ (hm main_arg7 (by decide))).trans (V11_main_arg7 m (outs m) c),
     (h c _ (hm main_arg8 (by decide))).trans (V11_main_arg8 m (outs m) c),
     (h c _ (hm main_arg9 (by decide))).trans (V11_main_arg9 m (outs m) c),
     (h c _ (hm main_arg10 (by decide))).trans (V11_main_arg10 m (outs m) c),
     (h c _ (hm main_arg11 (by decide))).trans (V11_main_arg11 m (outs m) c),
     (h c _ (hm main_arg12 (by decide))).trans (V11_main_arg12 m (outs m) c),
     (h c _ (hm main_arg13 (by decide))).trans (V11_main_arg13 m (outs m) c),
     (h c _ (hm main_arg14 (by decide))).trans (V11_main_arg14 m (outs m) c),
     (h c _ (hm main_arg15 (by decide))).trans (V11_main_arg15 m (outs m) c),
     (h c _ (hm main_arg16 (by decide))).trans (V11_main_arg16 m (outs m) c)⟩)
    (run_all m ρ)

/-- The run with its results: the two result arrays end at the last valuation, the arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v37) = V11 m (outs m) c main_v37
      ∧ r.2.mem ((c.tc : Thread nD τ).loc main_v32) = V11 m (outs m) c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    have hm : ∀ a : Ref sig .tc, ¬ (Proc.devRef .tc a : DevRef τ sig).isScoped →
        (Proc.devRef .tc a : DevRef τ sig) ∈ Pipeline.ucRefs τ sig :=
      fun a ha => Finset.mem_filter.mpr ⟨StableHlo.devRef_mem_tcRefs a, ha⟩
    ⟨h c _ (hm main_v37 (by decide)), h c _ (hm main_v32 (by decide)),
     (h c _ (hm main_arg0 (by decide))).trans (V11_main_arg0 m (outs m) c),
     (h c _ (hm main_arg1 (by decide))).trans (V11_main_arg1 m (outs m) c),
     (h c _ (hm main_arg2 (by decide))).trans (V11_main_arg2 m (outs m) c),
     (h c _ (hm main_arg3 (by decide))).trans (V11_main_arg3 m (outs m) c),
     (h c _ (hm main_arg4 (by decide))).trans (V11_main_arg4 m (outs m) c),
     (h c _ (hm main_arg5 (by decide))).trans (V11_main_arg5 m (outs m) c),
     (h c _ (hm main_arg6 (by decide))).trans (V11_main_arg6 m (outs m) c),
     (h c _ (hm main_arg7 (by decide))).trans (V11_main_arg7 m (outs m) c),
     (h c _ (hm main_arg8 (by decide))).trans (V11_main_arg8 m (outs m) c),
     (h c _ (hm main_arg9 (by decide))).trans (V11_main_arg9 m (outs m) c),
     (h c _ (hm main_arg10 (by decide))).trans (V11_main_arg10 m (outs m) c),
     (h c _ (hm main_arg11 (by decide))).trans (V11_main_arg11 m (outs m) c),
     (h c _ (hm main_arg12 (by decide))).trans (V11_main_arg12 m (outs m) c),
     (h c _ (hm main_arg13 (by decide))).trans (V11_main_arg13 m (outs m) c),
     (h c _ (hm main_arg14 (by decide))).trans (V11_main_arg14 m (outs m) c),
     (h c _ (hm main_arg15 (by decide))).trans (V11_main_arg15 m (outs m) c),
     (h c _ (hm main_arg16 (by decide))).trans (V11_main_arg16 m (outs m) c)⟩)
    (run_all m ρ)

end Cert.KernelIdeal.Hand

end
-- ==== Proof.RefFrame.lean ====
/-
  The reference's frame: the reference is a host program with no kernel launch, so its run to the end, with every
  argument array left as it was, is its generated run with the results dropped.
-/
import proofs.«430614_j61916248539245_1_alg».proof.Defs
import proofs.«430614_j61916248539245_1_alg».proof.Proof.Gen.ReferenceIdeal.Run
import proofs.«430614_j61916248539245_1_alg».proof.Proof.Gen.ReferenceIdeal.Read
import proofs.«430614_j61916248539245_1_alg».proof.Proof.Gen.ReferenceIdeal
import proofs.«430614_j61916248539245_1_alg».proof.Proof.Gen.Pre_finite_inputs

noncomputable section

namespace Cert.Proof.RefFrame

open Idealize.ShloMosaic Idealize.SL.Sem

/-- Every weakly fair execution of the reference ends, faults nowhere, and leaves its seventeen arguments unchanged. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.Spec.lean ====
/-
  The mathematics of one equivariant message-passing layer, row by row, as plain functions on the extended reals.
  An edge joins a source node to a target node. Its message is a two-layer perceptron (SiLU after each layer) of the
  two nodes' feature rows, the squared distance of their coordinates and the edge's attribute, gated by a sigmoid of
  a linear read-out; its coordinate update is the coordinate difference scaled by a second perceptron of the gated
  message. A node's new features are its old ones plus a perceptron of the old features beside the sum of the
  messages of its outgoing edges.

  The first layer of each perceptron is written twice: as ONE product with the stacked weight matrix over the
  concatenated input (the reference's arrangement), and as a sum of products with the matrix's row blocks (the
  kernel's). The two agree because a finite sum over a disjoint union is the sum of the sums over the parts, which on
  the extended reals needs only that addition is commutative and associative.
-/
import Mathlib.Data.EReal.Basic
import Mathlib.Algebra.BigOperators.Fin
import Idealize.ShloMosaic.PureOps.Ideal

noncomputable section

namespace Cert.Spec

open Idealize.ShloMosaic

/-- x · σ(x) on the extended reals. -/
def silu (z : EReal) : EReal := z * Ideal.logistic z

/-! ## One edge, from the first layer's pre-activation row on: shared by both arrangements -/

section Edge
variable (p1 : Fin 128 → EReal) (cd : Fin 3 → EReal)
  (w2 : Fin 128 → Fin 128 → EReal) (b2 : Fin 128 → EReal) (aw : Fin 128 → EReal) (ab : EReal)
  (cw1 : Fin 128 → Fin 128 → EReal) (cb1 : Fin 128 → EReal) (cw2 : Fin 128 → EReal)

/-- The second layer's pre-activation. -/
def pre2 (j : Fin 128) : EReal := (∑ k : Fin 128, silu (p1 k) * w2 k j) + b2 j
/-- The ungated message. -/
def msg (j : Fin 128) : EReal := silu (pre2 p1 w2 b2 j)
/-- The gate. -/
def gate : EReal := Ideal.logistic ((∑ k : Fin 128, msg p1 w2 b2 k * aw k) + ab)
/-- The gated message, feature j. -/
def mij (j : Fin 128) : EReal := msg p1 w2 b2 j * gate p1 w2 b2 aw ab
/-- The coordinate perceptron's scalar. -/
def cupd : EReal :=
  ∑ k : Fin 128, silu ((∑ l : Fin 128, mij p1 w2 b2 aw ab l * cw1 l k) + cb1 k) * cw2 k
/-- The weighted coordinate difference, axis d. -/
def wd (d : Fin 3) : EReal := cd d * cupd p1 w2 b2 aw ab cw1 cb1 cw2
end Edge

/-- The squared length of a coordinate difference. -/
def radial (cd : Fin 3 → EReal) : EReal := ∑ d : Fin 3, cd d * cd d

/-! ## The first layer, the kernel's arrangement: over the two gathered rows and the 7-column geometry row -/

section EdgeK
variable (hs ht : Fin 128 → EReal) (g : Fin 7 → EReal)
  (w1s w1t : Fin 128 → Fin 128 → EReal) (wrad wea b1 : Fin 128 → EReal)

/-- Coordinate difference off the geometry row: columns 0–2 are the source's coordinates, 3–5 the target's. -/
def cdiffK (d : Fin 3) : EReal := g ⟨d.val, by omega⟩ - g ⟨d.val + 3, by omega⟩
/-- The first pre-activation as four products and the bias (column 6 of the geometry row is the edge attribute). -/
def pre1K (j : Fin 128) : EReal :=
  ((((∑ k : Fin 128, hs k * w1s k j) + (∑ k : Fin 128, ht k * w1t k j)) + radial (cdiffK g) * wrad j)
    + g ⟨6, by omega⟩ * wea j) + b1 j
end EdgeK

/-! ## The first layer, the reference's arrangement: one product over the 258 concatenated columns -/

section EdgeR
variable (hs ht : Fin 128 → EReal) (rad ea : EReal) (w1 : Fin 258 → Fin 128 → EReal) (b1 : Fin 128 → EReal)

/-- The concatenated edge input: source features, target features, squared distance, attribute. -/
def cat (k : Fin 258) : EReal :=
  if h0 : k.val < 128 then hs ⟨k.val, h0⟩
  else if h1 : k.val < 256 then ht ⟨k.val - 128, by omega⟩
  else if k.val = 256 then rad else ea
def pre1R (j : Fin 128) : EReal := (∑ k : Fin 258, cat hs ht rad ea k * w1 k j) + b1 j
end EdgeR

/-! ## One node's update -/

section Node
variable (hn aggn : Fin 128 → EReal)

/-- New features from the first layer's pre-activation row: the residual plus the second layer. -/
def hout (npre : Fin 128 → EReal) (nw2 : Fin 128 → Fin 128 → EReal) (nb2 : Fin 128 → EReal) (j : Fin 128) : EReal :=
  hn j + ((∑ k : Fin 128, silu (npre k) * nw2 k j) + nb2 j)
/-- The kernel's arrangement: two products with the two row blocks of the first weight matrix. -/
def npreK (w1h w1a : Fin 128 → Fin 128 → EReal) (nb1 : Fin 128 → EReal) (j : Fin 128) : EReal :=
  ((∑ k : Fin 128, hn k * w1h k j) + (∑ k : Fin 128, aggn k * w1a k j)) + nb1 j
/-- The reference's: one product over the 256 concatenated columns. -/
def cat2 (k : Fin 256) : EReal :=
  if h0 : k.val < 128 then hn ⟨k.val, h0⟩ else aggn ⟨k.val - 128, by omega⟩
def npreR (nw1 : Fin 256 → Fin 128 → EReal) (nb1 : Fin 128 → EReal) (j : Fin 128) : EReal :=
  (∑ k : Fin 256, cat2 hn aggn k * nw1 k j) + nb1 j
end Node

/-! ## The two arrangements agree -/

/-- A sum over 256 indices is the sum over the first 128 plus the sum over the last 128. -/
theorem sum_256 (f : Fin 256 → EReal) :
    ∑ k : Fin 256, f k = (∑ k : Fin 128, f ⟨k.val, by omega⟩) + (∑ k : Fin 128, f ⟨k.val + 128, by omega⟩) := by
  refine (Fin.sum_univ_add (a := 128) (b := 128) f).trans ?_
  refine congrArg₂ (· + ·) (Finset.sum_congr rfl fun k _ => congrArg f (Fin.ext ?_))
    (Finset.sum_congr rfl fun k _ => congrArg f (Fin.ext ?_))
  · rfl
  · show 128 + k.val = k.val + 128
    omega

/-- A sum over 258 indices: two blocks of 128, then the last two terms. -/
theorem sum_258 (f : Fin 258 → EReal) :
    ∑ k : Fin 258, f k = (((∑ k : Fin 128, f ⟨k.val, by omega⟩) + (∑ k : Fin 128, f ⟨k.val + 128, by omega⟩))
      + f ⟨256, by omega⟩) + f ⟨257, by omega⟩ := by
  refine (Fin.sum_univ_castSucc (n := 257) f).trans ?_
  refine congrArg₂ (· + ·) ?_ rfl
  refine (Fin.sum_univ_castSucc (n := 256) fun k => f k.castSucc).trans ?_
  refine congrArg₂ (· + ·) ?_ rfl
  exact sum_256 fun k => f k.castSucc.castSucc

/-- Reading the concatenated node input in its two halves. -/
theorem cat2_lo (hn aggn : Fin 128 → EReal) (k : Fin 128) : cat2 hn aggn ⟨k.val, by omega⟩ = hn k := by
  unfold cat2; rw [dif_pos k.isLt]
theorem cat2_hi (hn aggn : Fin 128 → EReal) (k : Fin 128) : cat2 hn aggn ⟨k.val + 128, by omega⟩ = aggn k := by
  unfold cat2; rw [dif_neg (by show ¬ k.val + 128 < 128; omega)]
  exact congrArg aggn (Fin.ext (by show k.val + 128 - 128 = k.val; omega))

/-- The node update's first layer: block products against the stacked product. -/
theorem npreK_eq_npreR (hn aggn : Fin 128 → EReal) (nw1 : Fin 256 → Fin 128 → EReal) (nb1 : Fin 128 → EReal) :
    npreK hn aggn (fun k j => nw1 ⟨k.val, by omega⟩ j) (fun k j => nw1 ⟨k.val + 128, by omega⟩ j) nb1 = npreR hn aggn nw1 nb1 := by
  funext j
  unfold npreK npreR
  rw [sum_256]
  refine congrArg (· + nb1 j) (congrArg₂ (· + ·) (Finset.sum_congr rfl fun k _ => ?_) (Finset.sum_congr rfl fun k _ => ?_))
  · rw [cat2_lo]
  · rw [cat2_hi]

section CatR
variable (hs ht : Fin 128 → EReal) (rad ea : EReal)

/-- Reading the concatenated edge input piece by piece. -/
theorem cat_src (k : Fin 128) : cat hs ht rad ea ⟨k.val, by omega⟩ = hs k := by
  unfold cat; rw [dif_pos k.isLt]
theorem cat_tgt (k : Fin 128) : cat hs ht rad ea ⟨k.val + 128, by omega⟩ = ht k := by
  unfold cat; rw [dif_neg (by show ¬ k.val + 128 < 128; omega), dif_pos (by show k.val + 128 < 256; omega)]
  exact congrArg ht (Fin.ext (by show k.val + 128 - 128 = k.val; omega))
theorem cat_rad : cat hs ht rad ea ⟨256, by omega⟩ = rad := by
  unfold cat; rw [dif_neg (by show ¬ (256 : ℕ) < 128; omega), dif_neg (by show ¬ (256 : ℕ) < 256; omega), if_pos rfl]
theorem cat_attr : cat hs ht rad ea ⟨257, by omega⟩ = ea := by
  unfold cat; rw [dif_neg (by show ¬ (257 : ℕ) < 128; omega), dif_neg (by show ¬ (257 : ℕ) < 256; omega),
    if_neg (by show ¬ (257 : ℕ) = 256; omega)]
end CatR

/-- The edge perceptron's first layer: the kernel's four products against the reference's one, when the geometry
    row holds the two nodes' coordinates and the attribute, and the kernel's weights are the row blocks of the
    stacked matrix. -/
theorem pre1K_eq_pre1R (hs ht : Fin 128 → EReal) (xs xt : Fin 3 → EReal) (ea : EReal)
    (w1 : Fin 258 → Fin 128 → EReal) (b1 : Fin 128 → EReal) (g : Fin 7 → EReal)
    (hg0 : ∀ d : Fin 3, g ⟨d.val, by omega⟩ = xs d) (hg1 : ∀ d : Fin 3, g ⟨d.val + 3, by omega⟩ = xt d)
    (hg2 : g ⟨6, by omega⟩ = ea) :
    pre1K hs ht g (fun k j => w1 ⟨k.val, by omega⟩ j) (fun k j => w1 ⟨k.val + 128, by omega⟩ j)
      (fun j => w1 ⟨256, by omega⟩ j) (fun j => w1 ⟨257, by omega⟩ j) b1
    = pre1R hs ht (radial fun d => xs d - xt d) ea w1 b1 := by
  funext j
  have hcd : cdiffK g = fun d => xs d - xt d := by
    funext d; unfold cdiffK; rw [hg0, hg1]
  unfold pre1K pre1R
  rw [sum_258, hcd, hg2, cat_rad, cat_attr]
  refine congrArg (· + b1 j) (congrArg (· + ea * w1 ⟨257, by omega⟩ j) (congrArg (· + radial (fun d => xs d - xt d) * w1 ⟨256, by omega⟩ j)
    (congrArg₂ (· + ·) (Finset.sum_congr rfl fun k _ => ?_) (Finset.sum_congr rfl fun k _ => ?_))))
  · rw [cat_src]
  · rw [cat_tgt]

/-- The coordinate difference off a geometry row that holds the two nodes' coordinates. -/
theorem cdiffK_eq (xs xt : Fin 3 → EReal) (g : Fin 7 → EReal)
    (hg0 : ∀ d : Fin 3, g ⟨d.val, by omega⟩ = xs d) (hg1 : ∀ d : Fin 3, g ⟨d.val + 3, by omega⟩ = xt d) :
    cdiffK g = fun d => xs d - xt d := by
  funext d; unfold cdiffK; rw [hg0, hg1]

end Cert.Spec

end
-- ==== Proof.LibIndexWrap.lean ====
/-
  GENERAL LEMMA. INDEX WORDS: numpy's wrap of a negative index, and the arrays that carry index words to a gather or a
  scatter, read at a position.

  An index into an axis of extent N is read the numpy way: a negative index counts from the end, so the word v becomes
  v + N where v < 0 (signed) and stays v otherwise. jnp prints this as a select over a signed compare with 0 and an add
  of the extent, elementwise (wrapped_apply). For a word whose signed value lies in [-N, N) the wrapped word's signed
  value lies in [0, N): a position on the axis (wrapWord_range; N below 2^31).

  The wrapped words then travel as a column [n, 1] (a gather's or a scatter's start indices: column_apply) or, two
  columns side by side, as the [n, 2] array of index pairs of a pair scatter (pair_fst, pair_snd). A vector laid along
  the second axis of a [B, n] rectangle through a [1, n] row (v[None, :] against a [B, n] array) reads, at (p, e), the
  vector at e (row_bcast_apply).

  Last, a set bit of a signed compare against a constant, decoded to the signed values (sge_decode, slt_decode): what an
  index-range conjunct of a precondition gives at one entry.
-/
import Idealize.ShloMosaic.PureOps.Ideal
import Idealize.ShloMosaic.Lib.ValueIdx
import Idealize.ShloMosaic.Lib.Pipeline.Value
import Idealize.ShloMosaic.Lib.StableHlo.Predicate

noncomputable section

namespace Idealize.ShloMosaic.IndexWrap

open Idealize.ShloMosaic Idealize.ShloMosaic.ValueIdx

/-- An index word into an axis whose extent is the word N, negative indices counted from the end. -/
def wrapWord (N v : BitVec 32) : BitVec 32 := if v.slt 0#32 then v + N else v

/-- A word inside numpy's index range [-N, N) wraps to a position in [0, N). -/
theorem wrapWord_range (N v : BitVec 32) (hN : N.toNat < 2 ^ 31)
    (h : -(N.toNat : ℤ) ≤ v.toInt ∧ v.toInt < (N.toNat : ℤ)) :
    0 ≤ (wrapWord N v).toInt ∧ (wrapWord N v).toInt < (N.toNat : ℤ) := by
  unfold wrapWord
  by_cases hn : v.slt 0#32
  · rw [if_pos hn]
    have hneg : v.toInt < 0 := by simpa [BitVec.slt] using hn
    have e1 := BitVec.toInt_eq_toNat_cond v
    have e2 := BitVec.toInt_eq_toNat_cond (v + N)
    have e3 : (v + N).toNat = (v.toNat + N.toNat) % 2 ^ 32 := by simp [BitVec.toNat_add]
    have hv := v.isLt
    split_ifs at e1 e2 <;> omega
  · rw [if_neg hn]
    have hneg : ¬ v.toInt < 0 := by simpa [BitVec.slt] using hn
    omega

/-- The printed wrap, read at a position: the select of the add of the extent where the word is below 0. -/
theorem wrapped_apply {S : Shape} (h : (⟨0, ![]⟩ : Shape).BroadcastsInDim S ![]) (N : BitVec 32) (v : IVec S 32)
    (i : S.Idx) :
    select (cmpi .slt v (broadcastInDim S ![] h (constantI ⟨0, ![]⟩ 32 0#32)))
      (addi v (broadcastInDim S ![] h (constantI ⟨0, ![]⟩ 32 N))) v i = wrapWord N (v i) := by
  show Scalar.select (IntOp.cmpi .slt (v i) 0#32) (IntOp.addi (v i) N) (v i) = _
  unfold Scalar.select IntOp.cmpi IntOp.addi wrapWord
  cases hs : (v i).slt 0#32 <;> simp

/-- A vector kept as an [n, 1] column reads, at row e, the vector at e. -/
theorem column_apply {α : Type} {n : Nat} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) := by
  refine broadcastInDim_apply _ hb v _ (ix1 e) fun a => ?_
  match a with
  | ⟨0, _⟩ =>
    show e.val = if n = 1 then 0 else e.val
    have := e.isLt
    split_ifs <;> omega

/-- A vector laid along the second axis of a [B, n] rectangle (through a [1, n] row) reads, at (p, e), the vector at e. -/
theorem row_bcast_apply {α : Type} {B n : Nat} (h₁ : (⟨1, ![n]⟩ : Shape).BroadcastsInDim ⟨2, ![1, n]⟩ ![1])
    (h₂ : (⟨2, ![1, n]⟩ : Shape).BroadcastsInDim ⟨2, ![B, n]⟩ ![0, 1]) (v : (⟨1, ![n]⟩ : Shape).Idx → α)
    (p : Fin B) (e : Fin n) :
    broadcastInDim ⟨2, ![B, n]⟩ ![0, 1] h₂ (broadcastInDim ⟨2, ![1, n]⟩ ![1] h₁ v) (ix2 p e) = v (ix1 e) := by
  refine (broadcastInDim_apply _ h₂ _ _ (ix2 (0 : Fin 1) e) fun a => ?_).trans
    (broadcastInDim_apply _ h₁ v _ (ix1 e) fun a => ?_)
  · match a with
    | ⟨0, _⟩ => rfl
    | ⟨1, _⟩ =>
      show e.val = if n = 1 then 0 else e.val
      have := e.isLt
      split_ifs <;> omega
  · match a with
    | ⟨0, _⟩ =>
      show e.val = if n = 1 then 0 else e.val
      have := e.isLt
      split_ifs <;> omega

/-- Two [n, 1] columns side by side: position (e, 0) of the [n, 2] array is the first column's row e. -/
theorem pair_fst {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (0 : Fin 2)) = x₁ (ix2 e (0 : Fin 1)) := by
  refine concatenate_pair_apply_left 1 x₁ x₂ h _ rfl _ fun b => ?_
  match b with
  | ⟨0, _⟩ => rfl
  | ⟨1, _⟩ => rfl

/-- Position (e, 1) of the [n, 2] array is the second column's row e. -/
theorem pair_snd {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (1 : Fin 2)) = x₂ (ix2 e (0 : Fin 1)) := by
  refine concatenate_pair_apply_right 1 x₁ x₂ h _ rfl rfl _ (fun b hb => ?_) rfl
  match b with
  | ⟨0, _⟩ => rfl
  | ⟨1, _⟩ => exact absurd rfl hb

/-- A set bit of the signed compare "v >= k". -/
theorem sge_decode (v k : BitVec 32) (h : IntOp.cmpi .sge v k = 1#1) : k.toInt ≤ v.toInt := by
  unfold IntOp.cmpi at h
  have h' := (StableHlo.Predicate.ofBool_eq_one_iff _).mp h
  simpa [BitVec.sle] using h'

/-- A set bit of the signed compare "v < k". -/
theorem slt_decode (v k : BitVec 32) (h : IntOp.cmpi .slt v k = 1#1) : v.toInt < k.toInt := by
  unfold IntOp.cmpi at h
  have h' := (StableHlo.Predicate.ofBool_eq_one_iff _).mp h
  simpa [BitVec.slt] using h'

end Idealize.ShloMosaic.IndexWrap

end
-- ==== Proof.Views.lean ====
/-
  Arrays of literal shapes read through explicit coordinates, and the node an index word names: the edge list holds
  32-bit words, a negative word counts from the end, and the gather clamps what it is given into the table.
-/
import proofs.«430614_j61916248539245_1_alg».proof.Proof.Spec
import proofs.«430614_j61916248539245_1_alg».proof.Proof.LibIndexWrap
import Idealize.ShloMosaic.Lib.ValueIdx

noncomputable section

namespace Cert.Views

open Idealize.ShloMosaic Idealize.ShloMosaic.ValueIdx

/-- A rank-2 array as a function of its row and column. -/
abbrev cur2 {α : Type} {a b : Nat} (x : (⟨2, ![a, b]⟩ : Shape).Idx → α) : Fin a → Fin b → α := fun p q => x (ix2 p q)
/-- A rank-1 array as a function of its position. -/
abbrev cur1 {α : Type} {a : Nat} (x : (⟨1, ![a]⟩ : Shape).Idx → α) : Fin a → α := fun p => x (ix1 p)
/-- A [1, b] array as a function of its column. -/
abbrev row0 {α : Type} {b : Nat} (x : (⟨2, ![1, b]⟩ : Shape).Idx → α) : Fin b → α := fun q => x (ix2 (0 : Fin 1) q)
/-- An [a, 1] array as a function of its row. -/
abbrev col0 {α : Type} {a : Nat} (x : (⟨2, ![a, 1]⟩ : Shape).Idx → α) : Fin a → α := fun p => x (ix2 p (0 : Fin 1))

/-- The node of the 50000-row tables an index word names: wrapped if negative, then clamped into the table. -/
def nodeOf (v : BitVec 32) : Fin 50000 :=
  ⟨min (IndexWrap.wrapWord 50000#32 v).toInt.toNat (50000 - 1), by omega⟩

/-- The source node of edge e (row 0 of the edge list) and its target node (row 1). -/
def srcOf (ei : (⟨2, ![2, 800000]⟩ : Shape).Idx → BitVec 32) (e : Fin 800000) : Fin 50000 := nodeOf (ei (ix2 (0 : Fin 2) e))
def tgtOf (ei : (⟨2, ![2, 800000]⟩ : Shape).Idx → BitVec 32) (e : Fin 800000) : Fin 50000 := nodeOf (ei (ix2 (1 : Fin 2) e))

/-- A word in numpy's index range [-50000, 50000) wraps to a position of the table. -/
theorem wrap_inrange (v : BitVec 32) (h : -50000 ≤ v.toInt ∧ v.toInt < 50000) :
    0 ≤ (IndexWrap.wrapWord 50000#32 v).toInt ∧ (IndexWrap.wrapWord 50000#32 v).toInt < 50000 := by
  have := IndexWrap.wrapWord_range 50000#32 v (by decide) (by simpa using h)
  simpa using this

end Cert.Views

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«430614_j61916248539245_1_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.KernelIdeal.Payloads.lean ====
/-
  The arithmetic of the edge kernel and of the node kernel, read at one index, over the extended reals.

  Every float is an extended real and every operation is exact: a narrowing of the format is the identity, a matrix
  product into the zero array is the plain sum of products over the contracted axis, the sum over the three
  coordinate columns is a three-term sum, and the logistic operation is the logistic function. Read at row p and
  column q, each value a kernel body computes is therefore one of the row functions of the specification, applied to
  row p of the row-wise operands and to the weight arrays read by their coordinates.
-/
import proofs.«430614_j61916248539245_1_alg».proof.Proof.Gen.KernelIdeal.Skeleton
import proofs.«430614_j61916248539245_1_alg».proof.Proof.Spec
import proofs.«430614_j61916248539245_1_alg».proof.Proof.Views
import proofs.«430614_j61916248539245_1_alg».proof.Proof.LibDotAt
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Views

/-! ## Layout operations on columns, read by coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the second axis of an `[a, 3]` array, read at row `p`: the three-term sum of that row. -/
theorem laneSum3_apply {a : ℕ} (src : FVec Ideal ⟨2, ![a, 3]⟩ .f32) (h : (⟨2, ![a, 3]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ d : Fin 3, src (ix2 p d) := by
  refine (Ideal.multiReduction_add_single src _ h hφ hacc (ix1 p)).trans ?_
  refine Finset.sum_congr rfl fun d _ => congrArg src (funext fun c => Fin.ext ?_)
  match c with
  | ⟨0, _⟩ => rfl
  | ⟨1, _⟩ => rfl

/-! ## The three matrix products -/

/-- An edge block's 1600×128 array times a 128×128 weight, at (p, q). -/
theorem mm_edge (l : FVec Ideal S1600x128 .bf16) (r : FVec Ideal S128x128 .bf16) (p : Fin 1600) (q : Fin 128) :
    matmul dot_S1600x128_S128x128_S1600x128_1_0_0_1_n_n none l r (constant (F := Ideal) S1600x128 .f32 0x00000000#32) (ix2 p q)
      = ∑ k : Fin 128, l (ix2 p k) * r (ix2 k q) :=
  DotAt.matmul_plain dot_S1600x128_S128x128_S1600x128_1_0_0_1_n_n rfl rfl rfl rfl rfl rfl rfl rfl none l r p q

/-- An edge block's 1600×128 array times a 128×1 weight column, at (p, 0). -/
theorem mm_edge_col (l : FVec Ideal S1600x128 .bf16) (r : FVec Ideal S128x1 .bf16) (p : Fin 1600) (u : Fin 1) :
    matmul dot_S1600x128_S128x1_S1600x1_1_0_0_1_n_n none l r (constant (F := Ideal) S1600x1 .f32 0x00000000#32) (ix2 p u)
      = ∑ k : Fin 128, l (ix2 p k) * r (ix2 k u) :=
  DotAt.matmul_plain dot_S1600x128_S128x1_S1600x1_1_0_0_1_n_n rfl rfl rfl rfl rfl rfl rfl rfl none l r p u

/-- A node block's 2000×128 array times a 128×128 weight, at (p, q). -/
theorem mm_node (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  DotAt.matmul_plain dot_S2000x128_S128x128_S2000x128_1_0_0_1_n_n rfl rfl rfl rfl rfl rfl rfl rfl none l r p q

/-! ## The edge kernel -/

/-- The geometry block is read as loaded: a cast to its own shape. -/
theorem pay1_eq (v4 : Vec Ideal S1600x7 .f32) : k0_pay1 (F := Ideal) v4 = v4 := by
  unfold k0_pay1
  exact shapeCast_self v4 _

/-- The coordinate difference of edge p, axis d. -/
theorem pay2_at (v4 : Vec Ideal S1600x7 .f32) (p : Fin 1600) (d : Fin 3) :
    k0_pay2 (F := Ideal) v4 (ix2 p d) = Spec.cdiffK (cur2 v4 p) d := by
  unfold k0_pay2
  rw [pay1_eq]
  exact congrArg₂ (· - ·)
    (slice2_axis1_apply 0 v4 _ p d ⟨d.val, by omega⟩ (Nat.zero_add _).symm)
    (slice2_axis1_apply 3 v4 _ p d ⟨d.val + 3, by omega⟩ (Nat.add_comm _ _))

/-- The squared length of edge p's coordinate difference: the lane sum of the squares, as a column entry. -/
theorem rad_at (v4 : Vec Ideal S1600x7 .f32) (p : Fin 1600) (u : Fin 1) :
    shapeCast S1600x1 (multiReduction .add [1] S1600 (mulf (k0_pay2 (F := Ideal) v4) (k0_pay2 (F := Ideal) v4))
        0x00000000#32 reduces_S1600x3_S1600 (.inl rfl) rfl) shapeCasts_S1600_S1600x1 (ix2 p u)
      = Spec.radial (Spec.cdiffK (cur2 v4 p)) := by
  refine (shapeCast_a_a1_apply _ _ p u).trans ?_
  refine (laneSum3_apply _ _ _ _ p).trans ?_
  unfold Spec.radial
  refine Finset.sum_congr rfl fun d _ => ?_
  show k0_pay2 (F := Ideal) v4 (ix2 p d) * k0_pay2 (F := Ideal) v4 (ix2 p d) = _
  rw [pay2_at]

/-- The first layer's pre-activation of edge p, feature q. -/
theorem pay3_at (v0 v2 : Vec Ideal S1600x128 .f32) (v4 : Vec Ideal S1600x7 .f32) (v15 v18 : Vec Ideal S128x128 .f32)
    (v24 v30 v36 : Vec Ideal S1x128 .f32) (p : Fin 1600) (q : Fin 128) :
    k0_pay3 (F := Ideal) v0 v2 v4 v15 v18 v24 v30 v36 (ix2 p q)
      = Spec.pre1K (cur2 v0 p) (cur2 v2 p) (cur2 v4 p) (cur2 v15) (cur2 v18) (row0 v24) (row0 v30) (row0 v36) q := by
  unfold k0_pay3 Spec.pre1K
  show ((((_ + _) + _ * _) + _ * _) + _ : EReal) = _
  refine congrArg₂ (· + ·) (congrArg₂ (· + ·) (congrArg₂ (· + ·) (congrArg₂ (· + ·) ?_ ?_) (congrArg₂ (· * ·) ?_ ?_))
    (congrArg₂ (· * ·) ?_ ?_)) ?_
  · refine (mm_edge _ _ p q).trans ?_
    rw [shapeCast_self, shapeCast_self]
    rfl
  · refine (mm_edge _ _ p q).trans ?_
    rw [shapeCast_self, shapeCast_self]
    rfl
  · refine (broadcastTo_a1_ab_apply _ _ p q).trans ?_
    exact rad_at v4 p 0
  · refine (broadcastTo_1b_ab_apply _ _ p q).trans ?_
    rw [shapeCast_self]
  · refine (broadcastTo_a1_ab_apply _ _ p q).trans ?_
    rw [pay1_eq]
    exact slice2_axis1_apply 6 v4 _ p (0 : Fin 1) ⟨6, by omega⟩ rfl
  · refine (broadcastTo_1b_ab_apply _ _ p q).trans ?_
    rw [shapeCast_self]
  · refine (broadcastTo_1b_ab_apply _ _ p q).trans ?_
    rw [shapeCast_self]

/-! ## Perceptron layers, as arrays and at an index -/

/-- x · σ(x), entry by entry. -/
def siluV {s : Shape} (x : FVec Ideal s .f32) : FVec Ideal s .f32 := mulf x (logistic x)

theorem siluV_apply {s : Shape} (x : FVec Ideal s .f32) (i : s.Idx) : siluV x i = Spec.silu (x i) := rfl

/-- A layer over an edge block: the block times a 128×128 weight, plus the bias row on every row. -/
def layerE (x : FVec Ideal S1600x128 .f32) (w : Vec Ideal S128x128 .f32) (b : Vec Ideal S1x128 .f32) :
    FVec Ideal S1600x128 .f32 :=
  addf (matmul dot_S1600x128_S128x128_S1600x128_1_0_0_1_n_n none (truncf .bf16 x bitsLt_bf16_f32)
      (truncf .bf16 w bitsLt_bf16_f32) (constant S1600x128 .f32 0x00000000#32))
    (broadcastTo S1600x128 (shapeCast S1x128 b shapeCasts_S1x128_S1x128) broadcasts_S1x128_S1600x128)

theorem layerE_at (x : FVec Ideal S1600x128 .f32) (w : Vec Ideal S128x128 .f32) (b : Vec Ideal S1x128 .f32)
    (p : Fin 1600) (q : Fin 128) :
    layerE x w b (ix2 p q) = (∑ k : Fin 128, x (ix2 p k) * w (ix2 k q)) + b (ix2 (0 : Fin 1) q) := by
  unfold layerE
  show (_ + _ : EReal) = _
  refine congrArg₂ (· + ·) ((mm_edge _ _ p q).trans rfl) ?_
  refine (broadcastTo_1b_ab_apply _ _ p q).trans ?_
  rw [shapeCast_self]

/-- A read-out over an edge block: the block times a 128×1 weight column. -/
def colE (x : FVec Ideal S1600x128 .f32) (w : Vec Ideal S128x1 .f32) : FVec Ideal S1600x1 .f32 :=
  matmul dot_S1600x128_S128x1_S1600x1_1_0_0_1_n_n none (truncf .bf16 x bitsLt_bf16_f32)
    (truncf .bf16 w bitsLt_bf16_f32) (constant S1600x1 .f32 0x00000000#32)

theorem colE_at (x : FVec Ideal S1600x128 .f32) (w : Vec Ideal S128x1 .f32) (p : Fin 1600) :
    colE x w (ix2 p (0 : Fin 1)) = ∑ k : Fin 128, x (ix2 p k) * w (ix2 k (0 : Fin 1)) :=
  (mm_edge_col _ _ p 0).trans rfl

/-- The ungated messages of an edge block. -/
def msgV (v39 : FVec Ideal S1600x128 .f32) (v43 : Vec Ideal S128x128 .f32) (v46 : Vec Ideal S1x128 .f32) :
    FVec Ideal S1600x128 .f32 :=
  siluV (layerE (siluV v39) v43 v46)

theorem msgV_at (v39 : FVec Ideal S1600x128 .f32) (v43 : Vec Ideal S128x128 .f32) (v46 : Vec Ideal S1x128 .f32)
    (p : Fin 1600) (q : Fin 128) :
    msgV v39 v43 v46 (ix2 p q) = Spec.msg (cur2 v39 p) (cur2 v43) (row0 v46) q := by
  unfold msgV Spec.msg Spec.pre2
  rw [siluV_apply, layerE_at]
  rfl

/-- The gates of an edge block, one per edge. -/
def gateV (v39 : FVec Ideal S1600x128 .f32) (v43 : Vec Ideal S128x128 .f32) (v46 : Vec Ideal S1x128 .f32)
    (v53 : Vec Ideal S128x1 .f32) (v56 : Vec Ideal S1x1 .f32) : FVec Ideal S1600x1 .f32 :=
  logistic (addf (colE (msgV v39 v43 v46) v53)
    (broadcastTo S1600x1 (shapeCast S1x1 v56 shapeCasts_S1x1_S1x1) broadcasts_S1x1_S1600x1))

theorem gateV_at (v39 : FVec Ideal S1600x128 .f32) (v43 : Vec Ideal S128x128 .f32) (v46 : Vec Ideal S1x128 .f32)
    (v53 : Vec Ideal S128x1 .f32) (v56 : Vec Ideal S1x1 .f32) (p : Fin 1600) :
    gateV v39 v43 v46 v53 v56 (ix2 p (0 : Fin 1))
      = Spec.gate (cur2 v39 p) (cur2 v43) (row0 v46) (col0 v53) (v56 (ix2 (0 : Fin 1) (0 : Fin 1))) := by
  unfold gateV Spec.gate
  show Ideal.logistic (_ + _ : EReal) = _
  refine congrArg Ideal.logistic (congrArg₂ (· + ·) ?_ ?_)
  · refine (colE_at _ _ p).trans ?_
    exact Finset.sum_congr rfl fun k _ => congrArg (· * v53 (ix2 k (0 : Fin 1))) (msgV_at v39 v43 v46 p k)
  · refine (broadcastTo_1b_ab_apply _ _ p (0 : Fin 1)).trans ?_
    rw [shapeCast_self]

/-- The gated messages are the messages times the gate column spread over the features. -/
theorem pay4_eq (v39 : FVec Ideal S1600x128 .f32) (v43 : Vec Ideal S128x128 .f32) (v46 : Vec Ideal S1x128 .f32)
    (v53 : Vec Ideal S128x1 .f32) (v56 : Vec Ideal S1x1 .f32) :
    k0_pay4 (F := Ideal) v39 v43 v46 v53 v56
      = mulf (msgV v39 v43 v46) (broadcastTo S1600x128 (gateV v39 v43 v46 v53 v56) broadcasts_S1600x1_S1600x128) := rfl

/-- The gated message of edge p, feature q. -/
theorem pay4_at (v39 : FVec Ideal S1600x128 .f32) (v43 : Vec Ideal S128x128 .f32) (v46 : Vec Ideal S1x128 .f32)
    (v53 : Vec Ideal S128x1 .f32) (v56 : Vec Ideal S1x1 .f32) (p : Fin 1600) (q : Fin 128) :
    k0_pay4 (F := Ideal) v39 v43 v46 v53 v56 (ix2 p q)
      = Spec.mij (cur2 v39 p) (cur2 v43) (row0 v46) (col0 v53) (v56 (ix2 (0 : Fin 1) (0 : Fin 1))) q := by
  rw [pay4_eq]
  unfold Spec.mij
  exact congrArg₂ (· * ·) (msgV_at v39 v43 v46 p q)
    ((broadcastTo_a1_ab_apply _ _ p q).trans (gateV_at v39 v43 v46 v53 v56 p))

/-- The weighted coordinate differences are the differences times the coordinate perceptron's column. -/
theorem pay5_eq (v9 : FVec Ideal S1600x3 .f32) (v39 : FVec Ideal S1600x128 .f32) (v43 : Vec Ideal S128x128 .f32)
    (v46 : Vec Ideal S1x128 .f32) (v53 : Vec Ideal S128x1 .f32) (v56 : Vec Ideal S1x1 .f32)
    (v64 : Vec Ideal S128x128 .f32) (v67 : Vec Ideal S1x128 .f32) (v74 : Vec Ideal S128x1 .f32) :
    k0_pay5 (F := Ideal) v9 v39 v43 v46 v53 v56 v64 v67 v74
      = mulf v9 (broadcastTo S1600x3
          (colE (siluV (layerE (k0_pay4 (F := Ideal) v39 v43 v46 v53 v56) v64 v67)) v74) broadcasts_S1600x1_S1600x3) := rfl

/-- The weighted coordinate difference of edge p, axis d. -/
theorem pay5_at (v9 : FVec Ideal S1600x3 .f32) (v39 : FVec Ideal S1600x128 .f32) (v43 : Vec Ideal S128x128 .f32)
    (v46 : Vec Ideal S1x128 .f32) (v53 : Vec Ideal S128x1 .f32) (v56 : Vec Ideal S1x1 .f32)
    (v64 : Vec Ideal S128x128 .f32) (v67 : Vec Ideal S1x128 .f32) (v74 : Vec Ideal S128x1 .f32) (p : Fin 1600) (d : Fin 3) :
    k0_pay5 (F := Ideal) v9 v39 v43 v46 v53 v56 v64 v67 v74 (ix2 p d)
      = Spec.wd (cur2 v39 p) (cur2 v9 p) (cur2 v43) (row0 v46) (col0 v53) (v56 (ix2 (0 : Fin 1) (0 : Fin 1)))
          (cur2 v64) (row0 v67) (col0 v74) d := by
  rw [pay5_eq]
  unfold Spec.wd Spec.cupd
  refine congrArg (v9 (ix2 p d) * ·) ?_
  refine (broadcastTo_a1_ab_apply _ _ p d).trans ?_
  refine (colE_at _ _ p).trans ?_
  refine Finset.sum_congr rfl fun k _ => ?_
  rw [siluV_apply, layerE_at]
  exact congrArg (fun z => Spec.silu (z + v67 (ix2 (0 : Fin 1) k)) * v74 (ix2 k (0 : Fin 1)))
    (Finset.sum_congr rfl fun l _ => congrArg (· * v64 (ix2 l k)) (pay4_at v39 v43 v46 v53 v56 p l))

/-! ## The node kernel -/

/-- The first layer's pre-activations of a node block: two products with the two weight blocks, plus the bias row. -/
def npreV (v0 v1 : Vec Ideal S2000x128 .f32) (v5 v8 : Vec Ideal S128x128 .f32) (v14 : Vec Ideal S1x128 .f32) :
    FVec Ideal S2000x128 .f32 :=
  addf (addf
      (matmul dot_S2000x128_S128x128_S2000x128_1_0_0_1_n_n none (truncf .bf16 v0 bitsLt_bf16_f32)
        (truncf .bf16 (shapeCast S128x128 v5 shapeCasts_S128x128_S128x128) bitsLt_bf16_f32) (constant S2000x128 .f32 0x00000000#32))
      (matmul dot_S2000x128_S128x128_S2000x128_1_0_0_1_n_n none
        (truncf .bf16 (shapeCast S2000x128 v1 shapeCasts_S2000x128_S2000x128) bitsLt_bf16_f32)
        (truncf .bf16 (shapeCast S128x128 v8 shapeCasts_S128x128_S128x128) bitsLt_bf16_f32) (constant S2000x128 .f32 0x00000000#32)))
    (broadcastTo S2000x128 (shapeCast S1x128 v14 shapeCasts_S1x128_S1x128) broadcasts_S1x128_S2000x128)

theorem npreV_at (v0 v1 : Vec Ideal S2000x128 .f32) (v5 v8 : Vec Ideal S128x128 .f32) (v14 : Vec Ideal S1x128 .f32)
    (p : Fin 2000) (q : Fin 128) :
    npreV v0 v1 v5 v8 v14 (ix2 p q) = Spec.npreK (cur2 v0 p) (cur2 v1 p) (cur2 v5) (cur2 v8) (row0 v14) q := by
  unfold npreV Spec.npreK
  show ((_ + _) + _ : EReal) = _
  refine congrArg₂ (· + ·) (congrArg₂ (· + ·) ?_ ?_) ?_
  · refine (mm_node _ _ p q).trans ?_
    rw [shapeCast_self]
    rfl
  · refine (mm_node _ _ p q).trans ?_
    rw [shapeCast_self, shapeCast_self]
    rfl
  · refine (broadcastTo_1b_ab_apply _ _ p q).trans ?_
    rw [shapeCast_self]

/-- A layer over a node block: the block times a 128×128 weight, plus the bias row on every row. -/
def layerN (x : FVec Ideal S2000x128 .f32) (w : Vec Ideal S128x128 .f32) (b : Vec Ideal S1x128 .f32) :
    FVec Ideal S2000x128 .f32 :=
  addf (matmul dot_S2000x128_S128x128_S2000x128_1_0_0_1_n_n none (truncf .bf16 x bitsLt_bf16_f32)
      (truncf .bf16 w bitsLt_bf16_f32) (constant S2000x128 .f32 0x00000000#32))
    (broadcastTo S2000x128 (shapeCast S1x128 b shapeCasts_S1x128_S1x128) broadcasts_S1x128_S2000x128)

theorem layerN_at (x : FVec Ideal S2000x128 .f32) (w : Vec Ideal S128x128 .f32) (b : Vec Ideal S1x128 .f32)
    (p : Fin 2000) (q : Fin 128) :
    layerN x w b (ix2 p q) = (∑ k : Fin 128, x (ix2 p k) * w (ix2 k q)) + b (ix2 (0 : Fin 1) q) := by
  unfold layerN
  show (_ + _ : EReal) = _
  refine congrArg₂ (· + ·) ((mm_node _ _ p q).trans rfl) ?_
  refine (broadcastTo_1b_ab_apply _ _ p q).trans ?_
  rw [shapeCast_self]

/-- The new features are the old ones plus the second layer over the activated first. -/
theorem npay1_eq (v0 v1 : Vec Ideal S2000x128 .f32) (v5 v8 : Vec Ideal S128x128 .f32) (v14 : Vec Ideal S1x128 .f32)
    (v21 : Vec Ideal S128x128 .f32) (v24 : Vec Ideal S1x128 .f32) :
    k1_pay1 (F := Ideal) v0 v1 v5 v8 v14 v21 v24 = addf v0 (layerN (siluV (npreV v0 v1 v5 v8 v14)) v21 v24) := rfl

/-- The new feature q of node p. -/
theorem npay1_at (v0 v1 : Vec Ideal S2000x128 .f32) (v5 v8 : Vec Ideal S128x128 .f32) (v14 : Vec Ideal S1x128 .f32)
    (v21 : Vec Ideal S128x128 .f32) (v24 : Vec Ideal S1x128 .f32) (p : Fin 2000) (q : Fin 128) :
    k1_pay1 (F := Ideal) v0 v1 v5 v8 v14 v21 v24 (ix2 p q)
      = Spec.hout (cur2 v0 p) (Spec.npreK (cur2 v0 p) (cur2 v1 p) (cur2 v5) (cur2 v8) (row0 v14)) (cur2 v21) (row0 v24) q := by
  rw [npay1_eq]
  unfold Spec.hout
  refine congrArg (v0 (ix2 p q) + ·) ?_
  rw [layerN_at]
  exact congrArg (· + v24 (ix2 (0 : Fin 1) q))
    (Finset.sum_congr rfl fun k _ => congrArg (fun z => Spec.silu z * v21 (ix2 k q)) (npreV_at v0 v1 v5 v8 v14 p k))

end Cert.KernelIdeal.Pay

end
-- ==== Proof.KernelIdeal.ArrNode.lean ====
import proofs.«430614_j61916248539245_1_alg».proof.Proof.KernelIdeal.FrameNode
import proofs.«430614_j61916248539245_1_alg».proof.Proof.KernelIdeal.Payloads
import proofs.«430614_j61916248539245_1_alg».proof.Proof.Spec
import proofs.«430614_j61916248539245_1_alg».proof.Proof.Views
import Idealize.ShloMosaic.Lib.Pipeline.Value
import Idealize.ShloMosaic.Lib.ValueIdx

/-! # The node update: from blocks to the array

The node update runs over 25 grid points. Point t takes rows 2000 t … 2000 t + 1999 of the feature table and of
the aggregated messages, and the three weight matrices and two bias rows whole, and stores rows
2000 t … 2000 t + 1999 of the result. Entry (n, j) of the result therefore depends on row n of the two tables
only: it is the residual update of that row, column j. Here: that row-level function of the whole arrays, what
each point writes back as its block of that function, the 25 blocks covering all 50000 rows, and so the result
array read at any entry. -/

noncomputable section

namespace Cert.KernelIdeal.Arr

open Cert.KernelIdeal Cert.KernelIdeal.Gen Cert.KernelIdeal.Hand
open Idealize.ShloMosaic Idealize.ShloMosaic.TcCoe Idealize.ShloMosaic.ValueIdx Cert.Views
open Idealize.ShloMosaic.Pipeline (Dat)

-- the buffers' contents when the region is entered
variable (V : (c : Dev nD) → (b : Ref sig .tc) → Buf (Elt Ideal) ((c : Thread nD τ).loc b)) (c : Dev nD)

/-- The offsets of a whole-block access are zero on both axes. -/
theorem zero_off : (![0, 0] : Fin 2 → Nat) = fun _ => 0 :=
  funext fun a => by match a with | ⟨0, _⟩ => rfl | ⟨1, _⟩ => rfl

/-! ## The row-level function of the whole arrays -/

/-- Entry (n, j) of the updated feature table from the whole operand arrays: row n of the features, plus the
    second layer applied to the SiLU of the first layer's pre-activation of that row and of row n of the
    aggregated messages. -/
abbrev nodeRows (h agg : S50000x128.Idx → EReal) (w1h w1a : S128x128.Idx → EReal) (b1 : S1x128.Idx → EReal)
    (w2 : S128x128.Idx → EReal) (b2 : S1x128.Idx → EReal) : S50000x128.Idx → EReal := fun i =>
  Spec.hout (cur2 h (i 0)) (Spec.npreK (cur2 h (i 0)) (cur2 agg (i 0)) (cur2 w1h) (cur2 w1a) (row0 b1)) (cur2 w2) (row0 b2) (i 1)

/-- One entry of a block's payload is that function at the entry's place in the array, when the block's row holds
    the array's row (for the two row-blocked operands) and the columns agree. -/
theorem payload_at_row (x0 x1 : Vec Ideal S2000x128 .f32) (x2 x3 : Vec Ideal S128x128 .f32) (x4 : Vec Ideal S1x128 .f32)
    (x5 : Vec Ideal S128x128 .f32) (x6 : Vec Ideal S1x128 .f32) (h agg : S50000x128.Idx → EReal)
    (y : S2000x128.Idx) (i : S50000x128.Idx)
    (h0 : ∀ k : Fin 128, x0 (ix2 (y 0) k) = h (ix2 (i 0) k)) (h1 : ∀ k : Fin 128, x1 (ix2 (y 0) k) = agg (ix2 (i 0) k))
    (hq : i 1 = y 1) :
    k1_pay1 (F := Ideal) x0 x1 x2 x3 x4 x5 x6 y = nodeRows h agg x2 x3 x4 x5 x6 i := by
  obtain ⟨p, q, rfl⟩ : ∃ (p : Fin 2000) (q : Fin 128), y = ix2 p q := ⟨y 0, y 1, eq_ix2 y⟩
  rw [Pay.npay1_at]
  have e0 : cur2 x0 p = cur2 h (i 0) := funext h0
  have e1 : cur2 x1 p = cur2 agg (i 0) := funext h1
  have eq : q = i 1 := hq.symm
  rw [e0, e1, eq]

/-! ## The index maps, over the grid -/

/-- The printed index maps, decided over the 25 points: the two row-blocked operands and the result are at block
    (t, 0) at point t; the weights and biases are at block (0, 0) throughout. -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The input blocks, read off their arrays -/

/-- Entry (p, q) of the feature block at point t is entry (2000 t + p, q) of the feature table. -/
theorem featBlk_at (t : Fin cfg1.N) (y : S2000x128.Idx) (i : S50000x128.Idx)
    (h0 : (i 0).val = t.val * 2000 + (y 0).val) (h1 : (i 1).val = (y 1).val) :
    (nodeBlk V c 0 t : Vec Ideal S2000x128 .f32) y = (V c main_arg0 : S50000x128.Idx → EReal) i := by
  obtain ⟨e0, e1, -⟩ := blockIdx t
  show V c main_arg0 (((cfg1.win 0).blk t).view.emb y) = V c main_arg0 i
  congr 1
  funext a; apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- Entry (p, q) of the aggregated-message block at point t is entry (2000 t + p, q) of that table. -/
theorem aggBlk_at (t : Fin cfg1.N) (y : S2000x128.Idx) (i : S50000x128.Idx)
    (h0 : (i 0).val = t.val * 2000 + (y 0).val) (h1 : (i 1).val = (y 1).val) :
    (nodeBlk V c 1 t : Vec Ideal S2000x128 .f32) y = (V c main_v20 : S50000x128.Idx → EReal) i := by
  obtain ⟨-, -, e0, e1, -⟩ := blockIdx t
  show V c main_v20 (((cfg1.win 1).blk t).view.emb y) = V c main_v20 i
  congr 1
  funext a; apply Fin.ext
  match a with
  | ⟨0, _⟩ => show win1_1.index t (0 : Fin 2) * 2000 + 1 * (y 0).val = (i 0).val; rw [e0, h0]; omega
  | ⟨1, _⟩ => show win1_1.index t (1 : Fin 2) * 128 + 1 * (y 1).val = (i 1).val; rw [e1, h1]; omega

/-- The first-layer weights for the features: the one block is the whole matrix. -/
theorem w1hBlk (t : Fin cfg1.N) : (nodeBlk V c 2 t : Vec Ideal S128x128 .f32) = (V c main_v33 : S128x128.Idx → EReal) := by
  obtain ⟨-, -, -, -, e0, e1, -⟩ := blockIdx t
  funext y
  show V c main_v33 (((cfg1.win 2).blk t).view.emb y) = V c main_v33 y
  congr 1
  funext a; apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first-layer weights for the aggregated messages: the one block is the whole matrix. -/
theorem w1aBlk (t : Fin cfg1.N) : (nodeBlk V c 3 t : Vec Ideal S128x128 .f32) = (V c main_v34 : S128x128.Idx → EReal) := by
  obtain ⟨-, -, -, -, -, -, e0, e1, -⟩ := blockIdx t
  funext y
  show V c main_v34 (((cfg1.win 3).blk t).view.emb y) = V c main_v34 y
  congr 1
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The first-layer bias: the one block is the whole row. -/
theorem b1Blk (t : Fin cfg1.N) : (nodeBlk V c 4 t : Vec Ideal S1x128 .f32) = (V c main_v35 : S1x128.Idx → EReal) := by
  obtain ⟨-, -, -, -, -, -, -, -, e0, e1, -⟩ := blockIdx t
  funext y
  show V c main_v35 (((cfg1.win 4).blk t).view.emb y) = V c main_v35 y
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The second-layer weights: the one block is the whole matrix. -/
theorem w2Blk (t : Fin cfg1.N) : (nodeBlk V c 5 t : Vec Ideal S128x128 .f32) = (V c main_arg10 : S128x128.Idx → EReal) := by
  obtain ⟨-, -, -, -, -, -, -, -, -, -, e0, e1, -⟩ := blockIdx t
  funext y
  show V c main_arg10 (((cfg1.win 5).blk t).view.emb y) = V c main_arg10 y
  congr 1
  funext a; apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The second-layer bias: the one block is the whole row. -/
theorem b2Blk (t : Fin cfg1.N) : (nodeBlk V c 6 t : Vec Ideal S1x128 .f32) = (V c main_v36 : S1x128.Idx → EReal) := by
  obtain ⟨-, -, -, -, -, -, -, -, -, -, -, -, e0, e1, -⟩ := blockIdx t
  funext y
  show V c main_v36 (((cfg1.win 6).blk t).view.emb y) = V c main_v36 y
  congr 1
  funext a; apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-! ## What a point writes back -/

/-- The whole result array the region computes, from the operand arrays as the region finds them. -/
abbrev nodeArr : S50000x128.Idx → EReal :=
  nodeRows (V c main_arg0) (V c main_v20) (V c main_v33) (V c main_v34) (V c main_v35) (V c main_arg10) (V c main_v36)

/-- What point t writes back is block t of that array: the store is of the whole block, each load reads its whole
    block, and the block's rows are rows 2000 t … 2000 t + 1999 of the two tables. -/
theorem flushed_eq (t : Fin cfg1.N) :
    (nodeDat (F := Ideal) V c).flushed 7 t = ((cfg1.win 7).blk t).view.read (Elt Ideal) (nodeArr V c) := by
  show (cfg1.win 7).cut (grid1.coords t) ((nodeDat (F := Ideal) V c).after 7 t) = _
  rw [nodeDat_after_7]
  unfold nodeOut
  rw [View.canon_unit_zero zero_off]
  simp only [View.ld_unit_zero (S := S2000x128) zero_off, View.ld_unit_zero (S := S128x128) zero_off,
    View.ld_unit_zero (S := S1x128) zero_off]
  rw [w1hBlk, w1aBlk, b1Blk, w2Blk, b2Blk]
  obtain ⟨-, -, -, -, -, -, -, -, -, -, -, -, -, -, e0, e1⟩ := blockIdx t
  funext j
  have r0 : ((((cfg1.win 7).blk t).view.emb j) 0).val = t.val * 2000 + (j 0).val := by
    show win1_7.index t (0 : Fin 2) * 2000 + 1 * (j 0).val = _; rw [e0]; omega
  have r1 : ((((cfg1.win 7).blk t).view.emb j) 1).val = (j 1).val := by
    show win1_7.index t (1 : Fin 2) * 128 + 1 * (j 1).val = _; rw [e1]; omega
  show k1_pay1 (F := Ideal) (nodeBlk V c 0 t) (nodeBlk V c 1 t) (V c main_v33) (V c main_v34) (V c main_v35) (V c main_arg10) (V c main_v36) j
    = nodeArr V c (((cfg1.win 7).blk t).view.emb j)
  exact payload_at_row (nodeBlk V c 0 t) (nodeBlk V c 1 t) (V c main_v33) (V c main_v34) (V c main_v35) (V c main_arg10) (V c main_v36)
    (V c main_arg0) (V c main_v20) j (((cfg1.win 7).blk t).view.emb j)
    (fun k => featBlk_at V c t (ix2 (j 0) k) (ix2 ((((cfg1.win 7).blk t).view.emb j) 0) k) r0 rfl)
    (fun k => aggBlk_at V c t (ix2 (j 0) k) (ix2 ((((cfg1.win 7).blk t).view.emb j) 0) k) r0 rfl)
    (Fin.ext r1)

/-! ## The blocks cover the array -/

/-- An entry of the result array is in point t's block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v37).slice (win1_7.rect t)).set ↔ _
  rw [View.set_slice_whole, Rect.mem_set_unit]
  exact Iff.rfl

/-- Row n is in the block of point n / 2000, and every point writes its block back. -/
theorem covered (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, -, -, -, -, -, -, -, -, e0, e1⟩ := blockIdx ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val ∧ (i 1).val < win1_7.index ⟨(i 0).val / 2000, ht⟩ (1 : Fin 2) * 128 + 128
    rw [e1]; omega

/-! ## The result array -/

/-- After the region the result array holds the row-level function of the operand arrays, everywhere. -/
theorem node_arr : ((nodeDat (F := Ideal) V c).arrAt 7 cfg1.N : S50000x128.Idx → EReal) = nodeArr V c :=
  (nodeDat (F := Ideal) V c).arrAt_eq_of_cover 7 (nodeArr V c) (fun t _ => flushed_eq V c t) (covered)

/-- Entry (n, j) of the result: row n of the features plus the two-layer perceptron of that row and of row n of the
    aggregated messages, column j. -/
theorem node_out_at (n : Fin 50000) (j : Fin 128) :
    ((nodeDat (F := Ideal) V c).arrAt 7 cfg1.N : S50000x128.Idx → EReal) (ix2 n j)
      = Spec.hout (cur2 (V c main_arg0) n) (Spec.npreK (cur2 (V c main_arg0) n) (cur2 (V c main_v20) n) (cur2 (V c main_v33)) (cur2 (V c main_v34)) (row0 (V c main_v35))) (cur2 (V c main_arg10)) (row0 (V c main_v36)) j := by
  rw [node_arr]

end Cert.KernelIdeal.Arr

end
-- ==== Proof.Tail.lean ====
/-
  What both programs do with the per-edge results, as two functions of the edge list and a per-edge array: the
  messages are summed into their source nodes (a scatter-add into zeros at row 0 of the edge list), and the new
  coordinates are the old ones plus the mean of the weighted coordinate differences over a node's outgoing edges
  (their scatter-added sum divided by the edge count, the count clamped below at one). Both programs apply exactly
  these host operations; carrying them as one opaque function each keeps the full-size scatters unopened.
-/
import proofs.«430614_j61916248539245_1_alg».proof.ReferenceIdeal
import Idealize.ShloMosaic.PureOps.Ideal

noncomputable section

namespace Cert.Tail

open Idealize.ShloMosaic Cert.ReferenceIdeal Cert.ReferenceIdeal.Facts₀ Cert.ReferenceIdeal.Facts

variable [Cert.ReferenceIdeal.Facts]

/-- Row 0 of the edge list (the source node of every edge) as the [E, 1] column of scatter indices. -/
def srcColumn (ei : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![0, 0] ei slices_S2x800000_S1x800000_0_0) shapeCasts_S1x800000_S800000)

/-- The messages summed into their source nodes. -/
def aggOf (ei : (⟨S2x800000, .i32⟩ : BufTy).Contents (Elt Ideal)) (msg : (⟨S800000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32)) (srcColumn ei) msg

/-- The new coordinates: the old ones plus the mean weighted difference over each node's outgoing edges. -/
def xOut (x : (⟨S50000x3, .f32⟩ : BufTy).Contents (Elt Ideal)) (ei : (⟨S2x800000, .i32⟩ : BufTy).Contents (Elt Ideal))
    (wd : (⟨S800000x3, .f32⟩ : BufTy).Contents (Elt Ideal)) : (⟨S50000x3, .f32⟩ : BufTy).Contents (Elt Ideal) :=
  addf x (Host.divf
    (Host.scatterAdd scatter_S50000x3_S800000x1_S800000x3_1_0_0_1
      (broadcastInDim S50000x3 ![] bcast_S_S50000x3 (constant (F := Ideal) S_ .f32 0x00000000#32)) (srcColumn ei) wd)
    (broadcastInDim S50000x3 ![0, 1] bcast_S50000x1_S50000x3_0_1
      (broadcastInDim S50000x1 ![0] bcast_S50000_S50000x1_0
        (maximumf (broadcastInDim S50000 ![] bcast_S_S50000 (id (constant (F := Ideal) S_ .f32 0x3F800000#32)))
          (Host.scatterAdd scatter_S50000_S800000x1_S800000_n_0_0_1
            (broadcastInDim S50000 ![] bcast_S_S50000 (constant (F := Ideal) S_ .f32 0x00000000#32)) (srcColumn ei)
            (broadcastInDim S800000 ![] bcast_S_S800000 (constant (F := Ideal) S_ .f32 0x3F800000#32)))))))

end Cert.Tail

end
-- ==== Proof.KernelIdeal.HostSmall.lean ====
import proofs.«430614_j61916248539245_1_alg».proof.Proof.Gen.KernelIdeal.Regions
import proofs.«430614_j61916248539245_1_alg».proof.Proof.Views
import proofs.«430614_j61916248539245_1_alg».proof.Proof.Tail
import Idealize.ShloMosaic.Lib.StableHlo.Run
import Idealize.ShloMosaic.Lib.ValueIdx
import Idealize.ShloMosaic.Lib.Pipeline.Value
import Idealize.ShloMosaic.Lib.ValueLayout

/-!
# The small operand arrays and the two host tails, at the ideal instance

Around its two kernel regions the program runs only layout operations on the weights and biases, and a short
arithmetic tail on what the first region produced.

* A stacked weight matrix is cut into row bands: the band starting at row `o` reads, at `(k, j)`, the stacked matrix
  at `(o + k, j)`.
* A bias vector of length `n` is recast as a `[1, n]` row: the row reads, at `(0, j)`, the vector at `j`.
* An argument that no operation writes is, at either region's entry, what it was at launch.
* The messages the first region leaves are summed into their source nodes, and the coordinates are moved by the mean
  weighted difference over each node's outgoing edges. Both are the same operations, on the same operands, as the two
  functions of `Cert.Tail`; the sums themselves are never opened here.
-/

-- deciding that a reference is none of some twenty written ones recurses past the default depth
set_option maxRecDepth 3424

noncomputable section

namespace Cert.KernelIdeal.HostSmall

open Cert.KernelIdeal Cert.KernelIdeal.Gen
open Idealize.ShloMosaic Idealize.ShloMosaic.TcCoe Idealize.ShloMosaic.StableHlo Idealize.ShloMosaic.ValueIdx Cert.Views

variable [Cert.KernelIdeal.Facts] [Cert.ReferenceIdeal.Facts]
variable (m : (ℓ : Loc nD τ sig) → Buf (Elt Ideal) ℓ) (outs : Outs (F := Ideal)) (c : Dev nD)

/-! ## Each host stretch read at the references it writes, over any contents on entry

Stated over an arbitrary valuation `W` of the buffers on entry to the stretch, so that reading one stretch never opens
the stretches before it. -/

section Stretches

variable (W : Valuation τ sig (Elt Ideal))

/-- Row 0 of the edge list, as a vector. -/
theorem s0_v1 :
    (StableHlo.after hostOps0 W (Proc.devRef .tc main_v1) : S800000.Idx → BitVec 32)
      = shapeCast S800000 (extractStridedSlice S1x800000 ![0, 0] (W (Proc.devRef .tc main_arg2) : S2x800000.Idx → BitVec 32)
          slices_S2x800000_S1x800000_0_0) shapeCasts_S1x800000_S800000 := by
  after_results
  rfl

theorem s5_v9 :
    (StableHlo.after hostOps0_5 W (Proc.devRef .tc main_v9) : S128x128.Idx → EReal)
      = extractStridedSlice S128x128 ![0, 0] (W (Proc.devRef .tc main_arg4) : S258x128.Idx → EReal) slices_S258x128_S128x128_0_0 := by
  after_results
theorem s5_v10 :
    (StableHlo.after hostOps0_5 W (Proc.devRef .tc main_v10) : S128x128.Idx → EReal)
      = extractStridedSlice S128x128 ![128, 0] (W (Proc.devRef .tc main_arg4) : S258x128.Idx → EReal) slices_S258x128_S128x128_128_0 := by
  after_results
theorem s5_v11 :
    (StableHlo.after hostOps0_5 W (Proc.devRef .tc main_v11) : S1x128.Idx → EReal)
      = extractStridedSlice S1x128 ![256, 0] (W (Proc.devRef .tc main_arg4) : S258x128.Idx → EReal) slices_S258x128_S1x128_256_0 := by
  after_results
theorem s5_v12 :
    (StableHlo.after hostOps0_5 W (Proc.devRef .tc main_v12) : S1x128.Idx → EReal)
      = extractStridedSlice S1x128 ![257, 0] (W (Proc.devRef .tc main_arg4) : S258x128.Idx → EReal) slices_S258x128_S1x128_257_0 := by
  after_results
theorem s5_v13 :
    (StableHlo.after hostOps0_5 W (Proc.devRef .tc main_v13) : S1x128.Idx → EReal)
      = shapeCast S1x128 (W (Proc.devRef .tc main_arg5) : S128.Idx → EReal) shapeCasts_S128_S1x128 := by
  after_results
  rfl
theorem s5_v14 :
    (StableHlo.after hostOps0_5 W (Proc.devRef .tc main_v14) : S1x128.Idx → EReal)
      = shapeCast S1x128 (W (Proc.devRef .tc main_arg7) : S128.Idx → EReal) shapeCasts_S128_S1x128 := by
  after_results
  rfl
theorem s5_v15 :
    (StableHlo.after hostOps0_5 W (Proc.devRef .tc main_v15) : S1x1.Idx → EReal)
      = shapeCast S1x1 (W (Proc.devRef .tc main_arg16) : S1.Idx → EReal) shapeCasts_S1_S1x1 := by
  after_results
  rfl
theorem s5_v16 :
    (StableHlo.after hostOps0_5 W (Proc.devRef .tc main_v16) : S1x128.Idx → EReal)
      = shapeCast S1x128 (W (Proc.devRef .tc main_arg13) : S128.Idx → EReal) shapeCasts_S128_S1x128 := by
  after_results
  rfl

/-- The messages scatter-added into zeros at the source column. -/
theorem h1_v20 :
    (StableHlo.after hostOps1 W (Proc.devRef .tc main_v20) : S50000x128.Idx → EReal)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (W (Proc.devRef .tc main_v1) : S800000.Idx → BitVec 32))
          (W (Proc.devRef .tc main_v17_0) : S800000x128.Idx → EReal) := by
  after_results
/-- The weighted coordinate differences scatter-added into zeros at the source column. -/
theorem h1_v23 :
    (StableHlo.after hostOps1 W (Proc.devRef .tc main_v23) : S50000x3.Idx → EReal)
      = Host.scatterAdd scatter_S50000x3_S800000x1_S800000x3_1_0_0_1
          (broadcastInDim S50000x3 ![] bcast_S_S50000x3 (constant (F := Ideal) S_ .f32 0x00000000#32))
          (broadcastInDim S800000x1 ![0] bcast_S800000_S800000x1_0 (W (Proc.devRef .tc main_v1) : S800000.Idx → BitVec 32))
          (W (Proc.devRef .tc main_v17_1) : S800000x3.Idx → EReal) := by
  after_results
/-- The number of outgoing edges of every node: ones scatter-added into zeros at the source column. -/
theorem h1_v27 :
    (StableHlo.after hostOps1 W (Proc.devRef .tc main_v27) : S50000.Idx → EReal)
      = Host.scatterAdd scatter_S50000_S800000x1_S800000_n_0_0_1
          (broadcastInDim S50000 ![] bcast_S_S50000 (constant (F := Ideal) S_ .f32 0x00000000#32))
          (broadcastInDim S800000x1 ![0] bcast_S800000_S800000x1_0 (W (Proc.devRef .tc main_v1) : S800000.Idx → BitVec 32))
          (broadcastInDim S800000 ![] bcast_S_S800000 (constant (F := Ideal) S_ .f32 0x3F800000#32)) := by
  after_results
theorem h1_cst3 :
    (StableHlo.after hostOps1 W (Proc.devRef .tc main_cst_3) : S_.Idx → EReal) = constant (F := Ideal) S_ .f32 0x3F800000#32 := by
  after_results

/-- The edge count clamped below at one. -/
theorem h11_v28 :
    (StableHlo.after hostOps1_1 W (Proc.devRef .tc main_v28) : S50000.Idx → EReal)
      = maximumf (F := Ideal) (φ := .f32) (broadcastInDim S50000 ![] bcast_S_S50000 (id (W (Proc.devRef .tc main_cst_3) : S_.Idx → EReal)))
          (W (Proc.devRef .tc main_v27) : S50000.Idx → EReal) := by
  after_results
  rfl

/-- The new coordinates from the old ones, the scatter-added differences and the clamped counts. -/
theorem h12_v32 :
    (StableHlo.after hostOps1_2 W (Proc.devRef .tc main_v32) : S50000x3.Idx → EReal)
      = addf (F := Ideal) (φ := .f32) (W (Proc.devRef .tc main_arg1) : S50000x3.Idx → EReal)
          (Host.divf (F := Ideal) (φ := .f32) (W (Proc.devRef .tc main_v23) : S50000x3.Idx → EReal)
            (broadcastInDim S50000x3 ![0, 1] bcast_S50000x1_S50000x3_0_1
              (broadcastInDim S50000x1 ![0] bcast_S50000_S50000x1_0 (W (Proc.devRef .tc main_v28) : S50000.Idx → EReal)))) := by
  after_results
theorem h12_v33 :
    (StableHlo.after hostOps1_2 W (Proc.devRef .tc main_v33) : S128x128.Idx → EReal)
      = extractStridedSlice S128x128 ![0, 0] (W (Proc.devRef .tc main_arg8) : S256x128.Idx → EReal) slices_S256x128_S128x128_0_0 := by
  after_results
theorem h12_v34 :
    (StableHlo.after hostOps1_2 W (Proc.devRef .tc main_v34) : S128x128.Idx → EReal)
      = extractStridedSlice S128x128 ![128, 0] (W (Proc.devRef .tc main_arg8) : S256x128.Idx → EReal) slices_S256x128_S128x128_128_0 := by
  after_results
theorem h12_v35 :
    (StableHlo.after hostOps1_2 W (Proc.devRef .tc main_v35) : S1x128.Idx → EReal)
      = shapeCast S1x128 (W (Proc.devRef .tc main_arg9) : S128.Idx → EReal) shapeCasts_S128_S1x128 := by
  after_results
  rfl
theorem h12_v36 :
    (StableHlo.after hostOps1_2 W (Proc.devRef .tc main_v36) : S1x128.Idx → EReal)
      = shapeCast S1x128 (W (Proc.devRef .tc main_arg11) : S128.Idx → EReal) shapeCasts_S128_S1x128 := by
  after_results
  rfl

end Stretches

/-! ## What no host operation writes -/

/-- A reference none of the five host stretches before the last one ahead of the first region writes holds its launch
    contents there. -/
theorem V5_launch (r : Ref sig .tc) (h0 : r ∉ hostOps0_W) (h1 : r ∉ hostOps0_1_W) (h2 : r ∉ hostOps0_2_W)
    (h3 : r ∉ hostOps0_3_W) (h4 : r ∉ hostOps0_4_W) :
    V5 m c r = m ((c : Thread nD τ).loc r) :=
  (V5_of m c r h4).trans <| (V4_of m c r h3).trans <| (V3_of m c r h2).trans <|
    (V2_of m c r h1).trans <| (V1_of m c r h0).trans rfl

/-- The same at the first region's entry. -/
theorem V6_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) :
    V6 m c r = m ((c : Thread nD τ).loc r) :=
  (V6_of m c r h5).trans (V5_launch m c r h0 h1 h2 h3 h4)

/-- The same before the last host stretch ahead of the second region: the first region changes only its two results. -/
theorem V9_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W)
    (h6 : r ∉ ([main_v17_0, main_v17_1] : List (Ref sig .tc))) (h7 : r ∉ hostOps1_W) (h8 : r ∉ hostOps1_1_W) :
    V9 m outs c r = m ((c : Thread nD τ).loc r) :=
  (V9_of m outs c r h8).trans <| (V8_of m outs c r h7).trans <| (V7_of m outs c r h6).trans
    (V6_launch m c r h0 h1 h2 h3 h4 h5)

/-- The same at the second region's entry. -/
theorem V10_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W)
    (h6 : r ∉ ([main_v17_0, main_v17_1] : List (Ref sig .tc))) (h7 : r ∉ hostOps1_W) (h8 : r ∉ hostOps1_1_W)
    (h9 : r ∉ hostOps1_2_W) :
    V10 m outs c r = m ((c : Thread nD τ).loc r) :=
  (V10_of m outs c r h9).trans (V9_launch m outs c r h0 h1 h2 h3 h4 h5 h6 h7 h8)

theorem V6_arg6 : V6 m c main_arg6 = m ((c : Thread nD τ).loc main_arg6) :=
  V6_launch m c main_arg6 (by decide) (by decide) (by decide) (by decide) (by decide) (by decide)
theorem V6_arg15 : V6 m c main_arg15 = m ((c : Thread nD τ).loc main_arg15) :=
  V6_launch m c main_arg15 (by decide) (by decide) (by decide) (by decide) (by decide) (by decide)
theorem V6_arg12 : V6 m c main_arg12 = m ((c : Thread nD τ).loc main_arg12) :=
  V6_launch m c main_arg12 (by decide) (by decide) (by decide) (by decide) (by decide) (by decide)
theorem V6_arg14 : V6 m c main_arg14 = m ((c : Thread nD τ).loc main_arg14) :=
  V6_launch m c main_arg14 (by decide) (by decide) (by decide) (by decide) (by decide) (by decide)

theorem V10_arg0 : V10 m outs c main_arg0 = m ((c : Thread nD τ).loc main_arg0) :=
  V10_launch m outs c main_arg0 (by decide) (by decide) (by decide) (by decide) (by decide) (by decide) (by decide) (by decide) (by decide) (by decide)
theorem V10_arg10 : V10 m outs c main_arg10 = m ((c : Thread nD τ).loc main_arg10) :=
  V10_launch m outs c main_arg10 (by decide) (by decide) (by decide) (by decide) (by decide) (by decide) (by decide) (by decide) (by decide) (by decide)

theorem V5_arg4 : V5 m c main_arg4 = m ((c : Thread nD τ).loc main_arg4) :=
  V5_launch m c main_arg4 (by decide) (by decide) (by decide) (by decide) (by decide)
theorem V5_arg5 : V5 m c main_arg5 = m ((c : Thread nD τ).loc main_arg5) :=
  V5_launch m c main_arg5 (by decide) (by decide) (by decide) (by decide) (by decide)
theorem V5_arg7 : V5 m c main_arg7 = m ((c : Thread nD τ).loc main_arg7) :=
  V5_launch m c main_arg7 (by decide) (by decide) (by decide) (by decide) (by decide)
theorem V5_arg13 : V5 m c main_arg13 = m ((c : Thread nD τ).loc main_arg13) :=
  V5_launch m c main_arg13 (by decide) (by decide) (by decide) (by decide) (by decide)
theorem V5_arg16 : V5 m c main_arg16 = m ((c : Thread nD τ).loc main_arg16) :=
  V5_launch m c main_arg16 (by decide) (by decide) (by decide) (by decide) (by decide)

theorem V9_arg1 : V9 m outs c main_arg1 = m ((c : Thread nD τ).loc main_arg1) :=
  V9_launch m outs c main_arg1 (by decide) (by decide) (by decide) (by decide) (by decide) (by decide) (by decide) (by decide) (by decide)
theorem V9_arg8 : V9 m outs c main_arg8 = m ((c : Thread nD τ).loc main_arg8) :=
  V9_launch m outs c main_arg8 (by decide) (by decide) (by decide) (by decide) (by decide) (by decide) (by decide) (by decide) (by decide)
theorem V9_arg9 : V9 m outs c main_arg9 = m ((c : Thread nD τ).loc main_arg9) :=
  V9_launch m outs c main_arg9 (by decide) (by decide) (by decide) (by decide) (by decide) (by decide) (by decide) (by decide) (by decide)
theorem V9_arg11 : V9 m outs c main_arg11 = m ((c : Thread nD τ).loc main_arg11) :=
  V9_launch m outs c main_arg11 (by decide) (by decide) (by decide) (by decide) (by decide) (by decide) (by decide) (by decide) (by decide)

/-! ## The first region's weight bands and bias rows -/

/-- Rows 0 to 127 of the stacked edge weights. -/
theorem w1s_at (k j : Fin 128) :
    (V6 m c main_v9 : S128x128.Idx → EReal) (ix2 k j)
      = (m ((c : Thread nD τ).loc main_arg4) : S258x128.Idx → EReal) (ix2 (⟨k.val, by omega⟩ : Fin 258) j) := by
  rw [show (V6 m c main_v9 : S128x128.Idx → EReal) = _ from s5_v9 (V5 m c), V5_arg4]
  exact slice2_axis0_apply 0 _ _ k j ⟨k.val, by omega⟩ (Nat.zero_add _).symm

/-- Rows 128 to 255 of the stacked edge weights. -/
theorem w1t_at (k j : Fin 128) :
    (V6 m c main_v10 : S128x128.Idx → EReal) (ix2 k j)
      = (m ((c : Thread nD τ).loc main_arg4) : S258x128.Idx → EReal) (ix2 (⟨k.val + 128, by omega⟩ : Fin 258) j) := by
  rw [show (V6 m c main_v10 : S128x128.Idx → EReal) = _ from s5_v10 (V5 m c), V5_arg4]
  exact slice2_axis0_apply 128 _ _ k j ⟨k.val + 128, by omega⟩ (Nat.add_comm _ _)

/-- Row 256 of the stacked edge weights. -/
theorem wrad_at (j : Fin 128) :
    (V6 m c main_v11 : S1x128.Idx → EReal) (ix2 (0 : Fin 1) j)
      = (m ((c : Thread nD τ).loc main_arg4) : S258x128.Idx → EReal) (ix2 (⟨256, by omega⟩ : Fin 258) j) := by
  rw [show (V6 m c main_v11 : S1x128.Idx → EReal) = _ from s5_v11 (V5 m c), V5_arg4]
  exact slice2_axis0_apply 256 _ _ (0 : Fin 1) j ⟨256, by omega⟩ rfl

/-- Row 257 of the stacked edge weights. -/
theorem wea_at (j : Fin 128) :
    (V6 m c main_v12 : S1x128.Idx → EReal) (ix2 (0 : Fin 1) j)
      = (m ((c : Thread nD τ).loc main_arg4) : S258x128.Idx → EReal) (ix2 (⟨257, by omega⟩ : Fin 258) j) := by
  rw [show (V6 m c main_v12 : S1x128.Idx → EReal) = _ from s5_v12 (V5 m c), V5_arg4]
  exact slice2_axis0_apply 257 _ _ (0 : Fin 1) j ⟨257, by omega⟩ rfl

theorem b1_at (j : Fin 128) :
    (V6 m c main_v13 : S1x128.Idx → EReal) (ix2 (0 : Fin 1) j) = (m ((c : Thread nD τ).loc main_arg5) : S128.Idx → EReal) (ix1 j) := by
  rw [show (V6 m c main_v13 : S1x128.Idx → EReal) = _ from s5_v13 (V5 m c), V5_arg5]
  exact shapeCast_a_1a_apply _ _ 0 j

theorem b2_at (j : Fin 128) :
    (V6 m c main_v14 : S1x128.Idx → EReal) (ix2 (0 : Fin 1) j) = (m ((c : Thread nD τ).loc main_arg7) : S128.Idx → EReal) (ix1 j) := by
  rw [show (V6 m c main_v14 : S1x128.Idx → EReal) = _ from s5_v14 (V5 m c), V5_arg7]
  exact shapeCast_a_1a_apply _ _ 0 j

theorem cb1_at (j : Fin 128) :
    (V6 m c main_v16 : S1x128.Idx → EReal) (ix2 (0 : Fin 1) j) = (m ((c : Thread nD τ).loc main_arg13) : S128.Idx → EReal) (ix1 j) := by
  rw [show (V6 m c main_v16 : S1x128.Idx → EReal) = _ from s5_v16 (V5 m c), V5_arg13]
  exact shapeCast_a_1a_apply _ _ 0 j

theorem ab_at :
    (V6 m c main_v15 : S1x1.Idx → EReal) (ix2 (0 : Fin 1) (0 : Fin 1)) = (m ((c : Thread nD τ).loc main_arg16) : S1.Idx → EReal) (ix1 (0 : Fin 1)) := by
  rw [show (V6 m c main_v15 : S1x1.Idx → EReal) = _ from s5_v15 (V5 m c), V5_arg16]
  exact shapeCast_a_1a_apply _ _ 0 0

/-! ## The second region's weight bands and bias rows -/

/-- Rows 0 to 127 of the stacked node weights. -/
theorem nw1h_at (k j : Fin 128) :
    (V10 m outs c main_v33 : S128x128.Idx → EReal) (ix2 k j)
      = (m ((c : Thread nD τ).loc main_arg8) : S256x128.Idx → EReal) (ix2 (⟨k.val, by omega⟩ : Fin 256) j) := by
  rw [show (V10 m outs c main_v33 : S128x128.Idx → EReal) = _ from h12_v33 (V9 m outs c), V9_arg8]
  exact slice2_axis0_apply 0 _ _ k j ⟨k.val, by omega⟩ (Nat.zero_add _).symm

/-- Rows 128 to 255 of the stacked node weights. -/
theorem nw1a_at (k j : Fin 128) :
    (V10 m outs c main_v34 : S128x128.Idx → EReal) (ix2 k j)
      = (m ((c : Thread nD τ).loc main_arg8) : S256x128.Idx → EReal) (ix2 (⟨k.val + 128, by omega⟩ : Fin 256) j) := by
  rw [show (V10 m outs c main_v34 : S128x128.Idx → EReal) = _ from h12_v34 (V9 m outs c), V9_arg8]
  exact slice2_axis0_apply 128 _ _ k j ⟨k.val + 128, by omega⟩ (Nat.add_comm _ _)

theorem nb1_at (j : Fin 128) :
    (V10 m outs c main_v35 : S1x128.Idx → EReal) (ix2 (0 : Fin 1) j) = (m ((c : Thread nD τ).loc main_arg9) : S128.Idx → EReal) (ix1 j) := by
  rw [show (V10 m outs c main_v35 : S1x128.Idx → EReal) = _ from h12_v35 (V9 m outs c), V9_arg9]
  exact shapeCast_a_1a_apply _ _ 0 j

theorem nb2_at (j : Fin 128) :
    (V10 m outs c main_v36 : S1x128.Idx → EReal) (ix2 (0 : Fin 1) j) = (m ((c : Thread nD τ).loc main_arg11) : S128.Idx → EReal) (ix1 j) := by
  rw [show (V10 m outs c main_v36 : S1x128.Idx → EReal) = _ from h12_v36 (V9 m outs c), V9_arg11]
  exact shapeCast_a_1a_apply _ _ 0 j

/-! ## The two host tails -/

/-- Row 0 of the edge list reaches the scatters as the first host stretch wrote it: no later stretch and neither region
    writes it. -/
theorem V7_v1 :
    (V7 m outs c main_v1 : S800000.Idx → BitVec 32)
      = shapeCast S800000 (extractStridedSlice S1x800000 ![0, 0] (m ((c : Thread nD τ).loc main_arg2) : S2x800000.Idx → BitVec 32)
          slices_S2x800000_S1x800000_0_0) shapeCasts_S1x800000_S800000 :=
  (V7_of m outs c main_v1 (by decide)).trans <| (V6_of m c main_v1 (by decide)).trans <| (V5_of m c main_v1 (by decide)).trans <|
    (V4_of m c main_v1 (by decide)).trans <| (V3_of m c main_v1 (by decide)).trans <| (V2_of m c main_v1 (by decide)).trans
      (s0_v1 (V0 m c))

/-- After the first region its first result holds what the region left there. -/
theorem V7_v17_0 : V7 m outs c main_v17_0 = outs 7 main_v17_0 c := by
  simp only [V7, Function.update_of_ne (StableHlo.devRef_ne_of_ne (by decide : main_v17_0 ≠ main_v17_1) :
    (Proc.devRef .tc main_v17_0 : DevRef τ sig) ≠ Proc.devRef .tc main_v17_1), Function.update_self]

/-- After the first region its second result holds what the region left there. -/
theorem V7_v17_1 : V7 m outs c main_v17_1 = outs 7 main_v17_1 c := by
  simp only [V7, Function.update_self]

/-- The two programs' scatter descriptions carry the same data. -/
theorem scatter128_eq :
    scatter_S50000x128_S800000x1_S800000x128_1_0_0_1 = Cert.ReferenceIdeal.scatter_S50000x128_S800000x1_S800000x128_1_0_0_1 := rfl
theorem scatter3_eq :
    scatter_S50000x3_S800000x1_S800000x3_1_0_0_1 = Cert.ReferenceIdeal.scatter_S50000x3_S800000x1_S800000x3_1_0_0_1 := rfl
theorem scatter1_eq :
    scatter_S50000_S800000x1_S800000_n_0_0_1 = Cert.ReferenceIdeal.scatter_S50000_S800000x1_S800000_n_0_0_1 := rfl

/-- What enters the second region as the aggregated messages: the first region's messages summed into their source
    nodes. -/
theorem agg_eq :
    V10 m outs c main_v20 = Cert.Tail.aggOf (m ((c : Thread nD τ).loc main_arg2)) (outs 7 main_v17_0 c) := by
  have e : (V10 m outs c main_v20 : S50000x128.Idx → EReal) = _ :=
    (V10_of m outs c main_v20 (by decide)).trans <| (V9_of m outs c main_v20 (by decide)).trans (h1_v20 (V7 m outs c))
  rw [e, V7_v1, V7_v17_0, scatter128_eq, Cert.Tail.aggOf, Cert.Tail.srcColumn]

/-- The program's second result: the coordinates moved by the mean weighted difference. -/
theorem xout_eq :
    V11 m outs c main_v32
      = Cert.Tail.xOut (m ((c : Thread nD τ).loc main_arg1)) (m ((c : Thread nD τ).loc main_arg2)) (outs 7 main_v17_1 c) := by
  have e32 : (V11 m outs c main_v32 : S50000x3.Idx → EReal) = _ :=
    (V11_of m outs c main_v32 (by decide)).trans (h12_v32 (V9 m outs c))
  have e23 : (V9 m outs c main_v23 : S50000x3.Idx → EReal) = _ :=
    (V9_of m outs c main_v23 (by decide)).trans (h1_v23 (V7 m outs c))
  have e28 : (V9 m outs c main_v28 : S50000.Idx → EReal) = _ := h11_v28 (V8 m outs c)
  have e27 : (V8 m outs c main_v27 : S50000.Idx → EReal) = _ := h1_v27 (V7 m outs c)
  have ec3 : (V8 m outs c main_cst_3 : S_.Idx → EReal) = _ := h1_cst3 (V7 m outs c)
  rw [e32, V9_arg1, e23, e28, e27, ec3, V7_v1, V7_v17_1, scatter3_eq, scatter1_eq, Cert.Tail.xOut, Cert.Tail.srcColumn]

end Cert.KernelIdeal.HostSmall

end
-- ==== Proof.KernelNode.lean ====
/-
  The kernel program's first result, read at an index at the ideal instance, in the reference's arrangement: the node
  region's output array is what its pipeline leaves, its blocks are the node update of the region's operand rows, and
  the operands are the node features, the scatter-added messages, the two row blocks of the stacked first weight
  matrix and the reshaped biases; the two block products are the one product over the 256 concatenated columns.
-/
import proofs.«430614_j61916248539245_1_alg».proof.Proof.KernelIdeal.Run
import proofs.«430614_j61916248539245_1_alg».proof.Proof.KernelIdeal.ArrNode
import proofs.«430614_j61916248539245_1_alg».proof.Proof.KernelIdeal.HostSmall
import proofs.«430614_j61916248539245_1_alg».proof.Proof.Spec
import proofs.«430614_j61916248539245_1_alg».proof.Proof.Views
import proofs.«430614_j61916248539245_1_alg».proof.Proof.Tail

noncomputable section

namespace Cert.KernelIdeal.Value

open Cert.KernelIdeal Cert.KernelIdeal.Gen Cert.KernelIdeal.Hand
open Idealize.ShloMosaic Idealize.ShloMosaic.TcCoe Idealize.ShloMosaic.ValueIdx Cert.Views

variable [Cert.KernelIdeal.Facts] [Cert.ReferenceIdeal.Facts]
variable (m : (ℓ : Loc nD τ sig) → Buf (Elt Ideal) ℓ) (c : Dev nD)

/-- An argument array as launched. -/
abbrev arg (r : Ref sig .tc) : Buf (Elt Ideal) ((c : Thread nD τ).loc r) := m ((c : Thread nD τ).loc r)

/-- What the edge region leaves in its two output arrays: every grid point's block written back. -/
abbrev msgK : S800000x128.Idx → EReal := (edgeDat (F := Ideal) (edgeEntry m) c).arrAt 15 cfg0.N
abbrev wdK : S800000x3.Idx → EReal := (edgeDat (F := Ideal) (edgeEntry m) c).arrAt 16 cfg0.N

theorem outs_msg : outs m 7 main_v17_0 c = msgK m c :=
  (outs_7 m _ c).trans (Pipeline.withArrays_arr spec0 launch0.win.arr_inj c _ _ 15)
theorem outs_wd : outs m 7 main_v17_1 c = wdK m c :=
  (outs_7 m _ c).trans (Pipeline.withArrays_arr spec0 launch0.win.arr_inj c _ _ 16)

/-- The messages summed into their source nodes, as the node region finds them: the host's scatter-add of what the
    edge region left in its first output array. -/
abbrev aggK : S50000x128.Idx → EReal := Cert.Tail.aggOf (arg m c main_arg2) (msgK m c)

/-- The node region's operands: the first weight matrix's two row blocks and the two bias rows. -/
theorem op_nw1h : cur2 (V10 m (outs m) c main_v33 : S128x128.Idx → EReal)
    = fun k j => cur2 (arg m c main_arg8 : S256x128.Idx → EReal) ⟨k.val, by omega⟩ j :=
  funext fun k => funext fun j => HostSmall.nw1h_at m (outs m) c k j
theorem op_nw1a : cur2 (V10 m (outs m) c main_v34 : S128x128.Idx → EReal)
    = fun k j => cur2 (arg m c main_arg8 : S256x128.Idx → EReal) ⟨k.val + 128, by omega⟩ j :=
  funext fun k => funext fun j => HostSmall.nw1a_at m (outs m) c k j
theorem op_nb1 : row0 (V10 m (outs m) c main_v35 : S1x128.Idx → EReal) = cur1 (arg m c main_arg9 : S128.Idx → EReal) :=
  funext fun j => HostSmall.nb1_at m (outs m) c j
theorem op_nb2 : row0 (V10 m (outs m) c main_v36 : S1x128.Idx → EReal) = cur1 (arg m c main_arg11 : S128.Idx → EReal) :=
  funext fun j => HostSmall.nb2_at m (outs m) c j
theorem op_agg : (V10 m (outs m) c main_v20 : S50000x128.Idx → EReal) = aggK m c := by
  rw [HostSmall.agg_eq m (outs m) c, outs_msg]

/-- The second result: the shared host tail over what the edge region left in its second output array. -/
theorem xout_eq : (V11 m (outs m) c main_v32 : S50000x3.Idx → EReal)
    = Cert.Tail.xOut (arg m c main_arg1) (arg m c main_arg2) (wdK m c) := by
  rw [HostSmall.xout_eq m (outs m) c, outs_wd]

/-- The first result at node n, feature j. -/
theorem hout_at (n : Fin 50000) (j : Fin 128) :
    (V11 m (outs m) c main_v37 : S50000x128.Idx → EReal) (ix2 n j)
      = Spec.hout (cur2 (arg m c main_arg0 : S50000x128.Idx → EReal) n)
          (Spec.npreR (cur2 (arg m c main_arg0 : S50000x128.Idx → EReal) n) (cur2 (aggK m c) n)
            (cur2 (arg m c main_arg8 : S256x128.Idx → EReal)) (cur1 (arg m c main_arg9 : S128.Idx → EReal)))
          (cur2 (arg m c main_arg10 : S128x128.Idx → EReal)) (cur1 (arg m c main_arg11 : S128.Idx → EReal)) j := by
  rw [V11_out, Arr.node_out_at (nodeEntry m) c n j]
  show Spec.hout (cur2 (V10 m (outsEdge m) c main_arg0 : S50000x128.Idx → EReal) n)
      (Spec.npreK (cur2 (V10 m (outsEdge m) c main_arg0 : S50000x128.Idx → EReal) n)
        (cur2 (V10 m (outsEdge m) c main_v20 : S50000x128.Idx → EReal) n)
        (cur2 (V10 m (outsEdge m) c main_v33 : S128x128.Idx → EReal)) (cur2 (V10 m (outsEdge m) c main_v34 : S128x128.Idx → EReal))
        (row0 (V10 m (outsEdge m) c main_v35 : S1x128.Idx → EReal)))
      (cur2 (V10 m (outsEdge m) c main_arg10 : S128x128.Idx → EReal)) (row0 (V10 m (outsEdge m) c main_v36 : S1x128.Idx → EReal)) j = _
  rw [← V10_outs m c, HostSmall.V10_arg0, HostSmall.V10_arg10, op_agg, op_nw1h, op_nw1a, op_nb1, op_nb2,
    Spec.npreK_eq_npreR]

end Cert.KernelIdeal.Value

end
-- ==== Proof.KernelIdeal.ArrEdge.lean ====
import proofs.«430614_j61916248539245_1_alg».proof.Proof.KernelIdeal.FrameEdge
import proofs.«430614_j61916248539245_1_alg».proof.Proof.KernelIdeal.Payloads
import proofs.«430614_j61916248539245_1_alg».proof.Proof.Spec
import proofs.«430614_j61916248539245_1_alg».proof.Proof.Views
import Idealize.ShloMosaic.Lib.Pipeline.Value
import Idealize.ShloMosaic.Lib.ValueIdx

/-!
# The edge region's two output arrays, row by row

The first pallas_call runs the edge kernel over 500 grid points. At point t the pipeline hands the body block t — rows
1600 t … 1600 t + 1599 — of the two gathered node-feature arrays and of the geometry array, and the whole of each of
the twelve weight and bias arrays; the body writes block t of the message array and of the coordinate array.

Each output row depends on the SAME row of the three row-blocked inputs and on the weights only. So what point t
writes back is block t of one function of the operand arrays: the message array's entry (e, j) is feature j of the
gated message of edge e, the coordinate array's entry (e, d) is axis d of edge e's weighted coordinate difference,
each a row function of the specification applied to row e of the inputs. The 500 blocks tile the 800000 rows (row r
lies in block r / 1600), hence after the region each output array IS that function, whatever it held before.

The steps: the window index maps evaluated over the grid; each input block read as rows of its array; the body's
payload read at a row and a column; the write-back at a symbolic point as a block of the whole-array function; the
cover by division; the array after the last point.
-/

-- a rectangle with an axis of 1600 coordinates is opened once per coordinate
set_option maxRecDepth 16384

noncomputable section

namespace Cert.KernelIdeal.ArrE

open Cert.KernelIdeal Cert.KernelIdeal.Gen Cert.KernelIdeal.Hand
open Idealize.ShloMosaic Idealize.ShloMosaic.TcCoe Idealize.ShloMosaic.ValueIdx Cert.Views
open Idealize.ShloMosaic.Pipeline (Dat)

variable (V : (c : Dev nD) → (b : Ref sig .tc) → Buf (Elt Ideal) ((c : Thread nD τ).loc b)) (c : Dev nD)

/-- A whole-buffer rectangle starts at the zero offsets. -/
theorem hz : (![0, 0] : Fin 2 → Nat) = fun _ => 0 := funext fun a => by fin_cases a <;> rfl

/-! ## What the body leaves in an output buffer, read at a row and a column

The body stores each output buffer once, whole, and loads every input buffer whole; so the buffer it leaves is the
payload of the input buffers, and at row p the payload is the specification's row function of row p of the three
row-blocked inputs and of the weight arrays. -/

/-- The message buffer at row p, feature q. -/
theorem msgOut_at (x0 x1 : Vec Ideal S1600x128 .f32) (x2 : Vec Ideal S1600x7 .f32) (x3 x4 : Vec Ideal S128x128 .f32)
    (x5 x6 x7 : Vec Ideal S1x128 .f32) (x8 : Vec Ideal S128x128 .f32) (x9 : Vec Ideal S1x128 .f32) (x10 : Vec Ideal S128x1 .f32)
    (x11 : Vec Ideal S1x1 .f32) (x12 : Vec Ideal S128x128 .f32) (x13 : Vec Ideal S1x128 .f32) (x14 : Vec Ideal S128x1 .f32)
    (p : Fin 1600) (q : Fin 128) :
    edgeMsgOut (F := Ideal) x0 x1 x2 x3 x4 x5 x6 x7 x8 x9 x10 x11 x12 x13 x14 (ix2 p q)
      = Spec.mij (Spec.pre1K (cur2 x0 p) (cur2 x1 p) (cur2 x2 p) (cur2 x3) (cur2 x4) (row0 x5) (row0 x6) (row0 x7))
          (cur2 x8) (row0 x9) (col0 x10) (x11 (ix2 (0 : Fin 1) (0 : Fin 1))) q := by
  unfold edgeMsgOut
  rw [View.canon_unit_zero hz]
  simp only [View.ld_unit_zero (S := S1600x128) hz, View.ld_unit_zero (S := S1600x7) hz, View.ld_unit_zero (S := S128x128) hz,
    View.ld_unit_zero (S := S1x128) hz, View.ld_unit_zero (S := S128x1) hz, View.ld_unit_zero (S := S1x1) hz]
  refine (Pay.pay4_at (k0_pay3 x0 x1 x2 x3 x4 x5 x6 x7) x8 x9 x10 x11 p q).trans ?_
  have h3 : cur2 (k0_pay3 (F := Ideal) x0 x1 x2 x3 x4 x5 x6 x7) p
      = Spec.pre1K (cur2 x0 p) (cur2 x1 p) (cur2 x2 p) (cur2 x3) (cur2 x4) (row0 x5) (row0 x6) (row0 x7) :=
    funext fun k => Pay.pay3_at x0 x1 x2 x3 x4 x5 x6 x7 p k
  rw [h3]

/-- The coordinate buffer at row p, axis d. -/
theorem wdOut_at (x0 x1 : Vec Ideal S1600x128 .f32) (x2 : Vec Ideal S1600x7 .f32) (x3 x4 : Vec Ideal S128x128 .f32)
    (x5 x6 x7 : Vec Ideal S1x128 .f32) (x8 : Vec Ideal S128x128 .f32) (x9 : Vec Ideal S1x128 .f32) (x10 : Vec Ideal S128x1 .f32)
    (x11 : Vec Ideal S1x1 .f32) (x12 : Vec Ideal S128x128 .f32) (x13 : Vec Ideal S1x128 .f32) (x14 : Vec Ideal S128x1 .f32)
    (p : Fin 1600) (d : Fin 3) :
    edgeWdOut (F := Ideal) x0 x1 x2 x3 x4 x5 x6 x7 x8 x9 x10 x11 x12 x13 x14 (ix2 p d)
      = Spec.wd (Spec.pre1K (cur2 x0 p) (cur2 x1 p) (cur2 x2 p) (cur2 x3) (cur2 x4) (row0 x5) (row0 x6) (row0 x7))
          (Spec.cdiffK (cur2 x2 p)) (cur2 x8) (row0 x9) (col0 x10) (x11 (ix2 (0 : Fin 1) (0 : Fin 1)))
          (cur2 x12) (row0 x13) (col0 x14) d := by
  unfold edgeWdOut
  rw [View.canon_unit_zero hz]
  simp only [View.ld_unit_zero (S := S1600x128) hz, View.ld_unit_zero (S := S1600x7) hz, View.ld_unit_zero (S := S128x128) hz,
    View.ld_unit_zero (S := S1x128) hz, View.ld_unit_zero (S := S128x1) hz, View.ld_unit_zero (S := S1x1) hz]
  refine (Pay.pay5_at (k0_pay2 x2) (k0_pay3 x0 x1 x2 x3 x4 x5 x6 x7) x8 x9 x10 x11 x12 x13 x14 p d).trans ?_
  have h3 : cur2 (k0_pay3 (F := Ideal) x0 x1 x2 x3 x4 x5 x6 x7) p
      = Spec.pre1K (cur2 x0 p) (cur2 x1 p) (cur2 x2 p) (cur2 x3) (cur2 x4) (row0 x5) (row0 x6) (row0 x7) :=
    funext fun k => Pay.pay3_at x0 x1 x2 x3 x4 x5 x6 x7 p k
  have h2 : cur2 (k0_pay2 (F := Ideal) x2) p = Spec.cdiffK (cur2 x2 p) := funext fun k => Pay.pay2_at x2 p k
  rw [h3, h2]

/-! ## Where each window's block sits, at every grid point

The printed index maps, decided once over the 500 grid points: at point t the three row-blocked inputs and the two
outputs are at block (t, 0); the twelve weight and bias arrays are at block (0, 0) throughout. -/

theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = t.val ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 2) = 0 ∧ win0_13.index t (1 : Fin 2) = 0 :=
  (by decide +kernel : ∀ t : Fin grid0.N, _)
theorem idx_w14 : ∀ t : Fin cfg0.N, win0_14.index t (0 : Fin 2) = 0 ∧ win0_14.index t (1 : Fin 2) = 0 :=
  (by decide +kernel : ∀ t : Fin grid0.N, _)
theorem idx_w15 : ∀ t : Fin cfg0.N, win0_15.index t (0 : Fin 2) = t.val ∧ win0_15.index t (1 : Fin 2) = 0 :=
  (by decide +kernel : ∀ t : Fin grid0.N, _)
theorem idx_w16 : ∀ t : Fin cfg0.N, win0_16.index t (0 : Fin 2) = t.val ∧ win0_16.index t (1 : Fin 2) = 0 :=
  (by decide +kernel : ∀ t : Fin grid0.N, _)

/-! ## Each input block as rows of its array

A block's coordinate in its array is, on each axis, the block index times the block's size plus the coordinate inside
the block. So block t of a row-blocked input holds rows 1600 t … 1600 t + 1599 of its array, and the one block of a
weight or bias array is the array. -/

/-- Window 0, the source nodes' feature rows: entry x of block t is entry (1600 t + x₀, x₁) of the array. -/
theorem srcBlk_apply (t : Fin cfg0.N) (x : S1600x128.Idx) (k : S800000x128.Idx)
    (hk0 : (k 0).val = 1600 * t.val + (x 0).val) (hk1 : (k 1).val = (x 1).val) :
    (edgeBlk (F := Ideal) V c 0 t : Vec Ideal S1600x128 .f32) x = (V c main_v4 : Vec Ideal S800000x128 .f32) k := by
  obtain ⟨e0, e1⟩ := idx_w0 t
  unfold edgeBlk
  rw [View.read_apply]
  show V c main_v4 _ = V c main_v4 _
  congr 1
  funext a
  apply Fin.ext
  match a with
  | ⟨0, _⟩ => show win0_0.index t 0 * 1600 + 1 * (x 0).val = (k 0).val; rw [e0, hk0]; omega
  | ⟨1, _⟩ => show win0_0.index t 1 * 128 + 1 * (x 1).val = (k 1).val; rw [e1, hk1]; omega
/-- Window 1, the target nodes' feature rows: entry x of block t is entry (1600 t + x₀, x₁) of the array. -/
theorem tgtBlk_apply (t : Fin cfg0.N) (x : S1600x128.Idx) (k : S800000x128.Idx)
    (hk0 : (k 0).val = 1600 * t.val + (x 0).val) (hk1 : (k 1).val = (x 1).val) :
    (edgeBlk (F := Ideal) V c 1 t : Vec Ideal S1600x128 .f32) x = (V c main_v5 : Vec Ideal S800000x128 .f32) k := by
  obtain ⟨e0, e1⟩ := idx_w1 t
  unfold edgeBlk
  rw [View.read_apply]
  show V c main_v5 _ = V c main_v5 _
  congr 1
  funext a
  apply Fin.ext
  match a with
  | ⟨0, _⟩ => show win0_1.index t 0 * 1600 + 1 * (x 0).val = (k 0).val; rw [e0, hk0]; omega
  | ⟨1, _⟩ => show win0_1.index t 1 * 128 + 1 * (x 1).val = (k 1).val; rw [e1, hk1]; omega
/-- Window 2, the geometry rows (two coordinate triples and the attribute): entry x of block t is entry (1600 t + x₀, x₁) of the array. -/
theorem geoBlk_apply (t : Fin cfg0.N) (x : S1600x7.Idx) (k : S800000x7.Idx)
    (hk0 : (k 0).val = 1600 * t.val + (x 0).val) (hk1 : (k 1).val = (x 1).val) :
    (edgeBlk (F := Ideal) V c 2 t : Vec Ideal S1600x7 .f32) x = (V c main_v8 : Vec Ideal S800000x7 .f32) k := by
  obtain ⟨e0, e1⟩ := idx_w2 t
  unfold edgeBlk
  rw [View.read_apply]
  show V c main_v8 _ = V c main_v8 _
  congr 1
  funext a
  apply Fin.ext
  match a with
  | ⟨0, _⟩ => show win0_2.index t 0 * 1600 + 1 * (x 0).val = (k 0).val; rw [e0, hk0]; omega
  | ⟨1, _⟩ => show win0_2.index t 1 * 7 + 1 * (x 1).val = (k 1).val; rw [e1, hk1]; omega
/-- Window 3, the first layer's weights on the source features: its block is the whole array at every point. -/
theorem w1sBlk (t : Fin cfg0.N) :
    (edgeBlk (F := Ideal) V c 3 t : Vec Ideal S128x128 .f32) = (V c main_v9 : Vec Ideal S128x128 .f32) := by
  obtain ⟨e0, e1⟩ := idx_w3 t
  funext x
  unfold edgeBlk
  rw [View.read_apply]
  show V c main_v9 _ = V c main_v9 _
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega
/-- Window 4, the first layer's weights on the target features: its block is the whole array at every point. -/
theorem w1tBlk (t : Fin cfg0.N) :
    (edgeBlk (F := Ideal) V c 4 t : Vec Ideal S128x128 .f32) = (V c main_v10 : Vec Ideal S128x128 .f32) := by
  obtain ⟨e0, e1⟩ := idx_w4 t
  funext x
  unfold edgeBlk
  rw [View.read_apply]
  show V c main_v10 _ = V c main_v10 _
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega
/-- Window 5, the first layer's weights on the squared distance: its block is the whole array at every point. -/
theorem wradBlk (t : Fin cfg0.N) :
    (edgeBlk (F := Ideal) V c 5 t : Vec Ideal S1x128 .f32) = (V c main_v11 : Vec Ideal S1x128 .f32) := by
  obtain ⟨e0, e1⟩ := idx_w5 t
  funext x
  unfold edgeBlk
  rw [View.read_apply]
  show V c main_v11 _ = V c main_v11 _
  congr 1
  funext a
  apply Fin.ext
  match a with
  | ⟨0, _⟩ => show win0_5.index t 0 * 1 + 1 * (x 0).val = (x 0).val; rw [e0]; omega
  | ⟨1, _⟩ => show win0_5.index t 1 * 128 + 1 * (x 1).val = (x 1).val; rw [e1]; omega
/-- Window 6, the first layer's weights on the edge attribute: its block is the whole array at every point. -/
theorem weaBlk (t : Fin cfg0.N) :
    (edgeBlk (F := Ideal) V c 6 t : Vec Ideal S1x128 .f32) = (V c main_v12 : Vec Ideal S1x128 .f32) := by
  obtain ⟨e0, e1⟩ := idx_w6 t
  funext x
  unfold edgeBlk
  rw [View.read_apply]
  show V c main_v12 _ = V c main_v12 _
  congr 1
  funext a
  apply Fin.ext
  match a with
  | ⟨0, _⟩ => show win0_6.index t 0 * 1 + 1 * (x 0).val = (x 0).val; rw [e0]; omega
  | ⟨1, _⟩ => show win0_6.index t 1 * 128 + 1 * (x 1).val = (x 1).val; rw [e1]; omega
/-- Window 7, the first layer's bias: its block is the whole array at every point. -/
theorem b1Blk (t : Fin cfg0.N) :
    (edgeBlk (F := Ideal) V c 7 t : Vec Ideal S1x128 .f32) = (V c main_v13 : Vec Ideal S1x128 .f32) := by
  obtain ⟨e0, e1⟩ := idx_w7 t
  funext x
  unfold edgeBlk
  rw [View.read_apply]
  show V c main_v13 _ = V c main_v13 _
  congr 1
  funext a
  apply Fin.ext
  match a with
  | ⟨0, _⟩ => show win0_7.index t 0 * 1 + 1 * (x 0).val = (x 0).val; rw [e0]; omega
  | ⟨1, _⟩ => show win0_7.index t 1 * 128 + 1 * (x 1).val = (x 1).val; rw [e1]; omega
/-- Window 8, the second layer's weights: its block is the whole array at every point. -/
theorem w2Blk (t : Fin cfg0.N) :
    (edgeBlk (F := Ideal) V c 8 t : Vec Ideal S128x128 .f32) = (V c main_arg6 : Vec Ideal S128x128 .f32) := by
  obtain ⟨e0, e1⟩ := idx_w8 t
  funext x
  unfold edgeBlk
  rw [View.read_apply]
  show V c main_arg6 _ = V c main_arg6 _
  congr 1
  funext a
  apply Fin.ext
  match a with
  | ⟨0, _⟩ => show win0_8.index t 0 * 128 + 1 * (x 0).val = (x 0).val; rw [e0]; omega
  | ⟨1, _⟩ => show win0_8.index t 1 * 128 + 1 * (x 1).val = (x 1).val; rw [e1]; omega
/-- Window 9, the second layer's bias: its block is the whole array at every point. -/
theorem b2Blk (t : Fin cfg0.N) :
    (edgeBlk (F := Ideal) V c 9 t : Vec Ideal S1x128 .f32) = (V c main_v14 : Vec Ideal S1x128 .f32) := by
  obtain ⟨e0, e1⟩ := idx_w9 t
  funext x
  unfold edgeBlk
  rw [View.read_apply]
  show V c main_v14 _ = V c main_v14 _
  congr 1
  funext a
  apply Fin.ext
  match a with
  | ⟨0, _⟩ => show win0_9.index t 0 * 1 + 1 * (x 0).val = (x 0).val; rw [e0]; omega
  | ⟨1, _⟩ => show win0_9.index t 1 * 128 + 1 * (x 1).val = (x 1).val; rw [e1]; omega
/-- Window 10, the gate's weights: its block is the whole array at every point. -/
theorem awBlk (t : Fin cfg0.N) :
    (edgeBlk (F := Ideal) V c 10 t : Vec Ideal S128x1 .f32) = (V c main_arg15 : Vec Ideal S128x1 .f32) := by
  obtain ⟨e0, e1⟩ := idx_w10 t
  funext x
  unfold edgeBlk
  rw [View.read_apply]
  show V c main_arg15 _ = V c main_arg15 _
  congr 1
  funext a
  apply Fin.ext
  match a with
  | ⟨0, _⟩ => show win0_10.index t 0 * 128 + 1 * (x 0).val = (x 0).val; rw [e0]; omega
  | ⟨1, _⟩ => show win0_10.index t 1 * 1 + 1 * (x 1).val = (x 1).val; rw [e1]; omega
/-- Window 11, the gate's bias: its block is the whole array at every point. -/
theorem abBlk (t : Fin cfg0.N) :
    (edgeBlk (F := Ideal) V c 11 t : Vec Ideal S1x1 .f32) = (V c main_v15 : Vec Ideal S1x1 .f32) := by
  obtain ⟨e0, e1⟩ := idx_w11 t
  funext x
  unfold edgeBlk
  rw [View.read_apply]
  show V c main_v15 _ = V c main_v15 _
  congr 1
  funext a
  apply Fin.ext
  match a with
  | ⟨0, _⟩ => show win0_11.index t 0 * 1 + 1 * (x 0).val = (x 0).val; rw [e0]; omega
  | ⟨1, _⟩ => show win0_11.index t 1 * 1 + 1 * (x 1).val = (x 1).val; rw [e1]; omega
/-- Window 12, the coordinate network's first weights: its block is the whole array at every point. -/
theorem cw1Blk (t : Fin cfg0.N) :
    (edgeBlk (F := Ideal) V c 12 t : Vec Ideal S128x128 .f32) = (V c main_arg12 : Vec Ideal S128x128 .f32) := by
  obtain ⟨e0, e1⟩ := idx_w12 t
  funext x
  unfold edgeBlk
  rw [View.read_apply]
  show V c main_arg12 _ = V c main_arg12 _
  congr 1
  funext a
  apply Fin.ext
  match a with
  | ⟨0, _⟩ => show win0_12.index t 0 * 128 + 1 * (x 0).val = (x 0).val; rw [e0]; omega
  | ⟨1, _⟩ => show win0_12.index t 1 * 128 + 1 * (x 1).val = (x 1).val; rw [e1]; omega
/-- Window 13, the coordinate network's bias: its block is the whole array at every point. -/
theorem cb1Blk (t : Fin cfg0.N) :
    (edgeBlk (F := Ideal) V c 13 t : Vec Ideal S1x128 .f32) = (V c main_v16 : Vec Ideal S1x128 .f32) := by
  obtain ⟨e0, e1⟩ := idx_w13 t
  funext x
  unfold edgeBlk
  rw [View.read_apply]
  show V c main_v16 _ = V c main_v16 _
  congr 1
  funext a
  apply Fin.ext
  match a with
  | ⟨0, _⟩ => show win0_13.index t 0 * 1 + 1 * (x 0).val = (x 0).val; rw [e0]; omega
  | ⟨1, _⟩ => show win0_13.index t 1 * 128 + 1 * (x 1).val = (x 1).val; rw [e1]; omega
/-- Window 14, the coordinate network's read-out weights: its block is the whole array at every point. -/
theorem cw2Blk (t : Fin cfg0.N) :
    (edgeBlk (F := Ideal) V c 14 t : Vec Ideal S128x1 .f32) = (V c main_arg14 : Vec Ideal S128x1 .f32) := by
  obtain ⟨e0, e1⟩ := idx_w14 t
  funext x
  unfold edgeBlk
  rw [View.read_apply]
  show V c main_arg14 _ = V c main_arg14 _
  congr 1
  funext a
  apply Fin.ext
  match a with
  | ⟨0, _⟩ => show win0_14.index t 0 * 128 + 1 * (x 0).val = (x 0).val; rw [e0]; omega
  | ⟨1, _⟩ => show win0_14.index t 1 * 1 + 1 * (x 1).val = (x 1).val; rw [e1]; omega

/-! ## The two output arrays as functions of the operand arrays

Row e of the message array is the gated message of edge e: the specification's row function of row e of the two
gathered feature arrays and of the geometry array, and of the weight arrays. Row e of the coordinate array is the
weighted coordinate difference of edge e, likewise. -/

/-- The first layer's pre-activation row of edge e. -/
def preRow (A0 A1 : Vec Ideal S800000x128 .f32) (A2 : Vec Ideal S800000x7 .f32) (A3 A4 : Vec Ideal S128x128 .f32)
    (A5 A6 A7 : Vec Ideal S1x128 .f32) (e : Fin 800000) : Fin 128 → EReal :=
  Spec.pre1K (cur2 A0 e) (cur2 A1 e) (cur2 A2 e) (cur2 A3) (cur2 A4) (row0 A5) (row0 A6) (row0 A7)

/-- The gated messages: entry (e, j) is feature j of edge e's message. -/
def msgOf (A0 A1 : Vec Ideal S800000x128 .f32) (A2 : Vec Ideal S800000x7 .f32) (A3 A4 : Vec Ideal S128x128 .f32)
    (A5 A6 A7 : Vec Ideal S1x128 .f32) (A8 : Vec Ideal S128x128 .f32) (A9 : Vec Ideal S1x128 .f32) (A10 : Vec Ideal S128x1 .f32)
    (A11 : Vec Ideal S1x1 .f32) : Vec Ideal S800000x128 .f32 := fun i =>
  Spec.mij (preRow A0 A1 A2 A3 A4 A5 A6 A7 ⟨(i 0).val, idx2_lt0 i⟩) (cur2 A8) (row0 A9) (col0 A10)
    (A11 (ix2 (0 : Fin 1) (0 : Fin 1))) ⟨(i 1).val, idx2_lt1 i⟩

/-- The weighted coordinate differences: entry (e, d) is axis d of edge e's. -/
def wdOf (A0 A1 : Vec Ideal S800000x128 .f32) (A2 : Vec Ideal S800000x7 .f32) (A3 A4 : Vec Ideal S128x128 .f32)
    (A5 A6 A7 : Vec Ideal S1x128 .f32) (A8 : Vec Ideal S128x128 .f32) (A9 : Vec Ideal S1x128 .f32) (A10 : Vec Ideal S128x1 .f32)
    (A11 : Vec Ideal S1x1 .f32) (A12 : Vec Ideal S128x128 .f32) (A13 : Vec Ideal S1x128 .f32) (A14 : Vec Ideal S128x1 .f32) : Vec Ideal S800000x3 .f32 := fun i =>
  Spec.wd (preRow A0 A1 A2 A3 A4 A5 A6 A7 ⟨(i 0).val, idx2_lt0 i⟩) (Spec.cdiffK (cur2 A2 ⟨(i 0).val, idx2_lt0 i⟩))
    (cur2 A8) (row0 A9) (col0 A10) (A11 (ix2 (0 : Fin 1) (0 : Fin 1))) (cur2 A12) (row0 A13) (col0 A14) ⟨(i 1).val, idx2_lt1 i⟩

/-- Entry y of the message buffer is entry i of the message array when row y₀ of each row-blocked input buffer is row
    i₀ of its array, the weight buffers are the weight arrays, and the columns agree. -/
theorem msgOut_eq_msgOf (x0 x1 : Vec Ideal S1600x128 .f32) (x2 : Vec Ideal S1600x7 .f32) (x3 x4 : Vec Ideal S128x128 .f32)
    (x5 x6 x7 : Vec Ideal S1x128 .f32) (x8 : Vec Ideal S128x128 .f32) (x9 : Vec Ideal S1x128 .f32) (x10 : Vec Ideal S128x1 .f32)
    (x11 : Vec Ideal S1x1 .f32) (x12 : Vec Ideal S128x128 .f32) (x13 : Vec Ideal S1x128 .f32) (x14 : Vec Ideal S128x1 .f32)
    (A0 A1 : Vec Ideal S800000x128 .f32) (A2 : Vec Ideal S800000x7 .f32) (A3 A4 : Vec Ideal S128x128 .f32)
    (A5 A6 A7 : Vec Ideal S1x128 .f32) (A8 : Vec Ideal S128x128 .f32) (A9 : Vec Ideal S1x128 .f32) (A10 : Vec Ideal S128x1 .f32)
    (A11 : Vec Ideal S1x1 .f32)
    (y : S1600x128.Idx) (i : S800000x128.Idx)
    (h0 : cur2 x0 ⟨(y 0).val, idx2_lt0 y⟩ = cur2 A0 ⟨(i 0).val, idx2_lt0 i⟩)
    (h1 : cur2 x1 ⟨(y 0).val, idx2_lt0 y⟩ = cur2 A1 ⟨(i 0).val, idx2_lt0 i⟩)
    (h2 : cur2 x2 ⟨(y 0).val, idx2_lt0 y⟩ = cur2 A2 ⟨(i 0).val, idx2_lt0 i⟩)
    (h3 : x3 = A3) (h4 : x4 = A4) (h5 : x5 = A5) (h6 : x6 = A6) (h7 : x7 = A7) (h8 : x8 = A8) (h9 : x9 = A9)
    (h10 : x10 = A10) (h11 : x11 = A11) (hq : (i 1).val = (y 1).val) :
    edgeMsgOut (F := Ideal) x0 x1 x2 x3 x4 x5 x6 x7 x8 x9 x10 x11 x12 x13 x14 y = msgOf A0 A1 A2 A3 A4 A5 A6 A7 A8 A9 A10 A11 i := by
  subst h3 h4 h5 h6 h7 h8 h9 h10 h11
  have hcol : (⟨(i 1).val, idx2_lt1 i⟩ : Fin 128) = ⟨(y 1).val, idx2_lt1 y⟩ := Fin.ext hq
  refine (congrArg (edgeMsgOut (F := Ideal) x0 x1 x2 x3 x4 x5 x6 x7 x8 x9 x10 x11 x12 x13 x14) (eq_ix2 y)).trans ?_
  refine (msgOut_at x0 x1 x2 x3 x4 x5 x6 x7 x8 x9 x10 x11 x12 x13 x14 (y 0) (y 1)).trans ?_
  unfold msgOf preRow
  rw [hcol, ← h0, ← h1, ← h2]
  rfl

/-- Entry y of the coordinate buffer is entry i of the coordinate array, under the same conditions. -/
theorem wdOut_eq_wdOf (x0 x1 : Vec Ideal S1600x128 .f32) (x2 : Vec Ideal S1600x7 .f32) (x3 x4 : Vec Ideal S128x128 .f32)
    (x5 x6 x7 : Vec Ideal S1x128 .f32) (x8 : Vec Ideal S128x128 .f32) (x9 : Vec Ideal S1x128 .f32) (x10 : Vec Ideal S128x1 .f32)
    (x11 : Vec Ideal S1x1 .f32) (x12 : Vec Ideal S128x128 .f32) (x13 : Vec Ideal S1x128 .f32) (x14 : Vec Ideal S128x1 .f32)
    (A0 A1 : Vec Ideal S800000x128 .f32) (A2 : Vec Ideal S800000x7 .f32) (A3 A4 : Vec Ideal S128x128 .f32)
    (A5 A6 A7 : Vec Ideal S1x128 .f32) (A8 : Vec Ideal S128x128 .f32) (A9 : Vec Ideal S1x128 .f32) (A10 : Vec Ideal S128x1 .f32)
    (A11 : Vec Ideal S1x1 .f32) (A12 : Vec Ideal S128x128 .f32) (A13 : Vec Ideal S1x128 .f32) (A14 : Vec Ideal S128x1 .f32)
    (y : S1600x3.Idx) (i : S800000x3.Idx)
    (h0 : cur2 x0 ⟨(y 0).val, idx2_lt0 y⟩ = cur2 A0 ⟨(i 0).val, idx2_lt0 i⟩)
    (h1 : cur2 x1 ⟨(y 0).val, idx2_lt0 y⟩ = cur2 A1 ⟨(i 0).val, idx2_lt0 i⟩)
    (h2 : cur2 x2 ⟨(y 0).val, idx2_lt0 y⟩ = cur2 A2 ⟨(i 0).val, idx2_lt0 i⟩)
    (h3 : x3 = A3) (h4 : x4 = A4) (h5 : x5 = A5) (h6 : x6 = A6) (h7 : x7 = A7) (h8 : x8 = A8) (h9 : x9 = A9)
    (h10 : x10 = A10) (h11 : x11 = A11) (h12 : x12 = A12) (h13 : x13 = A13) (h14 : x14 = A14) (hq : (i 1).val = (y 1).val) :
    edgeWdOut (F := Ideal) x0 x1 x2 x3 x4 x5 x6 x7 x8 x9 x10 x11 x12 x13 x14 y
      = wdOf A0 A1 A2 A3 A4 A5 A6 A7 A8 A9 A10 A11 A12 A13 A14 i := by
  subst h3 h4 h5 h6 h7 h8 h9 h10 h11 h12 h13 h14
  have hcol : (⟨(i 1).val, idx2_lt1 i⟩ : Fin 3) = ⟨(y 1).val, idx2_lt1 y⟩ := Fin.ext hq
  refine (congrArg (edgeWdOut (F := Ideal) x0 x1 x2 x3 x4 x5 x6 x7 x8 x9 x10 x11 x12 x13 x14) (eq_ix2 y)).trans ?_
  refine (wdOut_at x0 x1 x2 x3 x4 x5 x6 x7 x8 x9 x10 x11 x12 x13 x14 (y 0) (y 1)).trans ?_
  unfold wdOf preRow
  rw [hcol, ← h0, ← h1, ← h2]
  rfl

/-- The message array the region leaves. -/
abbrev msgArr : Vec Ideal S800000x128 .f32 := msgOf (V c main_v4) (V c main_v5) (V c main_v8) (V c main_v9) (V c main_v10) (V c main_v11) (V c main_v12) (V c main_v13) (V c main_arg6) (V c main_v14) (V c main_arg15) (V c main_v15)
/-- The coordinate array the region leaves. -/
abbrev wdArr : Vec Ideal S800000x3 .f32 := wdOf (V c main_v4) (V c main_v5) (V c main_v8) (V c main_v9) (V c main_v10) (V c main_v11) (V c main_v12) (V c main_v13) (V c main_arg6) (V c main_v14) (V c main_arg15) (V c main_v15) (V c main_arg12) (V c main_v16) (V c main_arg14)

/-! ## What a grid point writes back

At point t the body leaves in each output buffer the payload of the input blocks at t; entry y of the buffer goes to
row 1600 t + y₀ of the array, and the input blocks' row y₀ is that same row of their arrays: the write-back is block t
of the whole-array function. -/

/-- Point t writes back block t of the message array. -/
theorem msg_flushed (t : Fin cfg0.N) :
    (edgeDat (F := Ideal) V c).flushed 15 t = ((cfg0.win 15).blk t).view.read (Elt Ideal) (msgArr V c) := by
  show (cfg0.win 15).cut (grid0.coords t) ((edgeDat (F := Ideal) V c).after 15 t) = _
  rw [edgeDat_after_15]
  obtain ⟨o0, o1⟩ := idx_w15 t
  funext y
  rw [View.read_apply]
  have hk0 : ((((cfg0.win 15).blk t).view.emb y) 0).val = 1600 * t.val + (y 0).val := by
    show win0_15.index t 0 * 1600 + 1 * (y 0).val = _; rw [o0]; omega
  have hk1 : ((((cfg0.win 15).blk t).view.emb y) 1).val = (y 1).val := by
    show win0_15.index t 1 * 128 + 1 * (y 1).val = _; rw [o1]; omega
  exact msgOut_eq_msgOf (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t)
    (V c main_v4) (V c main_v5) (V c main_v8) (V c main_v9) (V c main_v10) (V c main_v11) (V c main_v12) (V c main_v13) (V c main_arg6) (V c main_v14) (V c main_arg15) (V c main_v15)
    y (((cfg0.win 15).blk t).view.emb y)
    (funext fun k => srcBlk_apply V c t _ _ hk0 rfl) (funext fun k => tgtBlk_apply V c t _ _ hk0 rfl)
    (funext fun k => geoBlk_apply V c t _ _ hk0 rfl)
    (w1sBlk V c t) (w1tBlk V c t) (wradBlk V c t) (weaBlk V c t) (b1Blk V c t) (w2Blk V c t) (b2Blk V c t) (awBlk V c t) (abBlk V c t) hk1

/-- Point t writes back block t of the coordinate array. -/
theorem wd_flushed (t : Fin cfg0.N) :
    (edgeDat (F := Ideal) V c).flushed 16 t = ((cfg0.win 16).blk t).view.read (Elt Ideal) (wdArr V c) := by
  show (cfg0.win 16).cut (grid0.coords t) ((edgeDat (F := Ideal) V c).after 16 t) = _
  rw [edgeDat_after_16]
  obtain ⟨o0, o1⟩ := idx_w16 t
  funext y
  rw [View.read_apply]
  have hk0 : ((((cfg0.win 16).blk t).view.emb y) 0).val = 1600 * t.val + (y 0).val := by
    show win0_16.index t 0 * 1600 + 1 * (y 0).val = _; rw [o0]; omega
  have hk1 : ((((cfg0.win 16).blk t).view.emb y) 1).val = (y 1).val := by
    show win0_16.index t 1 * 3 + 1 * (y 1).val = _; rw [o1]; omega
  exact wdOut_eq_wdOf (edgeBlk V c 0 t) (edgeBlk V c 1 t) (edgeBlk V c 2 t) (edgeBlk V c 3 t) (edgeBlk V c 4 t) (edgeBlk V c 5 t) (edgeBlk V c 6 t) (edgeBlk V c 7 t) (edgeBlk V c 8 t) (edgeBlk V c 9 t) (edgeBlk V c 10 t) (edgeBlk V c 11 t) (edgeBlk V c 12 t) (edgeBlk V c 13 t) (edgeBlk V c 14 t)
    (V c main_v4) (V c main_v5) (V c main_v8) (V c main_v9) (V c main_v10) (V c main_v11) (V c main_v12) (V c main_v13) (V c main_arg6) (V c main_v14) (V c main_arg15) (V c main_v15) (V c main_arg12) (V c main_v16) (V c main_arg14)
    y (((cfg0.win 16).blk t).view.emb y)
    (funext fun k => srcBlk_apply V c t _ _ hk0 rfl) (funext fun k => tgtBlk_apply V c t _ _ hk0 rfl)
    (funext fun k => geoBlk_apply V c t _ _ hk0 rfl)
    (w1sBlk V c t) (w1tBlk V c t) (wradBlk V c t) (weaBlk V c t) (b1Blk V c t) (w2Blk V c t) (b2Blk V c t) (awBlk V c t) (abBlk V c t) (cw1Blk V c t) (cb1Blk V c t) (cw2Blk V c t) hk1

/-! ## The blocks tile the arrays

An index is in point t's block iff each coordinate is in the block's range on its axis; row r of an output array is in
the block of point r / 1600. -/

theorem mem_msgBlk (t : Fin cfg0.N) (i : S800000x128.Idx) :
    i ∈ ((cfg0.win 15).blk t).view.set ↔ ∀ a : Fin 2, win0_15.index t a * S1600x128.size a ≤ (i a).val ∧ (i a).val < win0_15.index t a * S1600x128.size a + S1600x128.size a := by
  show i ∈ ((View.whole main_v17_0).slice (win0_15.rect t)).set ↔ _
  rw [View.set_slice_whole, Rect.mem_set_unit]
  exact Iff.rfl

theorem mem_wdBlk (t : Fin cfg0.N) (i : S800000x3.Idx) :
    i ∈ ((cfg0.win 16).blk t).view.set ↔ ∀ a : Fin 2, win0_16.index t a * S1600x3.size a ≤ (i a).val ∧ (i a).val < win0_16.index t a * S1600x3.size a + S1600x3.size a := by
  show i ∈ ((View.whole main_v17_1).slice (win0_16.rect t)).set ↔ _
  rw [View.set_slice_whole, Rect.mem_set_unit]
  exact Iff.rfl

/-- Every index of the message array is in the block of the point its row divided by 1600 names. -/
theorem msg_cover (i : S800000x128.Idx) :
    ∃ t : Fin cfg0.N, (cfg0.win 15).flush t = true ∧ i ∈ ((cfg0.win 15).blk t).view.set := by
  have hi0 : (i 0).val < 800000 := (i 0).isLt
  have hi1 : (i 1).val < 128 := (i 1).isLt
  have hN : cfg0.N = 500 := N_0
  have ht : (i 0).val / 1600 < cfg0.N := by rw [hN]; omega
  obtain ⟨o0, o1⟩ := idx_w15 ⟨(i 0).val / 1600, ht⟩
  refine ⟨⟨(i 0).val / 1600, ht⟩, flush0_15 _, ?_⟩
  rw [mem_msgBlk]
  intro a
  match a with
  | ⟨0, _⟩ =>
    show win0_15.index ⟨(i 0).val / 1600, ht⟩ 0 * 1600 ≤ (i 0).val ∧ (i 0).val < win0_15.index ⟨(i 0).val / 1600, ht⟩ 0 * 1600 + 1600
    rw [o0]; show (i 0).val / 1600 * 1600 ≤ (i 0).val ∧ (i 0).val < (i 0).val / 1600 * 1600 + 1600; omega
  | ⟨1, _⟩ =>
    show win0_15.index ⟨(i 0).val / 1600, ht⟩ 1 * 128 ≤ (i 1).val ∧ (i 1).val < win0_15.index ⟨(i 0).val / 1600, ht⟩ 1 * 128 + 128
    rw [o1]; omega

/-- Every index of the coordinate array is in the block of the point its row divided by 1600 names. -/
theorem wd_cover (i : S800000x3.Idx) :
    ∃ t : Fin cfg0.N, (cfg0.win 16).flush t = true ∧ i ∈ ((cfg0.win 16).blk t).view.set := by
  have hi0 : (i 0).val < 800000 := (i 0).isLt
  have hi1 : (i 1).val < 3 := (i 1).isLt
  have hN : cfg0.N = 500 := N_0
  have ht : (i 0).val / 1600 < cfg0.N := by rw [hN]; omega
  obtain ⟨o0, o1⟩ := idx_w16 ⟨(i 0).val / 1600, ht⟩
  refine ⟨⟨(i 0).val / 1600, ht⟩, flush0_16 _, ?_⟩
  rw [mem_wdBlk]
  intro a
  match a with
  | ⟨0, _⟩ =>
    show win0_16.index ⟨(i 0).val / 1600, ht⟩ 0 * 1600 ≤ (i 0).val ∧ (i 0).val < win0_16.index ⟨(i 0).val / 1600, ht⟩ 0 * 1600 + 1600
    rw [o0]; show (i 0).val / 1600 * 1600 ≤ (i 0).val ∧ (i 0).val < (i 0).val / 1600 * 1600 + 1600; omega
  | ⟨1, _⟩ =>
    show win0_16.index ⟨(i 0).val / 1600, ht⟩ 1 * 3 ≤ (i 1).val ∧ (i 1).val < win0_16.index ⟨(i 0).val / 1600, ht⟩ 1 * 3 + 3
    rw [o1]; omega

/-! ## The arrays after the region -/

/-- The message array ends holding the gated messages. -/
theorem msg_final : (edgeDat (F := Ideal) V c).arrAt 15 cfg0.N = msgArr V c :=
  (edgeDat (F := Ideal) V c).arrAt_eq_of_cover 15 (msgArr V c) (fun t _ => msg_flushed V c t) msg_cover

/-- The coordinate array ends holding the weighted coordinate differences. -/
theorem wd_final : (edgeDat (F := Ideal) V c).arrAt 16 cfg0.N = wdArr V c :=
  (edgeDat (F := Ideal) V c).arrAt_eq_of_cover 16 (wdArr V c) (fun t _ => wd_flushed V c t) wd_cover

/-- Entry (e, j) of the message array after the region: feature j of edge e's gated message. -/
theorem edge_msg_at (e : Fin 800000) (j : Fin 128) :
    ((edgeDat (F := Ideal) V c).arrAt 15 cfg0.N : S800000x128.Idx → EReal) (ix2 e j)
      = Spec.mij (Spec.pre1K (cur2 (V c main_v4) e) (cur2 (V c main_v5) e) (cur2 (V c main_v8) e) (cur2 (V c main_v9)) (cur2 (V c main_v10)) (row0 (V c main_v11)) (row0 (V c main_v12)) (row0 (V c main_v13)))
          (cur2 (V c main_arg6)) (row0 (V c main_v14)) (col0 (V c main_arg15)) ((V c main_v15 : S1x1.Idx → EReal) (ix2 (0 : Fin 1) (0 : Fin 1))) j := by
  rw [msg_final]
  rfl

/-- Entry (e, d) of the coordinate array after the region: axis d of edge e's weighted coordinate difference. -/
theorem edge_wd_at (e : Fin 800000) (d : Fin 3) :
    ((edgeDat (F := Ideal) V c).arrAt 16 cfg0.N : S800000x3.Idx → EReal) (ix2 e d)
      = Spec.wd (Spec.pre1K (cur2 (V c main_v4) e) (cur2 (V c main_v5) e) (cur2 (V c main_v8) e) (cur2 (V c main_v9)) (cur2 (V c main_v10)) (row0 (V c main_v11)) (row0 (V c main_v12)) (row0 (V c main_v13)))
          (Spec.cdiffK (cur2 (V c main_v8) e)) (cur2 (V c main_arg6)) (row0 (V c main_v14)) (col0 (V c main_arg15)) ((V c main_v15 : S1x1.Idx → EReal) (ix2 (0 : Fin 1) (0 : Fin 1)))
          (cur2 (V c main_arg12)) (row0 (V c main_v16)) (col0 (V c main_arg14)) d := by
  rw [wd_final]
  rfl

end Cert.KernelIdeal.ArrE

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.LibNary3.lean ====
/-
  The result of a many-operand operation over a literal family of THREE buffers, with each operand's contents read at its
  own buffer: the operation's function applied to the three contents in order, instead of to "the contents of the k-th
  buffer of the family" under a binder. Stated for any valuation and any three operand buffers and result buffer.
-/
import Idealize.ShloMosaic.Lib.StableHlo.Run

namespace Idealize.ShloMosaic.StableHlo

open TcCoe

variable {τ : Topo} {sig : RefSig} {Val : EltTy → Type}
variable {x a b y : Ref sig .tc}

/-- After an operation over the three buffers x, a, b the result buffer holds the function of the three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.KernelIdeal.HostGather.lean ====
/-
  What the edge kernel's three large operand arrays hold when the first kernel region is entered.

  The program gathers, for every edge e of the edge list, the feature row of its source node and of its target node
  (two [E, 128] arrays), and the coordinates of both (two [E, 3] arrays); it then lays the two coordinate arrays and the
  [E, 1] edge attribute side by side as one [E, 7] array. Each of the four gathers is the same text: the index word is
  wrapped the numpy way (a negative word counts from the end of the table: 50000 is added), kept as an [E, 1] column,
  tested for lying in [0, 49999], and the table's rows are gathered at the column; where the test fails the row is
  replaced by a NaN row.

  Under the hypothesis that every word of the edge list lies in numpy's index range [-50000, 50000) the wrapped word
  is a position of the table, the test succeeds at every edge, and the gathered row is the table's row at the node
  the word names (Views.nodeOf). So the gathered arrays read, at (e, k), the table at (source or target node of e, k),
  and the [E, 7] array reads the source coordinates in columns 0..2, the target coordinates in columns 3..5, and the
  edge attribute in column 6.
-/
import proofs.«430614_j61916248539245_1_alg».proof.Proof.Gen.KernelIdeal.Regions
import proofs.«430614_j61916248539245_1_alg».proof.Proof.Views
import proofs.«430614_j61916248539245_1_alg».proof.Proof.LibRowGather
import proofs.«430614_j61916248539245_1_alg».proof.Proof.LibIndexWrap
import proofs.«430614_j61916248539245_1_alg».proof.Proof.LibNary3
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import Idealize.ShloMosaic.Lib.ReduceAll

-- telling two of the program's 184 buffers apart, and reading a buffer's type off its number, recurse once per buffer
set_option maxRecDepth 16384

noncomputable section

namespace Cert.KernelIdeal.HostGather

open Cert.KernelIdeal Cert.KernelIdeal.Gen
open Idealize.ShloMosaic Idealize.ShloMosaic.TcCoe Idealize.ShloMosaic.ValueIdx Cert.Views
open Idealize.ShloMosaic.IndexWrap Idealize.ShloMosaic.RowGather

/-! ## Bits: a conjunction over ones, and a signed compare that holds -/

/-- A left fold by "and" from 1 over a list whose every bit is 1 stays 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have h1 : IntOp.andi (1#1 : BitVec 1) (f a) = 1#1 := by rw [h a List.mem_cons_self]; decide
    rw [List.foldl_cons, h1]
    exact foldl_andi_ones f l fun n hn => h n (List.mem_cons_of_mem _ hn)

/-- A reduce by "and" from the constant 1 of an array of ones is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun i _ => hx i

/-- The signed compare "v >= k" is set when it holds of the signed values. -/
theorem sge_encode (v k : BitVec 32) (h : k.toInt ≤ v.toInt) : IntOp.cmpi .sge v k = 1#1 := by
  unfold IntOp.cmpi
  refine (StableHlo.Predicate.ofBool_eq_one_iff _).mpr ?_
  simpa [BitVec.sle] using h

/-- The signed compare "v <= k" is set when it holds of the signed values. -/
theorem sle_encode (v k : BitVec 32) (h : v.toInt ≤ k.toInt) : IntOp.cmpi .sle v k = 1#1 := by
  unfold IntOp.cmpi
  refine (StableHlo.Predicate.ofBool_eq_one_iff _).mpr ?_
  simpa [BitVec.sle] using h

/-! ## One take: rows of a 50000-row table at a vector of 800000 index words -/

/-- The index words wrapped the numpy way and kept as an [E, 1] column. -/
abbrev wrapCol (v : IVec S800000 32) : IVec S800000x1 32 :=
  broadcastInDim S800000x1 ![0] Gen.bcast_S800000_S800000x1_0
    (select (cmpi .slt v (broadcastInDim S800000 ![] Gen.bcast_S_S800000 (constantI S_ 32 0#32)))
      (addi v (broadcastInDim S800000 ![] Gen.bcast_S_S800000 (constantI S_ 32 50000#32))) v)

/-- The column at row e is the wrapped word of position e. -/
theorem wrapCol_apply (v : IVec S800000 32) (e : Fin 800000) :
    wrapCol v (ix2 e (0 : Fin 1)) = wrapWord 50000#32 (v (ix1 e)) :=
  (column_apply Gen.bcast_S800000_S800000x1_0 _ e).trans (wrapped_apply Gen.bcast_S_S800000 50000#32 v (ix1 e))

/-- The test that a column of words lies in [0, 49999], conjoined over the column's unit axis. -/
abbrev inMask (col : IVec S800000x1 32) : IVec S800000 1 :=
  Host.reduce IntOp.andi
    (andi (cmpi .sge col (broadcastInDim S800000x1 ![] Gen.bcast_S_S800000x1 (constantI S_ 32 0#32)))
      (cmpi .sle col (broadcastInDim S800000x1 ![0, 1] Gen.bcast_S1x1_S800000x1_0_1
        (broadcastInDim S1x1 ![1] Gen.bcast_S1_S1x1_1 (constantI S1 32 49999#32)))))
    (constantI S_ 1 1#1) Gen.reducesTo_S800000x1_S800000_d1 Gen.h_S_

/-- A column whose every word is a position of the table passes the test everywhere. -/
theorem inMask_one (col : IVec S800000x1 32)
    (hcol : ∀ p : Fin 800000, 0 ≤ (col (ix2 p (0 : Fin 1))).toInt ∧ (col (ix2 p (0 : Fin 1))).toInt < 50000)
    (j : S800000.Idx) : inMask col j = 1#1 := by
  refine reduce_andi_ones _ _ _ _ rfl (fun i => ?_) j
  -- an index of the column is (p, 0)
  have hi : i = ix2 (⟨(i 0).val, idx2_lt0 i⟩ : Fin 800000) (0 : Fin 1) := by
    funext d
    match d with
    | ⟨0, _⟩ => rfl
    | ⟨1, _⟩ => exact Fin.ext (by have := idx2_lt1 i; show (i 1).val = 0; omega)
  have hcol := hcol ⟨(i 0).val, idx2_lt0 i⟩
  rw [← hi] at hcol
  show IntOp.andi (IntOp.cmpi .sge (col i) 0#32) (IntOp.cmpi .sle (col i) 49999#32) = 1#1
  have h0 : (0#32 : BitVec 32).toInt = 0 := by decide
  have h1 : (49999#32 : BitVec 32).toInt = 49999 := by decide
  rw [sge_encode _ _ (by rw [h0]; exact hcol.1), sle_encode _ _ (by rw [h1]; have := hcol.2; omega)]
  decide

/-- A vector laid along the rows of an [n, C] rectangle reads, at (e, q), the vector at e. -/
theorem rows_apply {β : Type} {n C : Nat} (hm : (⟨1, ![n]⟩ : Shape).BroadcastsInDim ⟨2, ![n, C]⟩ ![0])
    (w : (⟨1, ![n]⟩ : Shape).Idx → β) (e : Fin n) (q : Fin C) :
    broadcastInDim ⟨2, ![n, C]⟩ ![0] hm w (ix2 e q) = w (ix1 e) := by
  refine broadcastInDim_apply _ hm w _ (ix1 e) fun a => ?_
  match a with
  | ⟨0, _⟩ =>
    show e.val = if n = 1 then 0 else e.val
    have := e.isLt
    split_ifs <;> omega

/-- The printed take: the table's rows gathered at the wrapped column, a NaN row where the test fails. -/
abbrev takeRows {C : Nat} {α : Type} (g : GatherDims ⟨2, ![50000, C]⟩ S800000x1 ⟨2, ![800000, C]⟩)
    (hm : S800000.BroadcastsInDim ⟨2, ![800000, C]⟩ ![0]) (hn : S_.BroadcastsInDim ⟨2, ![800000, C]⟩ ![])
    (nan : S_.Idx → α) (x : (⟨2, ![50000, C]⟩ : Shape).Idx → α) (v : IVec S800000 32) :
    (⟨2, ![800000, C]⟩ : Shape).Idx → α :=
  select (broadcastInDim ⟨2, ![800000, C]⟩ ![0] hm (inMask (wrapCol v)))
    (Host.gather g x (wrapCol v))
    (broadcastInDim ⟨2, ![800000, C]⟩ ![] hn nan)

/-- With every index word in numpy's range, the take reads at (e, q) the table at (the node word e names, q). -/
theorem takeRows_apply {C : Nat} {α : Type} (g : GatherDims ⟨2, ![50000, C]⟩ S800000x1 ⟨2, ![800000, C]⟩)
    (wf : GatherDims.WF ⟨2, ![50000, C]⟩ ⟨2, ![800000, 1]⟩ ⟨2, ![800000, C]⟩ [1] [0] [] [0] [] 1 ![1, C])
    (hg : g = rowDims 50000 C 800000 wf)
    (hm : S800000.BroadcastsInDim ⟨2, ![800000, C]⟩ ![0]) (hn : S_.BroadcastsInDim ⟨2, ![800000, C]⟩ ![])
    (nan : S_.Idx → α) (x : (⟨2, ![50000, C]⟩ : Shape).Idx → α) (v : IVec S800000 32)
    (hv : ∀ e : Fin 800000, -50000 ≤ (v (ix1 e)).toInt ∧ (v (ix1 e)).toInt < 50000)
    (e : Fin 800000) (q : Fin C) :
    takeRows g hm hn nan x v (ix2 e q) = x (ix2 (nodeOf (v (ix1 e))) q) := by
  -- every word of the column is a position of the table
  have hcol : ∀ p : Fin 800000, 0 ≤ (wrapCol v (ix2 p (0 : Fin 1))).toInt ∧ (wrapCol v (ix2 p (0 : Fin 1))).toInt < 50000 := by
    intro p
    rw [wrapCol_apply]
    exact wrap_inrange _ (hv p)
  -- so the test succeeds at edge e, and the select takes the gathered row
  have hb : broadcastInDim ⟨2, ![800000, C]⟩ ![0] hm (inMask (wrapCol v)) (ix2 e q) = inMask (wrapCol v) (ix1 e) :=
    rows_apply hm _ e q
  show Scalar.select (broadcastInDim ⟨2, ![800000, C]⟩ ![0] hm (inMask (wrapCol v)) (ix2 e q))
    (Host.gather g x (wrapCol v) (ix2 e q)) (broadcastInDim ⟨2, ![800000, C]⟩ ![] hn nan (ix2 e q)) = _
  rw [hb, inMask_one _ hcol, select_one]
  -- the gathered row is the table's at the clamped wrapped word: the node the word names
  subst hg
  rw [rowGather_apply (by decide) wf x (wrapCol v) e q]
  refine congrArg (fun r => x (ix2 r q)) (Fin.ext ?_)
  show min (wrapCol v (ix2 e (0 : Fin 1))).toInt.toNat (50000 - 1)
    = min (wrapWord 50000#32 (v (ix1 e))).toInt.toNat (50000 - 1)
  rw [wrapCol_apply]

/-! ## Three arrays side by side: [n, 3], [n, 3] and [n, 1] joined along the columns -/

/-- Columns 0..2 of the joined array are the first piece's. -/
theorem join331_fst {α : Type} {n : Nat} (x0 x1 : (⟨2, ![n, 3]⟩ : Shape).Idx → α) (x2 : (⟨2, ![n, 1]⟩ : Shape).Idx → α)
    (h : Shape.Concatenates [(⟨2, ![n, 3]⟩ : Shape), ⟨2, ![n, 3]⟩, ⟨2, ![n, 1]⟩] ⟨2, ![n, 7]⟩ 1) (e : Fin n) (d : Fin 3)
    (hd : d.val < 7) :
    concatenate (⟨2, ![n, 7]⟩ : Shape) 1 [⟨⟨2, ![n, 3]⟩, x0⟩, ⟨⟨2, ![n, 3]⟩, x1⟩, ⟨⟨2, ![n, 1]⟩, x2⟩] h (ix2 e ⟨d.val, hd⟩)
      = x0 (ix2 e d) :=
  concatenate_apply_piece (t := ⟨2, ![n, 7]⟩) (1 : Fin 2) [⟨⟨2, ![n, 3]⟩, x0⟩, ⟨⟨2, ![n, 3]⟩, x1⟩, ⟨⟨2, ![n, 1]⟩, x2⟩] h
    (ix2 e ⟨d.val, hd⟩) 0 (show 0 < 3 by omega) ⟨2, ![n, 3]⟩ x0 rfl rfl 0 rfl (ix2 e d)
    (fun b hb => match b with
      | ⟨0, _⟩ => rfl
      | ⟨1, _⟩ => absurd rfl hb)
    (Nat.zero_add _)

/-- Columns 3..5 are the second piece's. -/
theorem join331_snd {α : Type} {n : Nat} (x0 x1 : (⟨2, ![n, 3]⟩ : Shape).Idx → α) (x2 : (⟨2, ![n, 1]⟩ : Shape).Idx → α)
    (h : Shape.Concatenates [(⟨2, ![n, 3]⟩ : Shape), ⟨2, ![n, 3]⟩, ⟨2, ![n, 1]⟩] ⟨2, ![n, 7]⟩ 1) (e : Fin n) (d : Fin 3)
    (hd : d.val + 3 < 7) :
    concatenate (⟨2, ![n, 7]⟩ : Shape) 1 [⟨⟨2, ![n, 3]⟩, x0⟩, ⟨⟨2, ![n, 3]⟩, x1⟩, ⟨⟨2, ![n, 1]⟩, x2⟩] h (ix2 e ⟨d.val + 3, hd⟩)
      = x1 (ix2 e d) :=
  concatenate_apply_piece (t := ⟨2, ![n, 7]⟩) (1 : Fin 2) [⟨⟨2, ![n, 3]⟩, x0⟩, ⟨⟨2, ![n, 3]⟩, x1⟩, ⟨⟨2, ![n, 1]⟩, x2⟩] h
    (ix2 e ⟨d.val + 3, hd⟩) 1 (show 1 < 3 by omega) ⟨2, ![n, 3]⟩ x1 rfl rfl 3 rfl (ix2 e d)
    (fun b hb => match b with
      | ⟨0, _⟩ => rfl
      | ⟨1, _⟩ => absurd rfl hb)
    (Nat.add_comm _ _)

/-- Column 6 is the third piece's one column. -/
theorem join331_trd {α : Type} {n : Nat} (x0 x1 : (⟨2, ![n, 3]⟩ : Shape).Idx → α) (x2 : (⟨2, ![n, 1]⟩ : Shape).Idx → α)
    (h : Shape.Concatenates [(⟨2, ![n, 3]⟩ : Shape), ⟨2, ![n, 3]⟩, ⟨2, ![n, 1]⟩] ⟨2, ![n, 7]⟩ 1) (e : Fin n)
    (h6 : 6 < 7) :
    concatenate (⟨2, ![n, 7]⟩ : Shape) 1 [⟨⟨2, ![n, 3]⟩, x0⟩, ⟨⟨2, ![n, 3]⟩, x1⟩, ⟨⟨2, ![n, 1]⟩, x2⟩] h (ix2 e ⟨6, h6⟩)
      = x2 (ix2 e (0 : Fin 1)) :=
  concatenate_apply_piece (t := ⟨2, ![n, 7]⟩) (1 : Fin 2) [⟨⟨2, ![n, 3]⟩, x0⟩, ⟨⟨2, ![n, 3]⟩, x1⟩, ⟨⟨2, ![n, 1]⟩, x2⟩] h
    (ix2 e ⟨6, h6⟩) 2 (show 2 < 3 by omega) ⟨2, ![n, 1]⟩ x2 rfl rfl 6 rfl (ix2 e (0 : Fin 1))
    (fun b hb => match b with
      | ⟨0, _⟩ => rfl
      | ⟨1, _⟩ => absurd rfl hb)
    rfl

/-! ## The host stretches, over any contents on entry -/

section Stretches

variable (W : Valuation τ sig (Elt Ideal))

/-- Row 0 of the edge list as a vector: a slice and a reshape. -/
theorem row0_at (e : Fin 800000) :
    (StableHlo.after hostOps0 W (Proc.devRef .tc main_v1) : IVec S800000 32) (ix1 e)
      = (W (Proc.devRef .tc main_arg2) : IVec S2x800000 32) (ix2 (0 : Fin 2) e) := by
  have h : (StableHlo.after hostOps0 W (Proc.devRef .tc main_v1) : IVec S800000 32)
      = shapeCast S800000 (extractStridedSlice S1x800000 ![0, 0] (W (Proc.devRef .tc main_arg2) : IVec S2x800000 32)
          Gen.slices_S2x800000_S1x800000_0_0) Gen.shapeCasts_S1x800000_S800000 := by
    after_results; rfl
  exact (congrFun h (ix1 e)).trans ((shapeCast_1a_a_apply _ _ e).trans
    (slice2_axis0_apply 0 _ Gen.slices_S2x800000_S1x800000_0_0 (0 : Fin 1) e (0 : Fin 2) rfl))

/-- Row 1 of the edge list as a vector. -/
theorem row1_at (e : Fin 800000) :
    (StableHlo.after hostOps0 W (Proc.devRef .tc main_v3) : IVec S800000 32) (ix1 e)
      = (W (Proc.devRef .tc main_arg2) : IVec S2x800000 32) (ix2 (1 : Fin 2) e) := by
  have h : (StableHlo.after hostOps0 W (Proc.devRef .tc main_v3) : IVec S800000 32)
      = shapeCast S800000 (extractStridedSlice S1x800000 ![1, 0] (W (Proc.devRef .tc main_arg2) : IVec S2x800000 32)
          Gen.slices_S2x800000_S1x800000_1_0) Gen.shapeCasts_S1x800000_S800000 := by
    after_results; rfl
  exact (congrFun h (ix1 e)).trans ((shapeCast_1a_a_apply _ _ e).trans
    (slice2_axis0_apply 1 _ Gen.slices_S2x800000_S1x800000_1_0 (0 : Fin 1) e (1 : Fin 2) rfl))

end Stretches

/-! ## The four takes and the join, over any contents on entry -/

/-- Contents written through a typed reference and read back through it are unchanged. -/
theorem ofBuf_toBuf {sg : RefSig} {T : BufTy} {Val : EltTy → Type} (x : StableHlo.TRef sg T) (v : T.Contents Val) :
    x.ofBuf (x.toBuf v) = v := by
  unfold StableHlo.TRef.ofBuf StableHlo.TRef.toBuf
  rw [cast_cast, cast_eq]

section Takes

variable [Cert.KernelIdeal.Facts]
variable (W : Valuation τ sig (Elt Ideal))

/-- The NaN scalar the takes fill rejected rows with. -/
abbrev nanS : S_.Idx → EReal := constant (F := Ideal) S_ .f32 0x7FC00000#32

/-- The node features, the coordinates, and the two index vectors, read at their literal types. -/
abbrev featOf : S50000x128.Idx → EReal :=
  (StableHlo.TRef.of main_arg0 : StableHlo.TRef sig ⟨S50000x128, .f32⟩).ofBuf (W (Proc.devRef .tc main_arg0))
abbrev posOf : S50000x3.Idx → EReal :=
  (StableHlo.TRef.of main_arg1 : StableHlo.TRef sig ⟨S50000x3, .f32⟩).ofBuf (W (Proc.devRef .tc main_arg1))
abbrev vec1Of : IVec S800000 32 :=
  (StableHlo.TRef.of main_v1 : StableHlo.TRef sig ⟨S800000, .i32⟩).ofBuf (W (Proc.devRef .tc main_v1))
abbrev vec3Of : IVec S800000 32 :=
  (StableHlo.TRef.of main_v3 : StableHlo.TRef sig ⟨S800000, .i32⟩).ofBuf (W (Proc.devRef .tc main_v3))

theorem featOf_eq : featOf W = (W (Proc.devRef .tc main_arg0) : S50000x128.Idx → EReal) := rfl
theorem posOf_eq : posOf W = (W (Proc.devRef .tc main_arg1) : S50000x3.Idx → EReal) := rfl
theorem vec1Of_eq : vec1Of W = (W (Proc.devRef .tc main_v1) : IVec S800000 32) := rfl
theorem vec3Of_eq : vec3Of W = (W (Proc.devRef .tc main_v3) : IVec S800000 32) := rfl

/-- Contents written through the typed reference of a take's result are the contents. -/
theorem toBuf_v4 (t : S800000x128.Idx → EReal) :
    ((StableHlo.TRef.of main_v4 : StableHlo.TRef sig ⟨S800000x128, .f32⟩).toBuf (Val := Elt Ideal) t
      : S800000x128.Idx → EReal) = t := rfl
theorem toBuf_v5 (t : S800000x128.Idx → EReal) :
    ((StableHlo.TRef.of main_v5 : StableHlo.TRef sig ⟨S800000x128, .f32⟩).toBuf (Val := Elt Ideal) t
      : S800000x128.Idx → EReal) = t := rfl
theorem toBuf_v6 (t : S800000x3.Idx → EReal) :
    ((StableHlo.TRef.of main_v6 : StableHlo.TRef sig ⟨S800000x3, .f32⟩).toBuf (Val := Elt Ideal) t
      : S800000x3.Idx → EReal) = t := rfl
theorem toBuf_v7 (t : S800000x3.Idx → EReal) :
    ((StableHlo.TRef.of main_v7 : StableHlo.TRef sig ⟨S800000x3, .f32⟩).toBuf (Val := Elt Ideal) t
      : S800000x3.Idx → EReal) = t := rfl

/-- The first take: rows of the node features at the words of the first index vector. -/
theorem take0_after :
    StableHlo.after hostOps0_1 W (Proc.devRef .tc main_v4)
      = (StableHlo.TRef.of main_v4 : StableHlo.TRef sig ⟨S800000x128, .f32⟩).toBuf
          (takeRows gather_S50000x128_S800000x1_S800000x128_1_0_n_n_0_1_1128 Gen.bcast_S800000_S800000x128_0
            Gen.bcast_S_S800000x128 nanS (featOf W) (vec1Of W)) := by
  after_results_simp
  simp only [ofBuf_toBuf]

/-- The second take: rows of the node features at the words of the second index vector. -/
theorem take1_after :
    StableHlo.after hostOps0_2 W (Proc.devRef .tc main_v5)
      = (StableHlo.TRef.of main_v5 : StableHlo.TRef sig ⟨S800000x128, .f32⟩).toBuf
          (takeRows gather_S50000x128_S800000x1_S800000x128_1_0_n_n_0_1_1128 Gen.bcast_S800000_S800000x128_0
            Gen.bcast_S_S800000x128 nanS (featOf W) (vec3Of W)) := by
  after_results_simp
  simp only [ofBuf_toBuf]

/-- The third take: rows of the coordinates at the words of the first index vector. -/
theorem take2_after :
    StableHlo.after hostOps0_3 W (Proc.devRef .tc main_v6)
      = (StableHlo.TRef.of main_v6 : StableHlo.TRef sig ⟨S800000x3, .f32⟩).toBuf
          (takeRows gather_S50000x3_S800000x1_S800000x3_1_0_n_n_0_1_13 Gen.bcast_S800000_S800000x3_0
            Gen.bcast_S_S800000x3 nanS (posOf W) (vec1Of W)) := by
  after_results_simp
  simp only [ofBuf_toBuf]

/-- The fourth take: rows of the coordinates at the words of the second index vector. -/
theorem take3_after :
    StableHlo.after hostOps0_4 W (Proc.devRef .tc main_v7)
      = (StableHlo.TRef.of main_v7 : StableHlo.TRef sig ⟨S800000x3, .f32⟩).toBuf
          (takeRows gather_S50000x3_S800000x1_S800000x3_1_0_n_n_0_1_13 Gen.bcast_S800000_S800000x3_0
            Gen.bcast_S_S800000x3 nanS (posOf W) (vec3Of W)) := by
  after_results_simp
  simp only [ofBuf_toBuf]

/-- The geometry array: the two coordinate takes and the edge attribute side by side. -/
theorem geom_after :
    (StableHlo.after hostOps0_5 W (Proc.devRef .tc main_v8) : S800000x7.Idx → EReal)
      = concatenate S800000x7 1 [⟨S800000x3, (W (Proc.devRef .tc main_v6) : S800000x3.Idx → EReal)⟩,
          ⟨S800000x3, (W (Proc.devRef .tc main_v7) : S800000x3.Idx → EReal)⟩,
          ⟨S800000x1, (W (Proc.devRef .tc main_arg3) : S800000x1.Idx → EReal)⟩]
          Gen.concatenates_S800000x3_S800000x3_S800000x1_S800000x7_d1 := by
  after_results; rfl

/-- The four takes read at an index, given that the index vector's words lie in numpy's range. -/
theorem take0_at (hv : ∀ e : Fin 800000, -50000 ≤ (vec1Of W (ix1 e)).toInt ∧ (vec1Of W (ix1 e)).toInt < 50000)
    (e : Fin 800000) (k : Fin 128) :
    (StableHlo.after hostOps0_1 W (Proc.devRef .tc main_v4) : S800000x128.Idx → EReal) (ix2 e k)
      = featOf W (ix2 (nodeOf (vec1Of W (ix1 e))) k) := by
  have h : (StableHlo.after hostOps0_1 W (Proc.devRef .tc main_v4) : S800000x128.Idx → EReal)
      = takeRows gather_S50000x128_S800000x1_S800000x128_1_0_n_n_0_1_1128 Gen.bcast_S800000_S800000x128_0
          Gen.bcast_S_S800000x128 nanS (featOf W) (vec1Of W) := (take0_after W).trans (toBuf_v4 _)
  refine (congrFun h (ix2 e k)).trans ?_
  exact takeRows_apply _ Gen.gather_S50000x128_S800000x1_S800000x128_1_0_n_n_0_1_1128_wf rfl _ _ _ _ _ hv e k

theorem take1_at (hv : ∀ e : Fin 800000, -50000 ≤ (vec3Of W (ix1 e)).toInt ∧ (vec3Of W (ix1 e)).toInt < 50000)
    (e : Fin 800000) (k : Fin 128) :
    (StableHlo.after hostOps0_2 W (Proc.devRef .tc main_v5) : S800000x128.Idx → EReal) (ix2 e k)
      = featOf W (ix2 (nodeOf (vec3Of W (ix1 e))) k) := by
  have h : (StableHlo.after hostOps0_2 W (Proc.devRef .tc main_v5) : S800000x128.Idx → EReal)
      = takeRows gather_S50000x128_S800000x1_S800000x128_1_0_n_n_0_1_1128 Gen.bcast_S800000_S800000x128_0
          Gen.bcast_S_S800000x128 nanS (featOf W) (vec3Of W) := (take1_after W).trans (toBuf_v5 _)
  refine (congrFun h (ix2 e k)).trans ?_
  exact takeRows_apply _ Gen.gather_S50000x128_S800000x1_S800000x128_1_0_n_n_0_1_1128_wf rfl _ _ _ _ _ hv e k

theorem take2_at (hv : ∀ e : Fin 800000, -50000 ≤ (vec1Of W (ix1 e)).toInt ∧ (vec1Of W (ix1 e)).toInt < 50000)
    (e : Fin 800000) (d : Fin 3) :
    (StableHlo.after hostOps0_3 W (Proc.devRef .tc main_v6) : S800000x3.Idx → EReal) (ix2 e d)
      = posOf W (ix2 (nodeOf (vec1Of W (ix1 e))) d) := by
  have h : (StableHlo.after hostOps0_3 W (Proc.devRef .tc main_v6) : S800000x3.Idx → EReal)
      = takeRows gather_S50000x3_S800000x1_S800000x3_1_0_n_n_0_1_13 Gen.bcast_S800000_S800000x3_0
          Gen.bcast_S_S800000x3 nanS (posOf W) (vec1Of W) := (take2_after W).trans (toBuf_v6 _)
  refine (congrFun h (ix2 e d)).trans ?_
  exact takeRows_apply _ Gen.gather_S50000x3_S800000x1_S800000x3_1_0_n_n_0_1_13_wf rfl _ _ _ _ _ hv e d

theorem take3_at (hv : ∀ e : Fin 800000, -50000 ≤ (vec3Of W (ix1 e)).toInt ∧ (vec3Of W (ix1 e)).toInt < 50000)
    (e : Fin 800000) (d : Fin 3) :
    (StableHlo.after hostOps0_4 W (Proc.devRef .tc main_v7) : S800000x3.Idx → EReal) (ix2 e d)
      = posOf W (ix2 (nodeOf (vec3Of W (ix1 e))) d) := by
  have h : (StableHlo.after hostOps0_4 W (Proc.devRef .tc main_v7) : S800000x3.Idx → EReal)
      = takeRows gather_S50000x3_S800000x1_S800000x3_1_0_n_n_0_1_13 Gen.bcast_S800000_S800000x3_0
          Gen.bcast_S_S800000x3 nanS (posOf W) (vec3Of W) := (take3_after W).trans (toBuf_v7 _)
  refine (congrFun h (ix2 e d)).trans ?_
  exact takeRows_apply _ Gen.gather_S50000x3_S800000x1_S800000x3_1_0_n_n_0_1_13_wf rfl _ _ _ _ _ hv e d

end Takes

/-! ## On entry to the first region -/

section Entry

variable (m : (ℓ : Loc nD τ sig) → Buf (Elt Ideal) ℓ) (c : Dev nD)
variable [Cert.KernelIdeal.Facts]

/-- The two index vectors are the edge list's rows, and no later stretch writes them. -/
theorem V1_v1_at (e : Fin 800000) :
    (V1 m c main_v1 : IVec S800000 32) (ix1 e)
      = (m ((c : Thread nD τ).loc main_arg2) : S2x800000.Idx → BitVec 32) (ix2 (0 : Fin 2) e) :=
  row0_at (V0 m c) e
theorem V1_v3_at (e : Fin 800000) :
    (V1 m c main_v3 : IVec S800000 32) (ix1 e)
      = (m ((c : Thread nD τ).loc main_arg2) : S2x800000.Idx → BitVec 32) (ix2 (1 : Fin 2) e) :=
  row1_at (V0 m c) e

theorem V2_v3 : V2 m c main_v3 = V1 m c main_v3 := V2_of m c main_v3 (by decide)
theorem V3_v1 : V3 m c main_v1 = V1 m c main_v1 :=
  (V3_of m c main_v1 (by decide)).trans (V2_of m c main_v1 (by decide))
theorem V4_v3 : V4 m c main_v3 = V1 m c main_v3 :=
  (V4_of m c main_v3 (by decide)).trans <| (V3_of m c main_v3 (by decide)).trans (V2_of m c main_v3 (by decide))

/-- The launch arguments the takes and the join read reach them as launched. -/
theorem V1_arg0 : V1 m c main_arg0 = m ((c : Thread nD τ).loc main_arg0) := (V1_of m c main_arg0 (by decide)).trans rfl
theorem V2_arg0 : V2 m c main_arg0 = m ((c : Thread nD τ).loc main_arg0) :=
  (V2_of m c main_arg0 (by decide)).trans (V1_arg0 m c)
theorem V3_arg1 : V3 m c main_arg1 = m ((c : Thread nD τ).loc main_arg1) :=
  (V3_of m c main_arg1 (by decide)).trans <| (V2_of m c main_arg1 (by decide)).trans <|
    (V1_of m c main_arg1 (by decide)).trans rfl
theorem V4_arg1 : V4 m c main_arg1 = m ((c : Thread nD τ).loc main_arg1) :=
  (V4_of m c main_arg1 (by decide)).trans (V3_arg1 m c)
theorem V5_arg3 : V5 m c main_arg3 = m ((c : Thread nD τ).loc main_arg3) :=
  (V5_of m c main_arg3 (by decide)).trans <| (V4_of m c main_arg3 (by decide)).trans <|
    (V3_of m c main_arg3 (by decide)).trans <| (V2_of m c main_arg3 (by decide)).trans <|
      (V1_of m c main_arg3 (by decide)).trans rfl

/-- Column 6 of the geometry array is the edge attribute. -/
theorem geom_attr (e : Fin 800000) :
    (V6 m c main_v8 : S800000x7.Idx → EReal) (ix2 e ⟨6, by omega⟩)
      = (m ((c : Thread nD τ).loc main_arg3) : S800000x1.Idx → EReal) (ix2 e (0 : Fin 1)) := by
  refine (congrFun (geom_after (V5 m c)) _).trans ((join331_trd _ _ _ _ e _).trans ?_)
  exact congrFun (V5_arg3 m c) (ix2 e (0 : Fin 1))

variable (hrange : ∀ (s : Fin 2) (e : Fin 800000),
  -50000 ≤ ((m ((c : Thread nD τ).loc main_arg2) : S2x800000.Idx → BitVec 32) (ix2 s e)).toInt
    ∧ ((m ((c : Thread nD τ).loc main_arg2) : S2x800000.Idx → BitVec 32) (ix2 s e)).toInt < 50000)
include hrange

/-- The gathered source rows: at (e, k), the node features at (source node of e, k). -/
theorem hrow_at (e : Fin 800000) (k : Fin 128) :
    (V6 m c main_v4 : S800000x128.Idx → EReal) (ix2 e k)
      = (m ((c : Thread nD τ).loc main_arg0) : S50000x128.Idx → EReal)
          (ix2 (srcOf (m ((c : Thread nD τ).loc main_arg2)) e) k) := by
  have h6 : (V6 m c main_v4 : S800000x128.Idx → EReal) = V2 m c main_v4 :=
    (V6_of m c main_v4 (by decide)).trans <| (V5_of m c main_v4 (by decide)).trans <|
      (V4_of m c main_v4 (by decide)).trans (V3_of m c main_v4 (by decide))
  have hv : ∀ e : Fin 800000, vec1Of (V1 m c) (ix1 e)
      = (m ((c : Thread nD τ).loc main_arg2) : S2x800000.Idx → BitVec 32) (ix2 (0 : Fin 2) e) :=
    fun e => (congrFun (vec1Of_eq (V1 m c)) (ix1 e)).trans (V1_v1_at m c e)
  refine (congrFun h6 (ix2 e k)).trans ((take0_at (V1 m c) (fun e => by rw [hv e]; exact hrange 0 e) e k).trans ?_)
  rw [hv e, featOf_eq, V1_arg0]
  rfl

/-- The gathered target rows: at (e, k), the node features at (target node of e, k). -/
theorem hcol_at (e : Fin 800000) (k : Fin 128) :
    (V6 m c main_v5 : S800000x128.Idx → EReal) (ix2 e k)
      = (m ((c : Thread nD τ).loc main_arg0) : S50000x128.Idx → EReal)
          (ix2 (tgtOf (m ((c : Thread nD τ).loc main_arg2)) e) k) := by
  have h6 : (V6 m c main_v5 : S800000x128.Idx → EReal) = V3 m c main_v5 :=
    (V6_of m c main_v5 (by decide)).trans <| (V5_of m c main_v5 (by decide)).trans (V4_of m c main_v5 (by decide))
  have hv : ∀ e : Fin 800000, vec3Of (V2 m c) (ix1 e)
      = (m ((c : Thread nD τ).loc main_arg2) : S2x800000.Idx → BitVec 32) (ix2 (1 : Fin 2) e) :=
    fun e => (congrFun ((vec3Of_eq (V2 m c)).trans (V2_v3 m c)) (ix1 e)).trans (V1_v3_at m c e)
  refine (congrFun h6 (ix2 e k)).trans ((take1_at (V2 m c) (fun e => by rw [hv e]; exact hrange 1 e) e k).trans ?_)
  rw [hv e, featOf_eq, V2_arg0]
  rfl

/-- Columns 0..2 of the geometry array: the coordinates of the source node. -/
theorem geom_src (e : Fin 800000) (d : Fin 3) :
    (V6 m c main_v8 : S800000x7.Idx → EReal) (ix2 e ⟨d.val, by omega⟩)
      = (m ((c : Thread nD τ).loc main_arg1) : S50000x3.Idx → EReal)
          (ix2 (srcOf (m ((c : Thread nD τ).loc main_arg2)) e) d) := by
  have h5 : (V5 m c main_v6 : S800000x3.Idx → EReal) = V4 m c main_v6 := V5_of m c main_v6 (by decide)
  have hv : ∀ e : Fin 800000, vec1Of (V3 m c) (ix1 e)
      = (m ((c : Thread nD τ).loc main_arg2) : S2x800000.Idx → BitVec 32) (ix2 (0 : Fin 2) e) :=
    fun e => (congrFun ((vec1Of_eq (V3 m c)).trans (V3_v1 m c)) (ix1 e)).trans (V1_v1_at m c e)
  refine (congrFun (geom_after (V5 m c)) _).trans ((join331_fst _ _ _ _ e d _).trans ?_)
  refine (congrFun h5 (ix2 e d)).trans ((take2_at (V3 m c) (fun e => by rw [hv e]; exact hrange 0 e) e d).trans ?_)
  rw [hv e, posOf_eq, V3_arg1]
  rfl

/-- Columns 3..5 of the geometry array: the coordinates of the target node. -/
theorem geom_tgt (e : Fin 800000) (d : Fin 3) :
    (V6 m c main_v8 : S800000x7.Idx → EReal) (ix2 e ⟨d.val + 3, by omega⟩)
      = (m ((c : Thread nD τ).loc main_arg1) : S50000x3.Idx → EReal)
          (ix2 (tgtOf (m ((c : Thread nD τ).loc main_arg2)) e) d) := by
  have hv : ∀ e : Fin 800000, vec3Of (V4 m c) (ix1 e)
      = (m ((c : Thread nD τ).loc main_arg2) : S2x800000.Idx → BitVec 32) (ix2 (1 : Fin 2) e) :=
    fun e => (congrFun ((vec3Of_eq (V4 m c)).trans (V4_v3 m c)) (ix1 e)).trans (V1_v3_at m c e)
  refine (congrFun (geom_after (V5 m c)) _).trans ((join331_snd _ _ _ _ e d _).trans ?_)
  refine (take3_at (V4 m c) (fun e => by rw [hv e]; exact hrange 1 e) e d).trans ?_
  rw [hv e, posOf_eq, V4_arg1]
  rfl

end Entry

end Cert.KernelIdeal.HostGather

end
-- ==== Proof.KernelEdge.lean ====
/-
  What the edge region leaves in its two output arrays, read at an index at the ideal instance, in the reference's
  arrangement: the blocks are the edge perceptrons of the region's operand rows; the operands are the feature rows of
  the edge's two nodes (the host's gathers, whose in-range mask is set on every edge because every index word lies in
  the index range of the 50000-row tables), the geometry row of the two nodes' coordinates and the edge attribute, the
  four row blocks of the stacked first weight matrix, and the reshaped biases; the four block products are the one
  product over the 258 concatenated columns.
-/
import proofs.«430614_j61916248539245_1_alg».proof.Proof.KernelNode
import proofs.«430614_j61916248539245_1_alg».proof.Proof.KernelIdeal.ArrEdge
import proofs.«430614_j61916248539245_1_alg».proof.Proof.KernelIdeal.HostGather

noncomputable section

namespace Cert.KernelIdeal.Value

open Cert.KernelIdeal Cert.KernelIdeal.Gen Cert.KernelIdeal.Hand
open Idealize.ShloMosaic Idealize.ShloMosaic.TcCoe Idealize.ShloMosaic.ValueIdx Cert.Views

variable [Cert.KernelIdeal.Facts] [Cert.ReferenceIdeal.Facts]
variable (m : (ℓ : Loc nD τ sig) → Buf (Elt Ideal) ℓ) (c : Dev nD)

/-- The argument arrays, each at its literal type. -/
abbrev hA : S50000x128.Idx → EReal := arg m c main_arg0
abbrev xA : S50000x3.Idx → EReal := arg m c main_arg1
abbrev eiA : S2x800000.Idx → BitVec 32 := arg m c main_arg2
abbrev eaA : S800000x1.Idx → EReal := arg m c main_arg3
abbrev w1A : S258x128.Idx → EReal := arg m c main_arg4
abbrev b1A : S128.Idx → EReal := arg m c main_arg5
abbrev w2A : S128x128.Idx → EReal := arg m c main_arg6
abbrev b2A : S128.Idx → EReal := arg m c main_arg7
abbrev cw1A : S128x128.Idx → EReal := arg m c main_arg12
abbrev cb1A : S128.Idx → EReal := arg m c main_arg13
abbrev cw2A : S128x1.Idx → EReal := arg m c main_arg14
abbrev awA : S128x1.Idx → EReal := arg m c main_arg15
abbrev abA : S1.Idx → EReal := arg m c main_arg16
/-- The edge region's operand arrays as it finds them, each at its literal type. -/
abbrev o4 : S800000x128.Idx → EReal := V6 m c main_v4
abbrev o5 : S800000x128.Idx → EReal := V6 m c main_v5
abbrev o8 : S800000x7.Idx → EReal := V6 m c main_v8
abbrev o9 : S128x128.Idx → EReal := V6 m c main_v9
abbrev o10 : S128x128.Idx → EReal := V6 m c main_v10
abbrev o11 : S1x128.Idx → EReal := V6 m c main_v11
abbrev o12 : S1x128.Idx → EReal := V6 m c main_v12
abbrev o13 : S1x128.Idx → EReal := V6 m c main_v13
abbrev o14 : S1x128.Idx → EReal := V6 m c main_v14
abbrev o15 : S1x1.Idx → EReal := V6 m c main_v15
abbrev o16 : S1x128.Idx → EReal := V6 m c main_v16
abbrev oW2 : S128x128.Idx → EReal := V6 m c main_arg6
abbrev oAw : S128x1.Idx → EReal := V6 m c main_arg15
abbrev oCw1 : S128x128.Idx → EReal := V6 m c main_arg12
abbrev oCw2 : S128x1.Idx → EReal := V6 m c main_arg14

/-- The source and target feature rows, the coordinate difference and the first pre-activation row of edge e, from the
    argument arrays. -/
abbrev hsA (e : Fin 800000) : Fin 128 → EReal := cur2 (hA m c) (srcOf (eiA m c) e)
abbrev htA (e : Fin 800000) : Fin 128 → EReal := cur2 (hA m c) (tgtOf (eiA m c) e)
abbrev cdA (e : Fin 800000) : Fin 3 → EReal := fun d =>
  cur2 (xA m c) (srcOf (eiA m c) e) d
    - cur2 (xA m c) (tgtOf (eiA m c) e) d
abbrev p1A (e : Fin 800000) : Fin 128 → EReal :=
  Spec.pre1R (hsA m c e) (htA m c e) (Spec.radial (cdA m c e)) (col0 (eaA m c) e)
    (cur2 (w1A m c)) (cur1 (b1A m c))

/-- Every index word of the edge list lies in numpy's index range of the 50000-row tables. -/
def InRange : Prop := ∀ (s : Fin 2) (e : Fin 800000),
  -50000 ≤ ((eiA m c) (ix2 s e)).toInt
    ∧ ((eiA m c) (ix2 s e)).toInt < 50000

variable (hrange : InRange m c)
include hrange

/-- The edge region's operands, as functions of the arguments. -/
theorem op_hs (e : Fin 800000) : cur2 (o4 m c) e = hsA m c e :=
  funext fun k => HostGather.hrow_at m c hrange e k
theorem op_ht (e : Fin 800000) : cur2 (o5 m c) e = htA m c e :=
  funext fun k => HostGather.hcol_at m c hrange e k
omit hrange in
theorem op_w1s : cur2 (o9 m c)
    = fun k j => cur2 (w1A m c) ⟨k.val, by omega⟩ j :=
  funext fun k => funext fun j => HostSmall.w1s_at m c k j
omit hrange in
theorem op_w1t : cur2 (o10 m c)
    = fun k j => cur2 (w1A m c) ⟨k.val + 128, by omega⟩ j :=
  funext fun k => funext fun j => HostSmall.w1t_at m c k j
omit hrange in
theorem op_wrad : row0 (o11 m c)
    = fun j => cur2 (w1A m c) ⟨256, by omega⟩ j := funext fun j => HostSmall.wrad_at m c j
omit hrange in
theorem op_wea : row0 (o12 m c)
    = fun j => cur2 (w1A m c) ⟨257, by omega⟩ j := funext fun j => HostSmall.wea_at m c j
omit hrange in
theorem op_b1 : row0 (o13 m c) = cur1 (b1A m c) :=
  funext fun j => HostSmall.b1_at m c j
omit hrange in
theorem op_b2 : row0 (o14 m c) = cur1 (b2A m c) :=
  funext fun j => HostSmall.b2_at m c j
omit hrange in
theorem op_cb1 : row0 (o16 m c) = cur1 (cb1A m c) :=
  funext fun j => HostSmall.cb1_at m c j

omit hrange in
theorem op_W2 : oW2 m c = w2A m c := HostSmall.V6_arg6 m c
omit hrange in
theorem op_Aw : oAw m c = awA m c := HostSmall.V6_arg15 m c
omit hrange in
theorem op_Cw1 : oCw1 m c = cw1A m c := HostSmall.V6_arg12 m c
omit hrange in
theorem op_Cw2 : oCw2 m c = cw2A m c := HostSmall.V6_arg14 m c
omit hrange in
theorem op_ab : o15 m c (ix2 (0 : Fin 1) (0 : Fin 1)) = abA m c (ix1 (0 : Fin 1)) := HostSmall.ab_at m c

/-- The first pre-activation row: the kernel's four block products are the reference's one product. -/
theorem op_p1 (e : Fin 800000) :
    Spec.pre1K (cur2 (o4 m c) e) (cur2 (o5 m c) e)
      (cur2 (o8 m c) e) (cur2 (o9 m c))
      (cur2 (o10 m c)) (row0 (o11 m c))
      (row0 (o12 m c)) (row0 (o13 m c))
    = p1A m c e := by
  rw [op_hs m c hrange, op_ht m c hrange, op_w1s, op_w1t, op_wrad, op_wea, op_b1]
  exact Spec.pre1K_eq_pre1R (hsA m c e) (htA m c e)
    (cur2 (xA m c) (srcOf (eiA m c) e))
    (cur2 (xA m c) (tgtOf (eiA m c) e))
    (col0 (eaA m c) e) (cur2 (w1A m c))
    (cur1 (b1A m c)) (cur2 (o8 m c) e)
    (fun d => HostGather.geom_src m c hrange e d) (fun d => HostGather.geom_tgt m c hrange e d)
    (HostGather.geom_attr m c e)

/-- The coordinate difference off the geometry row. -/
theorem op_cd (e : Fin 800000) : Spec.cdiffK (cur2 (o8 m c) e) = cdA m c e :=
  Spec.cdiffK_eq _ _ _ (fun d => HostGather.geom_src m c hrange e d) (fun d => HostGather.geom_tgt m c hrange e d)

/-- The gated message of edge e, feature j, as the edge region leaves it. -/
theorem msg_at (e : Fin 800000) (j : Fin 128) :
    msgK m c (ix2 e j) = Spec.mij (p1A m c e) (cur2 (w2A m c))
      (cur1 (b2A m c)) (col0 (awA m c))
      ((abA m c) (ix1 (0 : Fin 1))) j := by
  rw [show msgK m c (ix2 e j) = _ from ArrE.edge_msg_at (edgeEntry m) c e j]
  show Spec.mij (Spec.pre1K (cur2 (o4 m c) e) (cur2 (o5 m c) e)
      (cur2 (o8 m c) e) (cur2 (o9 m c))
      (cur2 (o10 m c)) (row0 (o11 m c))
      (row0 (o12 m c)) (row0 (o13 m c)))
    (cur2 (oW2 m c)) (row0 (o14 m c))
    (col0 (oAw m c)) (o15 m c (ix2 (0 : Fin 1) (0 : Fin 1))) j = _
  rw [op_p1 m c hrange, op_W2, op_Aw, op_b2, op_ab]

/-- The weighted coordinate difference of edge e, axis d, as the edge region leaves it. -/
theorem wd_at (e : Fin 800000) (d : Fin 3) :
    wdK m c (ix2 e d) = Spec.wd (p1A m c e) (cdA m c e) (cur2 (w2A m c))
      (cur1 (b2A m c)) (col0 (awA m c))
      ((abA m c) (ix1 (0 : Fin 1))) (cur2 (cw1A m c))
      (cur1 (cb1A m c)) (col0 (cw2A m c)) d := by
  rw [show wdK m c (ix2 e d) = _ from ArrE.edge_wd_at (edgeEntry m) c e d]
  show Spec.wd (Spec.pre1K (cur2 (o4 m c) e) (cur2 (o5 m c) e)
      (cur2 (o8 m c) e) (cur2 (o9 m c))
      (cur2 (o10 m c)) (row0 (o11 m c))
      (row0 (o12 m c)) (row0 (o13 m c)))
    (Spec.cdiffK (cur2 (o8 m c) e))
    (cur2 (oW2 m c)) (row0 (o14 m c))
    (col0 (oAw m c)) (o15 m c (ix2 (0 : Fin 1) (0 : Fin 1)))
    (cur2 (oCw1 m c)) (row0 (o16 m c))
    (col0 (oCw2 m c)) d = _
  rw [op_p1 m c hrange, op_cd m c hrange, op_W2, op_Aw, op_b2, op_ab, op_Cw1, op_cb1, op_Cw2]

end Cert.KernelIdeal.Value

end
-- ==== Proof.RefEdge.lean ====
/-
  THE REFERENCE'S PER-EDGE RESULTS, READ AT AN INDEX.

  For an edge e the reference gathers the feature rows and the coordinates of the edge's two nodes. The node an index
  word of the edge list names is found by counting a negative word from the end of the table and clamping the result
  into the table. It then takes the coordinate difference (source minus target) and its squared length, lays the two
  feature rows, the squared length and the edge's attribute side by side as one row of 258 entries, and sends that row
  through a two-layer perceptron with SiLU after each layer. The message is gated by the logistic of a linear read-out
  of it; a second perceptron of the gated message gives the scalar that weights the coordinate difference.

  Every lemma below reads one stage's array at (e, j) from the stage before it read at an index. Composed, the gated
  message at (e, j) is `Spec.mij` of the edge's first pre-activation row (`ref_msg`), and the weighted difference at
  (e, d) is `Spec.wd` (`ref_wd`). Three facts carry the algebra. The reference spells SiLU's and the gate's logistic
  as negate, exponential, add to 1, divide 1 by: on the extended reals that expression is the logistic itself. Its sum
  of the three squares starts from 0, and 0 + s = s. A matrix product read at (e, j) is the sum over k of the left
  operand at (e, k) times the right at (k, j), and a bias broadcast down the rows reads, at (e, j), the bias at j.
-/
import proofs.«430614_j61916248539245_1_alg».proof.Proof.Gen.ReferenceIdeal.Read
import proofs.«430614_j61916248539245_1_alg».proof.Proof.Spec
import proofs.«430614_j61916248539245_1_alg».proof.Proof.Views
import proofs.«430614_j61916248539245_1_alg».proof.Proof.LibRowGather
import proofs.«430614_j61916248539245_1_alg».proof.Proof.LibIndexWrap
import proofs.«430614_j61916248539245_1_alg».proof.Proof.LibDotAt
import Idealize.ShloMosaic.PureOps.Ideal.Laws
import Idealize.ShloMosaic.Lib.ValueIdx
import Idealize.ShloMosaic.Lib.Pipeline.Value

noncomputable section

namespace Cert.RefEdge

open Cert.ReferenceIdeal Cert.ReferenceIdeal.Gen Cert.ReferenceIdeal.Read
  Idealize.ShloMosaic Idealize.ShloMosaic.ValueIdx Cert.Views

/-! ## General facts: the word of 1, the spelt-out logistic, a join of four pieces -/

/-- The f32 word 0x3F800000 denotes 1. -/
theorem one_word : Ideal.ofBits .f32 0x3F800000#32 = 1 := IdealRules.sign_bit.ideal_onePat .f32

/-- 1 / (1 + exp (-z)), spelt with the host's negate, exponential, add and divide, is the logistic of z. -/
theorem logistic_outlined (z : Ideal .f32) :
    FloatOps.hostDivf (FloatOps.ofBits .f32 0x3F800000#32)
      (FloatOps.addf (FloatOps.ofBits .f32 0x3F800000#32) (FloatOps.hostUnary .exp (FloatOps.hostNegf z)))
      = Ideal.logistic z := by
  simp only [Ideal.hostDivf_def, Ideal.ofBits_def, Ideal.addf_def, Ideal.hostUnary_exp_def, Ideal.hostNegf_def,
    Ideal.negf_def, one_word]
  rfl

/-- z * (1 / (1 + exp (-z))), spelt the same way, is z times the logistic of z. -/
theorem silu_outlined (z : Ideal .f32) :
    FloatOps.mulf z (FloatOps.hostDivf (FloatOps.ofBits .f32 0x3F800000#32)
      (FloatOps.addf (FloatOps.ofBits .f32 0x3F800000#32) (FloatOps.hostUnary .exp (FloatOps.hostNegf z))))
      = Spec.silu z :=
  congrArg (z * ·) (logistic_outlined z)

section Cat4
variable {α : Type} {n : Nat}
  (a b : (⟨2, ![n, 128]⟩ : Shape).Idx → α) (c d : (⟨2, ![n, 1]⟩ : Shape).Idx → α)
  (h : Shape.Concatenates [(⟨2, ![n, 128]⟩ : Shape), ⟨2, ![n, 128]⟩, ⟨2, ![n, 1]⟩, ⟨2, ![n, 1]⟩] ⟨2, ![n, 258]⟩ 1)

/-- Two arrays of 128 columns and two single columns joined along the columns: columns 0 to 127 are the first piece's. -/
theorem cat4_first (e : Fin n) (k : Fin 258) (h0 : k.val < 128) :
    concatenate (⟨2, ![n, 258]⟩ : Shape) 1
        [⟨⟨2, ![n, 128]⟩, a⟩, ⟨⟨2, ![n, 128]⟩, b⟩, ⟨⟨2, ![n, 1]⟩, c⟩, ⟨⟨2, ![n, 1]⟩, d⟩] h (ix2 e k)
      = a (ix2 e ⟨k.val, h0⟩) :=
  concatenate_apply_piece (t := ⟨2, ![n, 258]⟩) (1 : Fin 2)
    [⟨⟨2, ![n, 128]⟩, a⟩, ⟨⟨2, ![n, 128]⟩, b⟩, ⟨⟨2, ![n, 1]⟩, c⟩, ⟨⟨2, ![n, 1]⟩, d⟩] h (ix2 e k)
    0 (show 0 < 4 by omega) ⟨2, ![n, 128]⟩ a rfl rfl 0 rfl (ix2 e ⟨k.val, h0⟩)
    (fun r hr => match r with
      | ⟨0, _⟩ => rfl
      | ⟨1, _⟩ => absurd rfl hr)
    (by show 0 + k.val = k.val; omega)

/-- Columns 128 to 255 are the second piece's, 128 columns back. -/
theorem cat4_second (e : Fin n) (k : Fin 258) (h0 : ¬ k.val < 128) (h1 : k.val < 256) :
    concatenate (⟨2, ![n, 258]⟩ : Shape) 1
        [⟨⟨2, ![n, 128]⟩, a⟩, ⟨⟨2, ![n, 128]⟩, b⟩, ⟨⟨2, ![n, 1]⟩, c⟩, ⟨⟨2, ![n, 1]⟩, d⟩] h (ix2 e k)
      = b (ix2 e ⟨k.val - 128, by omega⟩) :=
  concatenate_apply_piece (t := ⟨2, ![n, 258]⟩) (1 : Fin 2)
    [⟨⟨2, ![n, 128]⟩, a⟩, ⟨⟨2, ![n, 128]⟩, b⟩, ⟨⟨2, ![n, 1]⟩, c⟩, ⟨⟨2, ![n, 1]⟩, d⟩] h (ix2 e k)
    1 (show 1 < 4 by omega) ⟨2, ![n, 128]⟩ b rfl rfl 128 rfl (ix2 e ⟨k.val - 128, by omega⟩)
    (fun r hr => match r with
      | ⟨0, _⟩ => rfl
      | ⟨1, _⟩ => absurd rfl hr)
    (by show 128 + (k.val - 128) = k.val; omega)

/-- Column 256 is the third piece's one column. -/
theorem cat4_third (e : Fin n) (k : Fin 258) (h2 : k.val = 256) :
    concatenate (⟨2, ![n, 258]⟩ : Shape) 1
        [⟨⟨2, ![n, 128]⟩, a⟩, ⟨⟨2, ![n, 128]⟩, b⟩, ⟨⟨2, ![n, 1]⟩, c⟩, ⟨⟨2, ![n, 1]⟩, d⟩] h (ix2 e k)
      = c (ix2 e (0 : Fin 1)) :=
  concatenate_apply_piece (t := ⟨2, ![n, 258]⟩) (1 : Fin 2)
    [⟨⟨2, ![n, 128]⟩, a⟩, ⟨⟨2, ![n, 128]⟩, b⟩, ⟨⟨2, ![n, 1]⟩, c⟩, ⟨⟨2, ![n, 1]⟩, d⟩] h (ix2 e k)
    2 (show 2 < 4 by omega) ⟨2, ![n, 1]⟩ c rfl rfl 256 rfl (ix2 e (0 : Fin 1))
    (fun r hr => match r with
      | ⟨0, _⟩ => rfl
      | ⟨1, _⟩ => absurd rfl hr)
    (by show 256 + 0 = k.val; omega)

/-- Column 257 is the fourth piece's one column. -/
theorem cat4_fourth (e : Fin n) (k : Fin 258) (h3 : k.val = 257) :
    concatenate (⟨2, ![n, 258]⟩ : Shape) 1
        [⟨⟨2, ![n, 128]⟩, a⟩, ⟨⟨2, ![n, 128]⟩, b⟩, ⟨⟨2, ![n, 1]⟩, c⟩, ⟨⟨2, ![n, 1]⟩, d⟩] h (ix2 e k)
      = d (ix2 e (0 : Fin 1)) :=
  concatenate_apply_piece (t := ⟨2, ![n, 258]⟩) (1 : Fin 2)
    [⟨⟨2, ![n, 128]⟩, a⟩, ⟨⟨2, ![n, 128]⟩, b⟩, ⟨⟨2, ![n, 1]⟩, c⟩, ⟨⟨2, ![n, 1]⟩, d⟩] h (ix2 e k)
    3 (show 3 < 4 by omega) ⟨2, ![n, 1]⟩ d rfl rfl 257 rfl (ix2 e (0 : Fin 1))
    (fun r hr => match r with
      | ⟨0, _⟩ => rfl
      | ⟨1, _⟩ => absurd rfl hr)
    (by show 257 + 0 = k.val; omega)
end Cat4

/-! ## The edge's rows -/

/-- The source node's and the target node's feature rows of edge e. -/
abbrev hsR (x0 : (⟨S50000x128, .f32⟩ : BufTy).Contents (Elt Ideal)) (x2 : (⟨S2x800000, .i32⟩ : BufTy).Contents (Elt Ideal))
    (e : Fin 800000) : Fin 128 → EReal := cur2 x0 (srcOf x2 e)
abbrev htR (x0 : (⟨S50000x128, .f32⟩ : BufTy).Contents (Elt Ideal)) (x2 : (⟨S2x800000, .i32⟩ : BufTy).Contents (Elt Ideal))
    (e : Fin 800000) : Fin 128 → EReal := cur2 x0 (tgtOf x2 e)
/-- The coordinate difference of edge e: source minus target. -/
abbrev cdR (x1 : (⟨S50000x3, .f32⟩ : BufTy).Contents (Elt Ideal)) (x2 : (⟨S2x800000, .i32⟩ : BufTy).Contents (Elt Ideal))
    (e : Fin 800000) : Fin 3 → EReal := fun d => cur2 x1 (srcOf x2 e) d - cur2 x1 (tgtOf x2 e) d
/-- The first layer's pre-activation row of edge e, over the 258 concatenated inputs. -/
abbrev p1R (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S800000x1, .f32⟩ : BufTy).Contents (Elt Ideal))
    (x4 : (⟨S258x128, .f32⟩ : BufTy).Contents (Elt Ideal)) (x5 : (⟨S128, .f32⟩ : BufTy).Contents (Elt Ideal))
    (e : Fin 800000) : Fin 128 → EReal :=
  Spec.pre1R (hsR x0 x2 e) (htR x0 x2 e) (Spec.radial (cdR x1 x2 e)) (col0 x3 e) (cur2 x4) (cur1 x5)

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S800000x1, .f32⟩ : BufTy).Contents (Elt Ideal))
  (x4 : (⟨S258x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S128x1, .f32⟩ : BufTy).Contents (Elt Ideal)) (x16 : (⟨S1, .f32⟩ : BufTy).Contents (Elt Ideal))

/-! ## The index words: a row of the edge list, wrapped, as a column -/

/-- Row 0 of the edge list, sliced out and flattened, read at e. -/
theorem word_src (e : Fin 800000) : val_main_v1 (F := Ideal) x2 (ix1 e) = x2 (ix2 (0 : Fin 2) e) := by
  rw [val_main_v1_apply, val_main_v0_apply]
  exact congrArg x2 (funext fun a => Fin.ext (by
    match a with
    | ⟨0, _⟩ => rfl
    | ⟨1, _⟩ => exact Nat.mod_eq_of_lt e.isLt))

/-- Row 1 of the edge list, read at e. -/
theorem word_tgt (e : Fin 800000) : val_main_v3 (F := Ideal) x2 (ix1 e) = x2 (ix2 (1 : Fin 2) e) := by
  rw [val_main_v3_apply, val_main_v2_apply]
  exact congrArg x2 (funext fun a => Fin.ext (by
    match a with
    | ⟨0, _⟩ => rfl
    | ⟨1, _⟩ => exact Nat.mod_eq_of_lt e.isLt))

/-- A vector of index words, wrapped where negative and kept as a column, read at row e. -/
theorem wrapped_column (v : IVec S800000 32) (e : Fin 800000) :
    broadcastInDim S800000x1 ![0] bcast_S800000_S800000x1_0
        (select (cmpi .slt v (broadcastInDim S800000 ![] bcast_S_S800000 (constantI S_ 32 0#32)))
          (addi v (broadcastInDim S800000 ![] bcast_S_S800000 (constantI S_ 32 50000#32))) v) (ix2 e (0 : Fin 1))
      = IndexWrap.wrapWord 50000#32 (v (ix1 e)) :=
  (IndexWrap.column_apply bcast_S800000_S800000x1_0 _ e).trans (IndexWrap.wrapped_apply bcast_S_S800000 50000#32 v (ix1 e))

/-- The four start-index columns of the gathers: the wrapped source word (twice) and the wrapped target word (twice). -/
theorem col_v9 (e : Fin 800000) :
    val_main_v9 (F := Ideal) x2 (ix2 e (0 : Fin 1)) = IndexWrap.wrapWord 50000#32 (x2 (ix2 (0 : Fin 2) e)) :=
  (wrapped_column (val_main_v1 (F := Ideal) x2) e).trans (congrArg _ (word_src x2 e))
theorem col_v16 (e : Fin 800000) :
    val_main_v16 (F := Ideal) x2 (ix2 e (0 : Fin 1)) = IndexWrap.wrapWord 50000#32 (x2 (ix2 (1 : Fin 2) e)) :=
  (wrapped_column (val_main_v3 (F := Ideal) x2) e).trans (congrArg _ (word_tgt x2 e))
theorem col_v27 (e : Fin 800000) :
    val_main_v27 (F := Ideal) x2 (ix2 e (0 : Fin 1)) = IndexWrap.wrapWord 50000#32 (x2 (ix2 (0 : Fin 2) e)) :=
  (wrapped_column (val_main_v1 (F := Ideal) x2) e).trans (congrArg _ (word_src x2 e))
theorem col_v34 (e : Fin 800000) :
    val_main_v34 (F := Ideal) x2 (ix2 e (0 : Fin 1)) = IndexWrap.wrapWord 50000#32 (x2 (ix2 (1 : Fin 2) e)) :=
  (wrapped_column (val_main_v3 (F := Ideal) x2) e).trans (congrArg _ (word_tgt x2 e))

/-! ## The four row gathers: the row of the node the wrapped, clamped word names -/

theorem gather_x_src (e : Fin 800000) (d : Fin 3) :
    val_main_v10 (F := Ideal) x1 x2 (ix2 e d) = cur2 x1 (srcOf x2 e) d := by
  refine (RowGather.rowGather_apply (N := 50000) (C := 3) (n := 800000) (by decide)
    gather_S50000x3_S800000x1_S800000x3_1_0_n_n_0_1_13_wf x1 (val_main_v9 (F := Ideal) x2) e d).trans ?_
  refine congrArg x1 (congrArg (fun r : Fin 50000 => ix2 r d) (Fin.ext ?_))
  show min (val_main_v9 (F := Ideal) x2 (ix2 e (0 : Fin 1))).toInt.toNat (50000 - 1)
    = min (IndexWrap.wrapWord 50000#32 (x2 (ix2 (0 : Fin 2) e))).toInt.toNat (50000 - 1)
  rw [col_v9]

theorem gather_x_tgt (e : Fin 800000) (d : Fin 3) :
    val_main_v17 (F := Ideal) x1 x2 (ix2 e d) = cur2 x1 (tgtOf x2 e) d := by
  refine (RowGather.rowGather_apply (N := 50000) (C := 3) (n := 800000) (by decide)
    gather_S50000x3_S800000x1_S800000x3_1_0_n_n_0_1_13_wf x1 (val_main_v16 (F := Ideal) x2) e d).trans ?_
  refine congrArg x1 (congrArg (fun r : Fin 50000 => ix2 r d) (Fin.ext ?_))
  show min (val_main_v16 (F := Ideal) x2 (ix2 e (0 : Fin 1))).toInt.toNat (50000 - 1)
    = min (IndexWrap.wrapWord 50000#32 (x2 (ix2 (1 : Fin 2) e))).toInt.toNat (50000 - 1)
  rw [col_v16]

theorem gather_h_src (e : Fin 800000) (q : Fin 128) :
    val_main_v28 (F := Ideal) x0 x2 (ix2 e q) = hsR x0 x2 e q := by
  refine (RowGather.rowGather_apply (N := 50000) (C := 128) (n := 800000) (by decide)
    gather_S50000x128_S800000x1_S800000x128_1_0_n_n_0_1_1128_wf x0 (val_main_v27 (F := Ideal) x2) e q).trans ?_
  refine congrArg x0 (congrArg (fun r : Fin 50000 => ix2 r q) (Fin.ext ?_))
  show min (val_main_v27 (F := Ideal) x2 (ix2 e (0 : Fin 1))).toInt.toNat (50000 - 1)
    = min (IndexWrap.wrapWord 50000#32 (x2 (ix2 (0 : Fin 2) e))).toInt.toNat (50000 - 1)
  rw [col_v27]

theorem gather_h_tgt (e : Fin 800000) (q : Fin 128) :
    val_main_v35 (F := Ideal) x0 x2 (ix2 e q) = htR x0 x2 e q := by
  refine (RowGather.rowGather_apply (N := 50000) (C := 128) (n := 800000) (by decide)
    gather_S50000x128_S800000x1_S800000x128_1_0_n_n_0_1_1128_wf x0 (val_main_v34 (F := Ideal) x2) e q).trans ?_
  refine congrArg x0 (congrArg (fun r : Fin 50000 => ix2 r q) (Fin.ext ?_))
  show min (val_main_v34 (F := Ideal) x2 (ix2 e (0 : Fin 1))).toInt.toNat (50000 - 1)
    = min (IndexWrap.wrapWord 50000#32 (x2 (ix2 (1 : Fin 2) e))).toInt.toNat (50000 - 1)
  rw [col_v34]

/-! ## The coordinate difference and its squared length -/

theorem cd_at (e : Fin 800000) (d : Fin 3) : val_main_v18 (F := Ideal) x1 x2 (ix2 e d) = cdR x1 x2 e d := by
  rw [val_main_v18_apply, gather_x_src, gather_x_tgt]
  rfl

/-- The host's sum over the three axes starts from 0, so it is the plain sum of the squares. -/
theorem radial_at (e : Fin 800000) :
    val_main_v21 (F := Ideal) x1 x2 (ix2 e (0 : Fin 1)) = Spec.radial (cdR x1 x2 e) := by
  rw [val_main_v21_apply, val_main_v20_apply, val_main_cst_apply]
  show Ideal.ofBits .f32 0x00000000#32 + _ = ∑ d : Fin 3, cdR x1 x2 e d * cdR x1 x2 e d
  rw [Ideal.ofBits_zero_f32, zero_add]
  refine Finset.sum_congr rfl fun k _ => ?_
  have hi : idx_main_v20 (idx_main_v21 (ix2 e (0 : Fin 1))) k = ix2 e k := funext fun a => Fin.ext (by match a with | ⟨0, _⟩ => rfl | ⟨1, _⟩ => rfl)
  rw [hi, val_main_v19_apply, cd_at]
  rfl

/-! ## The 258 concatenated inputs and the first layer -/

theorem cat_at (e : Fin 800000) (k : Fin 258) :
    val_main_v36 (F := Ideal) x0 x1 x2 x3 (ix2 e k)
      = Spec.cat (hsR x0 x2 e) (htR x0 x2 e) (Spec.radial (cdR x1 x2 e)) (col0 x3 e) k := by
  unfold val_main_v36 Spec.cat
  by_cases h0 : k.val < 128
  · rw [dif_pos h0]
    exact (cat4_first _ _ _ _ _ e k h0).trans (gather_h_src x0 x2 e _)
  · rw [dif_neg h0]
    by_cases h1 : k.val < 256
    · rw [dif_pos h1]
      exact (cat4_second _ _ _ _ _ e k h0 h1).trans (gather_h_tgt x0 x2 e _)
    · rw [dif_neg h1]
      by_cases h2 : k.val = 256
      · rw [if_pos h2]
        exact (cat4_third _ _ _ _ _ e k h2).trans (radial_at x1 x2 e)
      · rw [if_neg h2]
        exact cat4_fourth _ _ _ _ _ e k (by have := k.isLt; omega)

theorem pre1_at (e : Fin 800000) (j : Fin 128) :
    val_main_v40 (F := Ideal) x0 x1 x2 x3 x4 x5 (ix2 e j) = p1R x0 x1 x2 x3 x4 x5 e j := by
  rw [val_main_v40_apply, val_main_v37_apply, val_main_v39_apply, val_main_v38_apply]
  have hl : ∀ k : Fin 258, lidx_main_v37 (ix2 e j) k = ix2 e k := fun k => funext fun a => Fin.ext (by match a with | ⟨0, _⟩ => rfl | ⟨1, _⟩ => rfl)
  have hr : ∀ k : Fin 258, ridx_main_v37 (ix2 e j) k = ix2 k j := fun k => funext fun a => Fin.ext (by match a with | ⟨0, _⟩ => rfl | ⟨1, _⟩ => rfl)
  have hb : idx_main_v38 (idx_main_v39 (ix2 e j)) = ix1 j := funext fun a => Fin.ext (by match a with | ⟨0, _⟩ => rfl)
  simp only [hl, hr, hb, cat_at]
  rfl

/-! ## The second layer, the message and its gate -/

theorem act1_at (e : Fin 800000) (j : Fin 128) :
    val_main_v41 (F := Ideal) x0 x1 x2 x3 x4 x5 (ix2 e j) = Spec.silu (p1R x0 x1 x2 x3 x4 x5 e j) := by
  rw [val_main_v41_apply, val_main_call0_v5_apply, val_main_call0_v4_apply, val_main_call0_cst_0_apply, val_main_call0_v3_apply,
    val_main_call0_v2_apply, val_main_call0_cst_apply, val_main_call0_v1_apply, val_main_call0_v0_apply, pre1_at]
  exact silu_outlined _

theorem pre2_at (e : Fin 800000) (j : Fin 128) :
    val_main_v45 (F := Ideal) x0 x1 x2 x3 x4 x5 x6 x7 (ix2 e j) = Spec.pre2 (p1R x0 x1 x2 x3 x4 x5 e) (cur2 x6) (cur1 x7) j := by
  rw [val_main_v45_apply, val_main_v42_apply, val_main_v44_apply, val_main_v43_apply]
  have hl : ∀ k : Fin 128, lidx_main_v42 (ix2 e j) k = ix2 e k := fun k => funext fun a => Fin.ext (by match a with | ⟨0, _⟩ => rfl | ⟨1, _⟩ => rfl)
  have hr : ∀ k : Fin 128, ridx_main_v42 (ix2 e j) k = ix2 k j := fun k => funext fun a => Fin.ext (by match a with | ⟨0, _⟩ => rfl | ⟨1, _⟩ => rfl)
  have hb : idx_main_v43 (idx_main_v44 (ix2 e j)) = ix1 j := funext fun a => Fin.ext (by match a with | ⟨0, _⟩ => rfl)
  simp only [hl, hr, hb, act1_at]
  rfl

theorem msg_at (e : Fin 800000) (j : Fin 128) :
    val_main_v46 (F := Ideal) x0 x1 x2 x3 x4 x5 x6 x7 (ix2 e j) = Spec.msg (p1R x0 x1 x2 x3 x4 x5 e) (cur2 x6) (cur1 x7) j := by
  rw [val_main_v46_apply, val_main_call1_v5_apply, val_main_call1_v4_apply, val_main_call1_cst_0_apply, val_main_call1_v3_apply,
    val_main_call1_v2_apply, val_main_call1_cst_apply, val_main_call1_v1_apply, val_main_call1_v0_apply, pre2_at]
  exact silu_outlined _

theorem gatepre_at (e : Fin 800000) :
    val_main_v50 (F := Ideal) x0 x1 x2 x3 x4 x5 x6 x7 x15 x16 (ix2 e (0 : Fin 1))
      = (∑ k : Fin 128, Spec.msg (p1R x0 x1 x2 x3 x4 x5 e) (cur2 x6) (cur1 x7) k * col0 x15 k) + x16 (ix1 (0 : Fin 1)) := by
  rw [val_main_v50_apply, val_main_v47_apply, val_main_v49_apply, val_main_v48_apply]
  have hl : ∀ k : Fin 128, lidx_main_v47 (ix2 e (0 : Fin 1)) k = ix2 e k := fun k => funext fun a => Fin.ext (by match a with | ⟨0, _⟩ => rfl | ⟨1, _⟩ => rfl)
  have hr : ∀ k : Fin 128, ridx_main_v47 (ix2 e (0 : Fin 1)) k = ix2 k (0 : Fin 1) := fun k => funext fun a => Fin.ext (by match a with | ⟨0, _⟩ => rfl | ⟨1, _⟩ => rfl)
  have hb : idx_main_v48 (idx_main_v49 (ix2 e (0 : Fin 1))) = ix1 (0 : Fin 1) := funext fun a => Fin.ext (by match a with | ⟨0, _⟩ => rfl)
  simp only [hl, hr, hb, msg_at]
  rfl

theorem gate_at (e : Fin 800000) :
    val_main_v56 (F := Ideal) x0 x1 x2 x3 x4 x5 x6 x7 x15 x16 (ix2 e (0 : Fin 1)) = Spec.gate (p1R x0 x1 x2 x3 x4 x5 e) (cur2 x6) (cur1 x7) (col0 x15) (x16 (ix1 (0 : Fin 1))) := by
  rw [val_main_v56_apply, val_main_v55_apply, val_main_cst_8_apply, val_main_v54_apply, val_main_v53_apply,
    val_main_cst_7_apply, val_main_v52_apply, val_main_v51_apply, gatepre_at]
  exact logistic_outlined _

/-- The gated message of edge e, feature j. -/
theorem ref_msg (e : Fin 800000) (j : Fin 128) :
    val_main_v58 (F := Ideal) x0 x1 x2 x3 x4 x5 x6 x7 x15 x16 (ix2 e j) = Spec.mij (p1R x0 x1 x2 x3 x4 x5 e) (cur2 x6) (cur1 x7) (col0 x15) (x16 (ix1 (0 : Fin 1))) j := by
  rw [val_main_v58_apply, val_main_v57_apply, msg_at]
  have hi : idx_main_v57 (ix2 e j) = ix2 e (0 : Fin 1) := funext fun a => Fin.ext (by match a with | ⟨0, _⟩ => rfl | ⟨1, _⟩ => rfl)
  rw [hi, gate_at]
  rfl

/-! ## The coordinate perceptron and the weighted difference -/

theorem cpre_at (e : Fin 800000) (k : Fin 128) :
    val_main_v76 (F := Ideal) x0 x1 x2 x3 x4 x5 x6 x7 x12 x13 x15 x16 (ix2 e k)
      = (∑ l : Fin 128, Spec.mij (p1R x0 x1 x2 x3 x4 x5 e) (cur2 x6) (cur1 x7) (col0 x15) (x16 (ix1 (0 : Fin 1))) l * cur2 x12 l k) + cur1 x13 k := by
  rw [val_main_v76_apply, val_main_v73_apply, val_main_v75_apply, val_main_v74_apply]
  have hl : ∀ l : Fin 128, lidx_main_v73 (ix2 e k) l = ix2 e l := fun l => funext fun a => Fin.ext (by match a with | ⟨0, _⟩ => rfl | ⟨1, _⟩ => rfl)
  have hr : ∀ l : Fin 128, ridx_main_v73 (ix2 e k) l = ix2 l k := fun l => funext fun a => Fin.ext (by match a with | ⟨0, _⟩ => rfl | ⟨1, _⟩ => rfl)
  have hb : idx_main_v74 (idx_main_v75 (ix2 e k)) = ix1 k := funext fun a => Fin.ext (by match a with | ⟨0, _⟩ => rfl)
  simp only [hl, hr, hb, ref_msg]
  rfl

theorem cact_at (e : Fin 800000) (k : Fin 128) :
    val_main_v77 (F := Ideal) x0 x1 x2 x3 x4 x5 x6 x7 x12 x13 x15 x16 (ix2 e k)
      = Spec.silu ((∑ l : Fin 128, Spec.mij (p1R x0 x1 x2 x3 x4 x5 e) (cur2 x6) (cur1 x7) (col0 x15) (x16 (ix1 (0 : Fin 1))) l * cur2 x12 l k) + cur1 x13 k) := by
  rw [val_main_v77_apply, val_main_call3_v5_apply, val_main_call3_v4_apply, val_main_call3_cst_0_apply, val_main_call3_v3_apply,
    val_main_call3_v2_apply, val_main_call3_cst_apply, val_main_call3_v1_apply, val_main_call3_v0_apply, cpre_at]
  exact silu_outlined _

theorem cupd_at (e : Fin 800000) :
    val_main_v78 (F := Ideal) x0 x1 x2 x3 x4 x5 x6 x7 x12 x13 x14 x15 x16 (ix2 e (0 : Fin 1)) = Spec.cupd (p1R x0 x1 x2 x3 x4 x5 e) (cur2 x6) (cur1 x7) (col0 x15) (x16 (ix1 (0 : Fin 1))) (cur2 x12) (cur1 x13) (col0 x14) := by
  rw [val_main_v78_apply]
  have hl : ∀ k : Fin 128, lidx_main_v78 (ix2 e (0 : Fin 1)) k = ix2 e k := fun k => funext fun a => Fin.ext (by match a with | ⟨0, _⟩ => rfl | ⟨1, _⟩ => rfl)
  have hr : ∀ k : Fin 128, ridx_main_v78 (ix2 e (0 : Fin 1)) k = ix2 k (0 : Fin 1) := fun k => funext fun a => Fin.ext (by match a with | ⟨0, _⟩ => rfl | ⟨1, _⟩ => rfl)
  simp only [hl, hr, cact_at]
  rfl

/-- The weighted coordinate difference of edge e, axis d. -/
theorem ref_wd (e : Fin 800000) (d : Fin 3) :
    val_main_v80 (F := Ideal) x0 x1 x2 x3 x4 x5 x6 x7 x12 x13 x14 x15 x16 (ix2 e d) = Spec.wd (p1R x0 x1 x2 x3 x4 x5 e) (cdR x1 x2 e) (cur2 x6) (cur1 x7) (col0 x15) (x16 (ix1 (0 : Fin 1))) (cur2 x12) (cur1 x13) (col0 x14) d := by
  rw [val_main_v80_apply, val_main_v79_apply, cd_at]
  have hi : idx_main_v79 (ix2 e d) = ix2 e (0 : Fin 1) := funext fun a => Fin.ext (by match a with | ⟨0, _⟩ => rfl | ⟨1, _⟩ => rfl)
  rw [hi, cupd_at]
  rfl

end Cert.RefEdge

end
-- ==== Proof.RefNode.lean ====
/-
  The reference's two results, read through its own per-edge arrays.

  After the edge stage the reference does three things. It sums the gated messages into their source nodes; it
  updates every node's coordinates from the weighted coordinate differences; and it updates every node's features.
  The first two are sums over the edges that leave a node, taken by the same host operations in both programs, so
  they are only NAMED here: each is one function of the edge list and of a per-edge array, and the reference's value
  is that function of its own per-edge array (first two theorems).

  The feature update is read at one node n and one feature j, with the array of summed messages kept opaque. The
  node's 256-column input row is its own feature row followed by its row of summed messages; the first layer is one
  product of that row with the stacked weight matrix, plus the bias; the activation z * (1 / (1 + exp (-z))) is
  z * sigma(z), because the word 0x3F800000 is the number one; the second layer is a product with a 128 x 128 matrix
  plus a bias, and the old feature is added to it. No law of arithmetic is used: each side is the same expression.
-/
import proofs.«430614_j61916248539245_1_alg».proof.Proof.Gen.ReferenceIdeal.Read
import proofs.«430614_j61916248539245_1_alg».proof.Proof.Spec
import proofs.«430614_j61916248539245_1_alg».proof.Proof.Views
import proofs.«430614_j61916248539245_1_alg».proof.Proof.Tail
import Idealize.ShloMosaic.Lib.Pipeline.Value
import Idealize.ShloMosaic.Lib.ValueIdx
import Idealize.ShloMosaic.PureOps.Ideal.Laws
import Idealize.ShloMosaic.PureOps.IdealRules

noncomputable section

namespace Cert.RefNode

open Cert.ReferenceIdeal Cert.ReferenceIdeal.Gen Cert.ReferenceIdeal.Read Idealize.ShloMosaic Idealize.ShloMosaic.ValueIdx Cert.Views

/-! ## The activation -/

/-- The word 0x3F800000 is the number one. -/
theorem one_word : Ideal.ofBits .f32 0x3F800000#32 = 1 := IdealRules.sign_bit.ideal_onePat .f32

/-- z times the quotient of one by one plus exp (-z), in the host's operations, is z * sigma(z). -/
theorem silu_host (z : Ideal .f32) :
    FloatOps.mulf z (FloatOps.hostDivf (FloatOps.ofBits .f32 0x3F800000#32)
      (FloatOps.addf (FloatOps.ofBits .f32 0x3F800000#32) (FloatOps.hostUnary .exp (FloatOps.hostNegf z)))) = Spec.silu z := by
  rw [Ideal.ofBits_def, one_word]
  rfl

/-! ## Two arrays of 128 columns side by side -/

section Join
variable {α : Type} (x y : S50000x128.Idx → α) (h : Shape.Concatenates [S50000x128, S50000x128] S50000x256 1)

/-- A column below 128 of the joined array is that column of the first array. -/
theorem join_lo (n : Fin 50000) (k : Fin 256) (hk : k.val < 128) :
    concatenate S50000x256 1 [⟨S50000x128, x⟩, ⟨S50000x128, y⟩] h (ix2 n k) = x (ix2 n ⟨k.val, hk⟩) :=
  concatenate_pair_apply_left (t := S50000x256) 1 x y h (ix2 n k) rfl (ix2 n ⟨k.val, hk⟩)
    (fun b => match b with
      | ⟨0, _⟩ => rfl
      | ⟨1, _⟩ => rfl)

/-- A column from 128 on is column k - 128 of the second array. -/
theorem join_hi (n : Fin 50000) (k : Fin 256) (hk : ¬ k.val < 128) :
    concatenate S50000x256 1 [⟨S50000x128, x⟩, ⟨S50000x128, y⟩] h (ix2 n k) = y (ix2 n ⟨k.val - 128, by omega⟩) :=
  concatenate_pair_apply_right (t := S50000x256) 1 x y h (ix2 n k) rfl rfl (ix2 n ⟨k.val - 128, by omega⟩)
    (fun b hb => match b with
      | ⟨0, _⟩ => rfl
      | ⟨1, _⟩ => absurd rfl hb)
    (by show k.val - 128 + 128 = k.val; omega)

end Join

variable [Cert.ReferenceIdeal.Facts]

variable (x0 : (⟨S50000x128, .f32⟩ : BufTy).Contents (Elt Ideal)) (x1 : (⟨S50000x3, .f32⟩ : BufTy).Contents (Elt Ideal))
  (x2 : (⟨S2x800000, .i32⟩ : BufTy).Contents (Elt Ideal)) (x3 : (⟨S800000x1, .f32⟩ : BufTy).Contents (Elt Ideal))
  (x4 : (⟨S258x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S256x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 x15 : (⟨S128x1, .f32⟩ : BufTy).Contents (Elt Ideal)) (x16 : (⟨S1, .f32⟩ : BufTy).Contents (Elt Ideal))

/-! ## The two sums over a node's outgoing edges, named -/

/-- The summed messages are the shared scatter of the reference's gated messages. -/
theorem ref_agg :
    val_main_v61 (F := Ideal) x0 x1 x2 x3 x4 x5 x6 x7 x15 x16
      = Cert.Tail.aggOf x2 (val_main_v58 (F := Ideal) x0 x1 x2 x3 x4 x5 x6 x7 x15 x16) := by
  unfold val_main_v61 val_main_v59 val_main_cst_9 val_main_v60 val_main_v1 val_main_v0 Cert.Tail.aggOf Cert.Tail.srcColumn
  generalize val_main_v58 (F := Ideal) x0 x1 x2 x3 x4 x5 x6 x7 x15 x16 = msg
  rfl

/-- The new coordinates are the shared tail applied to the reference's weighted coordinate differences. -/
theorem ref_x :
    val_main_v92 (F := Ideal) x0 x1 x2 x3 x4 x5 x6 x7 x12 x13 x14 x15 x16
      = Cert.Tail.xOut x1 x2 (val_main_v80 (F := Ideal) x0 x1 x2 x3 x4 x5 x6 x7 x12 x13 x14 x15 x16) := by
  unfold val_main_v92 val_main_v91 val_main_v83 val_main_v90 val_main_v89 val_main_v88 val_main_v87 val_main_v86
    val_main_v85 val_main_v84 val_main_v82 val_main_v81 val_main_call4_v1 val_main_call4_v0 val_main_cst_10
    val_main_cst_11 val_main_cst_12 val_main_cst_13 val_main_v1 val_main_v0 Cert.Tail.xOut Cert.Tail.srcColumn
  generalize val_main_v80 (F := Ideal) x0 x1 x2 x3 x4 x5 x6 x7 x12 x13 x14 x15 x16 = wd
  rfl

/-! ## The feature update at a node and a feature -/

/-- The node's input row: its own features, then its summed messages. -/
theorem joined_at (n : Fin 50000) (l : Fin 256) :
    val_main_v62 (F := Ideal) x0 x1 x2 x3 x4 x5 x6 x7 x15 x16 (ix2 n l)
      = Spec.cat2 (cur2 x0 n) (cur2 (val_main_v61 (F := Ideal) x0 x1 x2 x3 x4 x5 x6 x7 x15 x16) n) l := by
  unfold val_main_v62
  generalize val_main_v61 (F := Ideal) x0 x1 x2 x3 x4 x5 x6 x7 x15 x16 = agg
  unfold Spec.cat2
  by_cases hl : l.val < 128
  · rw [dif_pos hl]
    exact join_lo x0 agg _ n l hl
  · rw [dif_neg hl]
    exact join_hi x0 agg _ n l hl

/-- The first layer's product: the input row against column k of the stacked weights. -/
theorem product1_at (n : Fin 50000) (k : Fin 128) :
    val_main_v63 (F := Ideal) x0 x1 x2 x3 x4 x5 x6 x7 x8 x15 x16 (ix2 n k)
      = ∑ l : Fin 256, Spec.cat2 (cur2 x0 n) (cur2 (val_main_v61 (F := Ideal) x0 x1 x2 x3 x4 x5 x6 x7 x15 x16) n) l * x8 (ix2 l k) := by
  rw [val_main_v63_apply]
  refine Finset.sum_congr rfl fun l _ => ?_
  have el : lidx_main_v63 (ix2 n k) l = ix2 n l := funext fun a => Fin.ext (by
    match a with
    | ⟨0, _⟩ => rfl
    | ⟨1, _⟩ => rfl)
  have er : ridx_main_v63 (ix2 n k) l = ix2 l k := funext fun a => Fin.ext (by
    match a with
    | ⟨0, _⟩ => rfl
    | ⟨1, _⟩ => rfl)
  rw [el, er, joined_at]

/-- The first layer's pre-activation. -/
theorem pre_at (n : Fin 50000) (k : Fin 128) :
    val_main_v66 (F := Ideal) x0 x1 x2 x3 x4 x5 x6 x7 x8 x9 x15 x16 (ix2 n k)
      = Spec.npreR (cur2 x0 n) (cur2 (val_main_v61 (F := Ideal) x0 x1 x2 x3 x4 x5 x6 x7 x15 x16) n) (cur2 x8) (cur1 x9) k := by
  have eb : idx_main_v64 (idx_main_v65 (ix2 n k)) = ix1 k := funext fun a => Fin.ext (by
    match a with
    | ⟨0, _⟩ => rfl)
  rw [val_main_v66_apply, product1_at, val_main_v65_apply, val_main_v64_apply, eb]
  rfl

/-- The activation, at any index, from the pre-activation there. -/
theorem act_at (i : S50000x128.Idx) :
    val_main_v67 (F := Ideal) x0 x1 x2 x3 x4 x5 x6 x7 x8 x9 x15 x16 i
      = Spec.silu (val_main_v66 (F := Ideal) x0 x1 x2 x3 x4 x5 x6 x7 x8 x9 x15 x16 i) := by
  rw [val_main_v67_apply, val_main_call2_v5_apply, val_main_call2_v4_apply, val_main_call2_cst_0_apply,
    val_main_call2_v3_apply, val_main_call2_v2_apply, val_main_call2_cst_apply, val_main_call2_v1_apply,
    val_main_call2_v0_apply]
  exact silu_host _

/-- The second layer and the residual, from the pre-activation row. -/
theorem out_at (n : Fin 50000) (j : Fin 128) :
    val_main_v72 (F := Ideal) x0 x1 x2 x3 x4 x5 x6 x7 x8 x9 x10 x11 x15 x16 (ix2 n j)
      = x0 (ix2 n j) + ((∑ k : Fin 128, Spec.silu (val_main_v66 (F := Ideal) x0 x1 x2 x3 x4 x5 x6 x7 x8 x9 x15 x16 (ix2 n k)) * x10 (ix2 k j))
          + x11 (ix1 j)) := by
  have eb : idx_main_v69 (idx_main_v70 (ix2 n j)) = ix1 j := funext fun a => Fin.ext (by
    match a with
    | ⟨0, _⟩ => rfl)
  rw [val_main_v72_apply, val_main_v71_apply, val_main_v68_apply, val_main_v70_apply, val_main_v69_apply, eb]
  simp only [Ideal.addf_def]
  refine congrArg (fun s => x0 (ix2 n j) + (s + x11 (ix1 j))) (Finset.sum_congr rfl fun k _ => ?_)
  have el : lidx_main_v68 (ix2 n j) k = ix2 n k := funext fun a => Fin.ext (by
    match a with
    | ⟨0, _⟩ => rfl
    | ⟨1, _⟩ => rfl)
  have er : ridx_main_v68 (ix2 n j) k = ix2 k j := funext fun a => Fin.ext (by
    match a with
    | ⟨0, _⟩ => rfl
    | ⟨1, _⟩ => rfl)
  rw [el, er, act_at]

/-- The reference's new features at node n, feature j: the node update of the specification, on the node's own row
    and its row of summed messages. -/
theorem ref_h (n : Fin 50000) (j : Fin 128) :
    val_main_v72 (F := Ideal) x0 x1 x2 x3 x4 x5 x6 x7 x8 x9 x10 x11 x15 x16 (ix2 n j)
      = Spec.hout (cur2 x0 n)
          (Spec.npreR (cur2 x0 n) (cur2 (val_main_v61 (F := Ideal) x0 x1 x2 x3 x4 x5 x6 x7 x15 x16) n) (cur2 x8) (cur1 x9))
          (cur2 x10) (cur1 x11) j := by
  rw [out_at]
  unfold Spec.hout
  refine congrArg (fun s => x0 (ix2 n j) + (s + x11 (ix1 j))) (Finset.sum_congr rfl fun k _ => ?_)
  rw [pre_at]

/-! ## The run's two results are these stages -/

section Results
open Idealize.ShloMosaic.TcCoe Idealize.SL.Sem Idealize.ShloMosaic.StableHlo

/-- The run's first result is the feature update. -/
theorem res_h_eq (m : (ℓ : Loc nD τ sig) → Buf (Elt Ideal) ℓ) (c : Dev nD) :
    Cert.ReferenceIdeal.Value.res_main_v72 (F := Ideal) m c = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg15)) (m ((c.tc : Thread nD τ).loc main_arg16)) :=
  val_main_v72_eq (F := Ideal) m c

/-- The run's second result is the coordinate update. -/
theorem res_x_eq (m : (ℓ : Loc nD τ sig) → Buf (Elt Ideal) ℓ) (c : Dev nD) :
    Cert.ReferenceIdeal.Value.res_main_v92 (F := Ideal) m c = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  val_main_v92_eq (F := Ideal) m c

end Results

end Cert.RefNode

end
-- ==== Proof.PreRange.lean ====
/-
  The index range, read out of the printed precondition.

  The precondition is one i1 word: the conjunction (by and) of sixteen "this float input is finite" words and, last,
  the word "every entry of the [2, 800000] edge list is at least -50000 and below 50000, signed". That last word is a
  reduction by and, from 1, over both axes of the elementwise and of two signed compares of the edge list against the
  constants -50000 (the word 4294917296) and 50000. A conjunction that is 1 has both operands 1; a reduction by and
  that is 1 met a 1 at every entry; a set bit of a signed compare orders the signed values. So every entry of the edge
  list lies in [-50000, 50000).
-/
import proofs.«430614_j61916248539245_1_alg».proof.Pre_finite_inputs
import proofs.«430614_j61916248539245_1_alg».proof.Proof.LibIndexWrap
import Idealize.ShloMosaic.Lib.ReduceAll
import Idealize.ShloMosaic.Lib.StableHlo.Predicate
import Idealize.ShloMosaic.Lib.ValueIdx

noncomputable section

namespace Cert.Proof.PreRange

open Idealize.ShloMosaic Idealize.ShloMosaic.ValueIdx
open Cert.Pre_finite_inputs Cert.Pre_finite_inputs.Facts

/-- A rank-0 array has one index. -/
instance : Subsingleton S_.Idx := ⟨fun a b => funext fun d => d.elim0⟩

/-- The two constants of the range, as signed values. -/
theorem lo_toInt : (4294917296#32 : BitVec 32).toInt = -50000 := by decide
theorem hi_toInt : (50000#32 : BitVec 32).toInt = 50000 := by decide

/-- The last conjunct of the chain: where the tail of the precondition (its last two dozen operations) is 1, the
    reduction by and of the range mask of the edge list is 1. The float conjuncts to its left are not looked at. -/
theorem tail_range {F : FTy → Type} [FloatOps F] [Facts]
    (a2 : IVec S2x800000 32) (a15 : FVec F S128x1 .f32) (a16 : FVec F S1 .f32) (c c' : IVec S_ 1)
    (h : fn_part4 (F := F) a2 a15 a16 c c' ix0 = 1#1) :
    Host.reduce IntOp.andi
      (andi (cmpi .sge a2 (broadcastInDim S2x800000 ![] bcast_S_S2x800000 (constantI S_ 32 4294917296#32)))
        (cmpi .slt a2 (broadcastInDim S2x800000 ![] bcast_S_S2x800000 (constantI S_ 32 50000#32))))
      (constantI S_ 1 1#1) reducesTo_S2x800000_S_d0_1 h_S_ ix0 = 1#1 :=
  (IntOp.andi_eq_one.1 h).2

/-- Every word of the edge list is at least -50000 and below 50000, signed. -/
theorem index_range {F : FTy → Type} [FloatOps F] [Facts]
    (a0 : FVec F S50000x128 .f32) (a1 : FVec F S50000x3 .f32) (a2 : IVec S2x800000 32) (a3 : FVec F S800000x1 .f32) (a4 : FVec F S258x128 .f32) (a5 : FVec F S128 .f32) (a6 : FVec F S128x128 .f32) (a7 : FVec F S128 .f32) (a8 : FVec F S256x128 .f32) (a9 : FVec F S128 .f32) (a10 : FVec F S128x128 .f32) (a11 : FVec F S128 .f32) (a12 : FVec F S128x128 .f32) (a13 : FVec F S128 .f32) (a14 : FVec F S128x1 .f32) (a15 : FVec F S128x1 .f32) (a16 : FVec F S1 .f32)
    (h : fn (F := F) a0 a1 a2 a3 a4 a5 a6 a7 a8 a9 a10 a11 a12 a13 a14 a15 a16 = fun _ => 1#1) :
    ∀ (s : Fin 2) (e : Fin 800000),
      -50000 ≤ (a2 (ix2 s e)).toInt ∧ (a2 (ix2 s e)).toInt < 50000 := by
  intro s e
  -- the whole chain at its one index, and its last conjunct
  have hall := tail_range a2 a15 a16 _ _ (congrFun h ix0)
  -- the reduction over both axes is 1: the mask is 1 at (s, e)
  have hbit := Host.reduce_andi_all _ _ _ _ ix0 hall (ix2 s e)
  -- the mask at (s, e) is the and of the two compares of the word against the two constants
  obtain ⟨hge, hlt⟩ := IntOp.andi_eq_one.1 hbit
  have h1 := IndexWrap.sge_decode (a2 (ix2 s e)) 4294917296#32 hge
  have h2 := IndexWrap.slt_decode (a2 (ix2 s e)) 50000#32 hlt
  rw [lo_toInt] at h1
  rw [hi_toInt] at h2
  exact ⟨h1, h2⟩

end Cert.Proof.PreRange

end
-- ==== Proof.Bridge.lean ====
/-
  The two idealized programs end with equal results. Under the precondition every index word of the edge list lies in
  the index range of the 50000-row tables, so the kernel program's gathers (which mask out-of-range rows) and the
  reference's (which clamp) read the same rows. Edge by edge the kernel's gated message and weighted coordinate
  difference are then the reference's: the same perceptrons of the same rows, the first layer's four block products
  against the one product over the concatenated input. Both programs pass these per-edge arrays through the same host
  operations (the scatter-added sums, the clamped count, the mean), and the node update is again the same perceptron,
  two block products against one product over the concatenated input.
-/
import proofs.«430614_j61916248539245_1_alg».proof.Defs
import proofs.«430614_j61916248539245_1_alg».proof.Proof.KernelEdge
import proofs.«430614_j61916248539245_1_alg».proof.Proof.RefEdge
import proofs.«430614_j61916248539245_1_alg».proof.Proof.RefNode
import proofs.«430614_j61916248539245_1_alg».proof.Proof.PreRange

noncomputable section

namespace Cert.Proof.Bridge

open Idealize.ShloMosaic Idealize.ShloMosaic.TcCoe Idealize.ShloMosaic.ValueIdx Idealize.SL.Sem Cert.Views
open Cert.KernelIdeal Cert.KernelIdeal.Gen Cert.KernelIdeal.Hand Cert.KernelIdeal.Value

variable [Cert.KernelIdeal.Facts] [Cert.ReferenceIdeal.Facts] [Cert.Pre_finite_inputs.Facts]
variable (m : (ℓ : Loc nD τ sig) → Buf (Elt Ideal) ℓ) (c : Dev nD) (hrange : InRange m c)
include hrange

/-- The kernel program's message array is the reference's, as arrays. -/
theorem msg_eq :
    msgK m c = Cert.ReferenceIdeal.Read.val_main_v58 (F := Ideal) (arg m c main_arg0) (arg m c main_arg1) (arg m c main_arg2)
      (arg m c main_arg3) (arg m c main_arg4) (arg m c main_arg5) (arg m c main_arg6) (arg m c main_arg7)
      (arg m c main_arg15) (arg m c main_arg16) := by
  funext i
  obtain ⟨e, j, rfl⟩ : ∃ (e : Fin 800000) (j : Fin 128), i = ix2 e j := ⟨i 0, i 1, eq_ix2 i⟩
  rw [msg_at m c hrange e j, Cert.RefEdge.ref_msg]

/-- The kernel program's weighted coordinate differences are the reference's, as arrays. -/
theorem wd_eq :
    wdK m c = Cert.ReferenceIdeal.Read.val_main_v80 (F := Ideal) (arg m c main_arg0) (arg m c main_arg1) (arg m c main_arg2)
      (arg m c main_arg3) (arg m c main_arg4) (arg m c main_arg5) (arg m c main_arg6) (arg m c main_arg7)
      (arg m c main_arg12) (arg m c main_arg13) (arg m c main_arg14) (arg m c main_arg15) (arg m c main_arg16) := by
  funext i
  obtain ⟨e, d, rfl⟩ : ∃ (e : Fin 800000) (d : Fin 3), i = ix2 e d := ⟨i 0, i 1, eq_ix2 i⟩
  rw [wd_at m c hrange e d, Cert.RefEdge.ref_wd]

/-- The first results agree. -/
theorem h_eq :
    (V11 m (outs m) c main_v37 : S50000x128.Idx → EReal)
      = Cert.ReferenceIdeal.Read.val_main_v72 (F := Ideal) (arg m c main_arg0) (arg m c main_arg1) (arg m c main_arg2)
          (arg m c main_arg3) (arg m c main_arg4) (arg m c main_arg5) (arg m c main_arg6) (arg m c main_arg7)
          (arg m c main_arg8) (arg m c main_arg9) (arg m c main_arg10) (arg m c main_arg11) (arg m c main_arg15)
          (arg m c main_arg16) := by
  funext i
  obtain ⟨n, j, rfl⟩ : ∃ (n : Fin 50000) (j : Fin 128), i = ix2 n j := ⟨i 0, i 1, eq_ix2 i⟩
  rw [hout_at m c n j, Cert.RefNode.ref_h, Cert.RefNode.ref_agg, ← msg_eq m c hrange]

/-- The second results agree. -/
theorem x_eq :
    (V11 m (outs m) c main_v32 : S50000x3.Idx → EReal)
      = Cert.ReferenceIdeal.Read.val_main_v92 (F := Ideal) (arg m c main_arg0) (arg m c main_arg1) (arg m c main_arg2)
          (arg m c main_arg3) (arg m c main_arg4) (arg m c main_arg5) (arg m c main_arg6) (arg m c main_arg7)
          (arg m c main_arg12) (arg m c main_arg13) (arg m c main_arg14) (arg m c main_arg15) (arg m c main_arg16) := by
  rw [xout_eq m c, Cert.RefNode.ref_x, ← wd_eq m c hrange]

end Cert.Proof.Bridge

/-! ## The claim's last conjunct -/

namespace Cert.Proof.Bridge

open Idealize.ShloMosaic Idealize.ShloMosaic.TcCoe Idealize.ShloMosaic.ValueIdx Idealize.SL.Sem Cert.Views

/-- From memories agreeing on the arguments both idealized programs run to their ends with equal results. -/
theorem algebraic [Cert.KernelIdeal.Facts] [Cert.ReferenceIdeal.Facts] [Cert.Pre_finite_inputs.Facts] :
    Cert.algebraic_KernelIdeal_ReferenceIdeal := by
  intro m ρ m' ρ' hpre hagree
  have hrange : ∀ c, Cert.KernelIdeal.Value.InRange m c := fun c =>
    Cert.Proof.PreRange.index_range _ _ _ _ _ _ _ _ _ _ _ _ _ _ _ _ _ (hpre c)
  refine ⟨fun c => Cert.KernelIdeal.Gen.V11 m (Cert.KernelIdeal.Hand.outs m) c Cert.KernelIdeal.main_v37,
    fun c => Cert.KernelIdeal.Gen.V11 m (Cert.KernelIdeal.Hand.outs m) c Cert.KernelIdeal.main_v32,
    Cert.KernelIdeal.Hand.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.RefNode.res_h_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2.1,
      (hagree c).2.2.2.2.2.2.2.2.2.2.2.2.2.2.2.1, (hagree c).2.2.2.2.2.2.2.2.2.2.2.2.2.2.2.2]
    exact (h_eq m c (hrange c)).symm
  · rw [Cert.RefNode.res_x_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1,
      (hagree c).2.2.2.2.2.2.2.2.2.2.2.2.1, (hagree c).2.2.2.2.2.2.2.2.2.2.2.2.2.1, (hagree c).2.2.2.2.2.2.2.2.2.2.2.2.2.2.1,
      (hagree c).2.2.2.2.2.2.2.2.2.2.2.2.2.2.2.1, (hagree c).2.2.2.2.2.2.2.2.2.2.2.2.2.2.2.2]
    exact (x_eq m c (hrange c)).symm

end Cert.Proof.Bridge

end
-- ==== Proof.lean ====
/- The proof of `Cert.Claim`: the three frames, the idealization's (empty) ledger, and the equality of the two idealized
   programs' results over the extended reals.
   The kernel program is host operations around two pipelined kernel calls (the per-edge perceptrons over 500 blocks of
   1600 edges; the node update over 25 blocks of 2000 nodes). Its frame, at the word level and at the ideal instance,
   comes from one run of @main's items in which every unscoped buffer is held at a known valuation between items
   (Proof/Kernel/Run.lean, Proof/KernelIdeal/Run.lean, over each region's proof data and body triple in FrameEdge.lean and
   FrameNode.lean). The reference is host-only: its frame is its run with the results dropped. The results agree edge by
   edge and node by node (Proof/Bridge.lean): see Proof/Spec.lean for the mathematics. -/
import proofs.«430614_j61916248539245_1_alg».proof.Defs
import proofs.«430614_j61916248539245_1_alg».proof.Proof.Gen.Kernel
import proofs.«430614_j61916248539245_1_alg».proof.Proof.Gen.KernelIdeal
import proofs.«430614_j61916248539245_1_alg».proof.Proof.Gen.ReferenceIdeal
import proofs.«430614_j61916248539245_1_alg».proof.Proof.Gen.Pre_finite_inputs
import proofs.«430614_j61916248539245_1_alg».proof.Proof.Kernel.Run
import proofs.«430614_j61916248539245_1_alg».proof.Proof.KernelIdeal.Run
import proofs.«430614_j61916248539245_1_alg».proof.Proof.RefFrame
import proofs.«430614_j61916248539245_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.RefFrame.frame_ri,
    trivial,
    Cert.Proof.Bridge.algebraic⟩

end Cert.Proof

end
